-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) →
    ∃ (v0 : (c : Dev Cert.KernelIdeal.nD) → Buf (Elt Ideal) ((c.tc : Thread Cert.KernelIdeal.nD Cert.KernelIdeal.τ).loc Cert.KernelIdeal.main_v111)) (v1 : (c : Dev Cert.KernelIdeal.nD) → Buf (Elt Ideal) ((c.tc : Thread Cert.KernelIdeal.nD Cert.KernelIdeal.τ).loc Cert.KernelIdeal.main_v116)) (v2 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_v116) = v1 c
          ∧ r.2.mem ((c.tc : Thread Cert.KernelIdeal.nD Cert.KernelIdeal.τ).loc Cert.KernelIdeal.main_v119) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_v175) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100x128 : Shape := ⟨2, ![100, 128]⟩
abbrev S40000x128 : Shape := ⟨2, ![40000, 128]⟩
abbrev S2000000 : Shape := ⟨1, ![2000000]⟩
abbrev S200000 : Shape := ⟨1, ![200000]⟩
abbrev S100000 : Shape := ⟨1, ![100000]⟩
abbrev S100000x1 : Shape := ⟨2, ![100000, 1]⟩
abbrev S100x1 : Shape := ⟨2, ![100, 1]⟩
abbrev S40000x1 : Shape := ⟨2, ![40000, 1]⟩
abbrev S128x256 : Shape := ⟨2, ![128, 256]⟩
abbrev S128 : Shape := ⟨1, ![128]⟩
abbrev S128x128 : Shape := ⟨2, ![128, 128]⟩
abbrev S128x384 : Shape := ⟨2, ![128, 384]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_
  bcast_S_S40000x128 : S_.BroadcastsInDim S40000x128 (![] : Fin 0 → Fin S40000x128.rank)
  reducesTo_S40000x128_S_d0_1 : S40000x128.ReducesTo [0, 1] S_
  bcast_S_S2000000 : S_.BroadcastsInDim S2000000 (![] : Fin 0 → Fin S2000000.rank)
  reducesTo_S2000000_S_d0 : S2000000.ReducesTo [0] S_
  bcast_S_S200000 : S_.BroadcastsInDim S200000 (![] : Fin 0 → Fin S200000.rank)
  reducesTo_S200000_S_d0 : S200000.ReducesTo [0] S_
  bcast_S_S100000x1 : S_.BroadcastsInDim S100000x1 (![] : Fin 0 → Fin S100000x1.rank)
  reducesTo_S100000x1_S_d0_1 : S100000x1.ReducesTo [0, 1] S_
  bcast_S_S100x1 : S_.BroadcastsInDim S100x1 (![] : Fin 0 → Fin S100x1.rank)
  reducesTo_S100x1_S_d0_1 : S100x1.ReducesTo [0, 1] S_
  bcast_S_S40000x1 : S_.BroadcastsInDim S40000x1 (![] : Fin 0 → Fin S40000x1.rank)
  reducesTo_S40000x1_S_d0_1 : S40000x1.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x384 : S_.BroadcastsInDim S128x384 (![] : Fin 0 → Fin S128x384.rank)
  reducesTo_S128x384_S_d0_1 : S128x384.ReducesTo [0, 1] S_
  reducesTo_S_S_d : S_.ReducesTo [] S_
  bcast_S_S100000 : S_.BroadcastsInDim S100000 (![] : Fin 0 → Fin S100000.rank)
  reducesTo_S100000_S_d0 : S100000.ReducesTo [0] S_

variable [Facts]

def fn_part6 {F : FTy → Type} [FloatOps F] (main_arg18 : IVec S100000 32) (main_arg32 : FVec F S_ .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S_ .f32 := Host.absf main_arg32
  let main_cst_40 : FVec F S_ .f32 := constant S_ .f32 0x7F800000#32
  let main_v105 : IVec S_ 1 := cmpf .olt main_v104 main_cst_40
  let main_c_41 : IVec S_ 1 := constantI S_ 1 1#1
  let main_v106 : IVec S_ 1 := (fun x v => Host.reduce IntOp.andi x v reducesTo_S_S_d h_S_) main_v105 main_c_41
  let main_v107 : IVec S_ 1 := andi main_v103 main_v106
  let main_c_42 : IVec S_ 32 := constantI S_ 32 0#32
  let main_v108 : IVec S100000 32 := broadcastInDim S100000 ![] bcast_S_S100000 main_c_42
  let main_v109 : IVec S100000 1 := cmpi .sge main_arg18 main_v108
  let main_c_43 : IVec S_ 32 := constantI S_ 32 100#32
  let main_v110 : IVec S100000 32 := broadcastInDim S100000 ![] bcast_S_S100000 main_c_43
  let main_v111 : IVec S100000 1 := cmpi .slt main_arg18 main_v110
  let main_v112 : IVec S100000 1 := andi main_v109 main_v111
  let main_c_44 : IVec S_ 1 := constantI S_ 1 1#1
  let main_v113 : IVec S_ 1 := (fun x v => Host.reduce IntOp.andi x v reducesTo_S100000_S_d0 h_S_) main_v112 main_c_44
  let main_v114 : IVec S_ 1 := andi main_v107 main_v113
  main_v114

def fn_part5 {F : FTy → Type} [FloatOps F] (main_arg18 : IVec S100000 32) (main_arg29 : FVec F S128 .f32) (main_arg30 : FVec F S128x384 .f32) (main_arg31 : FVec F S128 .f32) (main_arg32 : FVec F S_ .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg29
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x384 .f32 := Host.absf main_arg30
  let main_cst_36 : FVec F S_ .f32 := constant S_ .f32 0x7F800000#32
  let main_v95 : FVec F S128x384 .f32 := broadcastInDim S128x384 ![] bcast_S_S128x384 main_cst_36
  let main_v96 : IVec S128x384 1 := cmpf .olt main_v94 main_v95
  let main_c_37 : IVec S_ 1 := constantI S_ 1 1#1
  let main_v97 : IVec S_ 1 := (fun x v => Host.reduce IntOp.andi x v reducesTo_S128x384_S_d0_1 h_S_) main_v96 main_c_37
  let main_v98 : IVec S_ 1 := andi main_v93 main_v97
  let main_v99 : FVec F S128 .f32 := Host.absf main_arg31
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg18 main_arg32 main_v98 main_v101 main_c_39

def fn_part4 {F : FTy → Type} [FloatOps F] (main_arg18 : IVec S100000 32) (main_arg25 : FVec F S128 .f32) (main_arg26 : FVec F S128x256 .f32) (main_arg27 : FVec F S128 .f32) (main_arg28 : FVec F S128x128 .f32) (main_arg29 : FVec F S128 .f32) (main_arg30 : FVec F S128x384 .f32) (main_arg31 : FVec F S128 .f32) (main_arg32 : FVec F S_ .f32) (main_v63 : IVec S_ 1) (main_v67 : IVec S_ 1) : IVec S_ 1 :=
  let main_v68 : IVec S_ 1 := andi main_v63 main_v67
  let main_v69 : FVec F S128 .f32 := Host.absf main_arg25
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x256 .f32 := Host.absf main_arg26
  let main_cst_28 : FVec F S_ .f32 := constant S_ .f32 0x7F800000#32
  let main_v75 : FVec F S128x256 .f32 := broadcastInDim S128x256 ![] bcast_S_S128x256 main_cst_28
  let main_v76 : IVec S128x256 1 := cmpf .olt main_v74 main_v75
  let main_c_29 : IVec S_ 1 := constantI S_ 1 1#1
  let main_v77 : IVec S_ 1 := (fun x v => Host.reduce IntOp.andi x v reducesTo_S128x256_S_d0_1 h_S_) main_v76 main_c_29
  let main_v78 : IVec S_ 1 := andi main_v73 main_v77
  let main_v79 : FVec F S128 .f32 := Host.absf main_arg27
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg28
  let main_cst_32 : FVec F S_ .f32 := constant S_ .f32 0x7F800000#32
  fn_part5 (F := F) main_arg18 main_arg29 main_arg30 main_arg31 main_arg32 main_v83 main_v84 main_cst_32

def fn_part3 {F : FTy → Type} [FloatOps F] (main_arg18 : IVec S100000 32) (main_arg22 : FVec F S128x256 .f32) (main_arg23 : FVec F S128 .f32) (main_arg24 : FVec F S128x128 .f32) (main_arg25 : FVec F S128 .f32) (main_arg26 : FVec F S128x256 .f32) (main_arg27 : FVec F S128 .f32) (main_arg28 : FVec F S128x128 .f32) (main_arg29 : FVec F S128 .f32) (main_arg30 : FVec F S128x384 .f32) (main_arg31 : FVec F S128 .f32) (main_arg32 : FVec F S_ .f32) (main_v48 : IVec S_ 1) (main_v49 : FVec F S40000x1 .f32) (main_v50 : FVec F S40000x1 .f32) : IVec S_ 1 :=
  let main_v51 : IVec S40000x1 1 := cmpf .olt main_v49 main_v50
  let main_c_19 : IVec S_ 1 := constantI S_ 1 1#1
  let main_v52 : IVec S_ 1 := (fun x v => Host.reduce IntOp.andi x v reducesTo_S40000x1_S_d0_1 h_S_) main_v51 main_c_19
  let main_v53 : IVec S_ 1 := andi main_v48 main_v52
  let main_v54 : FVec F S128x256 .f32 := Host.absf main_arg22
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S128 .f32 := Host.absf main_arg23
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg24
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg18 main_arg25 main_arg26 main_arg27 main_arg28 main_arg29 main_arg30 main_arg31 main_arg32 main_v63 main_v67

def fn_part2 {F : FTy → Type} [FloatOps F] (main_arg17 : FVec F S2000000 .f32) (main_arg18 : IVec S100000 32) (main_arg19 : FVec F S100000x1 .f32) (main_arg20 : FVec F S100x1 .f32) (main_arg21 : FVec F S40000x1 .f32) (main_arg22 : FVec F S128x256 .f32) (main_arg23 : FVec F S128 .f32) (main_arg24 : FVec F S128x128 .f32) (main_arg25 : FVec F S128 .f32) (main_arg26 : FVec F S128x256 .f32) (main_arg27 : FVec F S128 .f32) (main_arg28 : FVec F S128x128 .f32) (main_arg29 : FVec F S128 .f32) (main_arg30 : FVec F S128x384 .f32) (main_arg31 : FVec F S128 .f32) (main_arg32 : FVec F S_ .f32) (main_v33 : IVec S_ 1) : IVec S_ 1 :=
  let main_v34 : FVec F S2000000 .f32 := Host.absf main_arg17
  let main_cst_12 : FVec F S_ .f32 := constant S_ .f32 0x7F800000#32
  let main_v35 : FVec F S2000000 .f32 := broadcastInDim S2000000 ![] bcast_S_S2000000 main_cst_12
  let main_v36 : IVec S2000000 1 := cmpf .olt main_v34 main_v35
  let main_c_13 : IVec S_ 1 := constantI S_ 1 1#1
  let main_v37 : IVec S_ 1 := (fun x v => Host.reduce IntOp.andi x v reducesTo_S2000000_S_d0 h_S_) main_v36 main_c_13
  let main_v38 : IVec S_ 1 := andi main_v33 main_v37
  let main_v39 : FVec F S100000x1 .f32 := Host.absf main_arg19
  let main_cst_14 : FVec F S_ .f32 := constant S_ .f32 0x7F800000#32
  let main_v40 : FVec F S100000x1 .f32 := broadcastInDim S100000x1 ![] bcast_S_S100000x1 main_cst_14
  let main_v41 : IVec S100000x1 1 := cmpf .olt main_v39 main_v40
  let main_c_15 : IVec S_ 1 := constantI S_ 1 1#1
  let main_v42 : IVec S_ 1 := (fun x v => Host.reduce IntOp.andi x v reducesTo_S100000x1_S_d0_1 h_S_) main_v41 main_c_15
  let main_v43 : IVec S_ 1 := andi main_v38 main_v42
  let main_v44 : FVec F S100x1 .f32 := Host.absf main_arg20
  let main_cst_16 : FVec F S_ .f32 := constant S_ .f32 0x7F800000#32
  let main_v45 : FVec F S100x1 .f32 := broadcastInDim S100x1 ![] bcast_S_S100x1 main_cst_16
  let main_v46 : IVec S100x1 1 := cmpf .olt main_v44 main_v45
  let main_c_17 : IVec S_ 1 := constantI S_ 1 1#1
  let main_v47 : IVec S_ 1 := (fun x v => Host.reduce IntOp.andi x v reducesTo_S100x1_S_d0_1 h_S_) main_v46 main_c_17
  let main_v48 : IVec S_ 1 := andi main_v43 main_v47
  let main_v49 : FVec F S40000x1 .f32 := Host.absf main_arg21
  let main_cst_18 : FVec F S_ .f32 := constant S_ .f32 0x7F800000#32
  let main_v50 : FVec F S40000x1 .f32 := broadcastInDim S40000x1 ![] bcast_S_S40000x1 main_cst_18
  fn_part3 (F := F) main_arg18 main_arg22 main_arg23 main_arg24 main_arg25 main_arg26 main_arg27 main_arg28 main_arg29 main_arg30 main_arg31 main_arg32 main_v48 main_v49 main_v50

def fn_part1 {F : FTy → Type} [FloatOps F] (main_arg8 : FVec F S200000 .f32) (main_arg11 : FVec F S2000000 .f32) (main_arg14 : FVec F S200000 .f32) (main_arg17 : FVec F S2000000 .f32) (main_arg18 : IVec S100000 32) (main_arg19 : FVec F S100000x1 .f32) (main_arg20 : FVec F S100x1 .f32) (main_arg21 : FVec F S40000x1 .f32) (main_arg22 : FVec F S128x256 .f32) (main_arg23 : FVec F S128 .f32) (main_arg24 : FVec F S128x128 .f32) (main_arg25 : FVec F S128 .f32) (main_arg26 : FVec F S128x256 .f32) (main_arg27 : FVec F S128 .f32) (main_arg28 : FVec F S128x128 .f32) (main_arg29 : FVec F S128 .f32) (main_arg30 : FVec F S128x384 .f32) (main_arg31 : FVec F S128 .f32) (main_arg32 : FVec F S_ .f32) (main_v13 : IVec S_ 1) (main_v16 : IVec S2000000 1) : IVec S_ 1 :=
  let main_c_5 : IVec S_ 1 := constantI S_ 1 1#1
  let main_v17 : IVec S_ 1 := (fun x v => Host.reduce IntOp.andi x v reducesTo_S2000000_S_d0 h_S_) main_v16 main_c_5
  let main_v18 : IVec S_ 1 := andi main_v13 main_v17
  let main_v19 : FVec F S200000 .f32 := Host.absf main_arg8
  let main_cst_6 : FVec F S_ .f32 := constant S_ .f32 0x7F800000#32
  let main_v20 : FVec F S200000 .f32 := broadcastInDim S200000 ![] bcast_S_S200000 main_cst_6
  let main_v21 : IVec S200000 1 := cmpf .olt main_v19 main_v20
  let main_c_7 : IVec S_ 1 := constantI S_ 1 1#1
  let main_v22 : IVec S_ 1 := (fun x v => Host.reduce IntOp.andi x v reducesTo_S200000_S_d0 h_S_) main_v21 main_c_7
  let main_v23 : IVec S_ 1 := andi main_v18 main_v22
  let main_v24 : FVec F S2000000 .f32 := Host.absf main_arg11
  let main_cst_8 : FVec F S_ .f32 := constant S_ .f32 0x7F800000#32
  let main_v25 : FVec F S2000000 .f32 := broadcastInDim S2000000 ![] bcast_S_S2000000 main_cst_8
  let main_v26 : IVec S2000000 1 := cmpf .olt main_v24 main_v25
  let main_c_9 : IVec S_ 1 := constantI S_ 1 1#1
  let main_v27 : IVec S_ 1 := (fun x v => Host.reduce IntOp.andi x v reducesTo_S2000000_S_d0 h_S_) main_v26 main_c_9
  let main_v28 : IVec S_ 1 := andi main_v23 main_v27
  let main_v29 : FVec F S200000 .f32 := Host.absf main_arg14
  let main_cst_10 : FVec F S_ .f32 := constant S_ .f32 0x7F800000#32
  let main_v30 : FVec F S200000 .f32 := broadcastInDim S200000 ![] bcast_S_S200000 main_cst_10
  let main_v31 : IVec S200000 1 := cmpf .olt main_v29 main_v30
  let main_c_11 : IVec S_ 1 := constantI S_ 1 1#1
  let main_v32 : IVec S_ 1 := (fun x v => Host.reduce IntOp.andi x v reducesTo_S200000_S_d0 h_S_) main_v31 main_c_11
  let main_v33 : IVec S_ 1 := andi main_v28 main_v32
  fn_part2 (F := F) main_arg17 main_arg18 main_arg19 main_arg20 main_arg21 main_arg22 main_arg23 main_arg24 main_arg25 main_arg26 main_arg27 main_arg28 main_arg29 main_arg30 main_arg31 main_arg32 main_v33

def fn {F : FTy → Type} [FloatOps F] (main_arg0 : FVec F S100000x128 .f32) (main_arg1 : FVec F S100x128 .f32) (main_arg2 : FVec F S40000x128 .f32) (main_arg3 : IVec S2000000 32) (main_arg4 : IVec S2000000 32) (main_arg5 : FVec F S2000000 .f32) (main_arg6 : IVec S200000 32) (main_arg7 : IVec S200000 32) (main_arg8 : FVec F S200000 .f32) (main_arg9 : IVec S2000000 32) (main_arg10 : IVec S2000000 32) (main_arg11 : FVec F S2000000 .f32) (main_arg12 : IVec S200000 32) (main_arg13 : IVec S200000 32) (main_arg14 : FVec F S200000 .f32) (main_arg15 : IVec S2000000 32) (main_arg16 : IVec S2000000 32) (main_arg17 : FVec F S2000000 .f32) (main_arg18 : IVec S100000 32) (main_arg19 : FVec F S100000x1 .f32) (main_arg20 : FVec F S100x1 .f32) (main_arg21 : FVec F S40000x1 .f32) (main_arg22 : FVec F S128x256 .f32) (main_arg23 : FVec F S128 .f32) (main_arg24 : FVec F S128x128 .f32) (main_arg25 : FVec F S128 .f32) (main_arg26 : FVec F S128x256 .f32) (main_arg27 : FVec F S128 .f32) (main_arg28 : FVec F S128x128 .f32) (main_arg29 : FVec F S128 .f32) (main_arg30 : FVec F S128x384 .f32) (main_arg31 : FVec F S128 .f32) (main_arg32 : FVec F S_ .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100x128 .f32 := Host.absf main_arg1
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  let main_v9 : FVec F S40000x128 .f32 := Host.absf main_arg2
  let main_cst_2 : FVec F S_ .f32 := constant S_ .f32 0x7F800000#32
  let main_v10 : FVec F S40000x128 .f32 := broadcastInDim S40000x128 ![] bcast_S_S40000x128 main_cst_2
  let main_v11 : IVec S40000x128 1 := cmpf .olt main_v9 main_v10
  let main_c_3 : IVec S_ 1 := constantI S_ 1 1#1
  let main_v12 : IVec S_ 1 := (fun x v => Host.reduce IntOp.andi x v reducesTo_S40000x128_S_d0_1 h_S_) main_v11 main_c_3
  let main_v13 : IVec S_ 1 := andi main_v8 main_v12
  let main_v14 : FVec F S2000000 .f32 := Host.absf main_arg5
  let main_cst_4 : FVec F S_ .f32 := constant S_ .f32 0x7F800000#32
  let main_v15 : FVec F S2000000 .f32 := broadcastInDim S2000000 ![] bcast_S_S2000000 main_cst_4
  let main_v16 : IVec S2000000 1 := cmpf .olt main_v14 main_v15
  fn_part1 (F := F) main_arg8 main_arg11 main_arg14 main_arg17 main_arg18 main_arg19 main_arg20 main_arg21 main_arg22 main_arg23 main_arg24 main_arg25 main_arg26 main_arg27 main_arg28 main_arg29 main_arg30 main_arg31 main_arg32 main_v13 main_v16
-- ==== Kernel.lean ====
abbrev S100000x128 : Shape := ⟨2, ![100000, 128]⟩
abbrev S100x128 : Shape := ⟨2, ![100, 128]⟩
abbrev S40000x128 : Shape := ⟨2, ![40000, 128]⟩
abbrev S2000000 : Shape := ⟨1, ![2000000]⟩
abbrev S200000 : Shape := ⟨1, ![200000]⟩
abbrev S100000 : Shape := ⟨1, ![100000]⟩
abbrev S100000x1 : Shape := ⟨2, ![100000, 1]⟩
abbrev S100x1 : Shape := ⟨2, ![100, 1]⟩
abbrev S40000x1 : Shape := ⟨2, ![40000, 1]⟩
abbrev S128x256 : Shape := ⟨2, ![128, 256]⟩
abbrev S128 : Shape := ⟨1, ![128]⟩
abbrev S128x128 : Shape := ⟨2, ![128, 128]⟩
abbrev S128x384 : Shape := ⟨2, ![128, 384]⟩
abbrev S_ : Shape := ⟨0, ![]⟩
abbrev S200000x1 : Shape := ⟨2, ![200000, 1]⟩
abbrev S200000x128 : Shape := ⟨2, ![200000, 128]⟩
abbrev S2000000x1 : Shape := ⟨2, ![2000000, 1]⟩
abbrev S2000000x128 : Shape := ⟨2, ![2000000, 128]⟩
abbrev S100 : Shape := ⟨1, ![100]⟩
abbrev S40000 : Shape := ⟨1, ![40000]⟩
abbrev S2000x1 : Shape := ⟨2, ![2000, 1]⟩
abbrev S2000x128 : Shape := ⟨2, ![2000, 128]⟩
abbrev S256x128 : Shape := ⟨2, ![256, 128]⟩
abbrev S1x1 : Shape := ⟨2, ![1, 1]⟩
abbrev S1000x128 : Shape := ⟨2, ![1000, 128]⟩
abbrev S1000x1 : Shape := ⟨2, ![1000, 1]⟩
abbrev S1000x256 : Shape := ⟨2, ![1000, 256]⟩
abbrev S1x128 : Shape := ⟨2, ![1, 128]⟩
abbrev S100x256 : Shape := ⟨2, ![100, 256]⟩
abbrev S384x128 : Shape := ⟨2, ![384, 128]⟩
abbrev S1000x384 : Shape := ⟨2, ![1000, 384]⟩

abbrev nBuf : Space → Nat
  | .hbm => 179
  | .vmem => 42
  | .smem => 0
  | _ => 0

abbrev hbmTy0_0 (i : Nat) : BufTy := match i % 128 with
  | 0 => ⟨S100000x128, .f32⟩
  | 1 => ⟨S100x128, .f32⟩
  | 2 => ⟨S40000x128, .f32⟩
  | 3 => ⟨S2000000, .i32⟩
  | 4 => ⟨S2000000, .i32⟩
  | 5 => ⟨S2000000, .f32⟩
  | 6 => ⟨S200000, .i32⟩
  | 7 => ⟨S200000, .i32⟩
  | 8 => ⟨S200000, .f32⟩
  | 9 => ⟨S2000000, .i32⟩
  | 10 => ⟨S2000000, .i32⟩
  | 11 => ⟨S2000000, .f32⟩
  | 12 => ⟨S200000, .i32⟩
  | 13 => ⟨S200000, .i32⟩
  | 14 => ⟨S200000, .f32⟩
  | 15 => ⟨S2000000, .i32⟩
  | 16 => ⟨S2000000, .i32⟩
  | 17 => ⟨S2000000, .f32⟩
  | 18 => ⟨S100000, .i32⟩
  | 19 => ⟨S100000x1, .f32⟩
  | 20 => ⟨S100x1, .f32⟩
  | 21 => ⟨S40000x1, .f32⟩
  | 22 => ⟨S128x256, .f32⟩
  | 23 => ⟨S128, .f32⟩
  | 24 => ⟨S128x128, .f32⟩
  | 25 => ⟨S128, .f32⟩
  | 26 => ⟨S128x256, .f32⟩
  | 27 => ⟨S128, .f32⟩
  | 28 => ⟨S128x128, .f32⟩
  | 29 => ⟨S128, .f32⟩
  | 30 => ⟨S128x384, .f32⟩
  | 31 => ⟨S128, .f32⟩
  | 32 => ⟨S_, .f32⟩
  | 33 => ⟨S200000x1, .f32⟩
  | 34 => ⟨S_, .i32⟩
  | 35 => ⟨S200000, .i32⟩
  | 36 => ⟨S200000, .i1⟩
  | 37 => ⟨S_, .i32⟩
  | 38 => ⟨S200000, .i32⟩
  | 39 => ⟨S200000, .i32⟩
  | 40 => ⟨S200000, .i32⟩
  | 41 => ⟨S200000x1, .i32⟩
  | 42 => ⟨S200000x128, .f32⟩
  | 43 => ⟨S200000x128, .f32⟩
  | 44 => ⟨S200000x128, .f32⟩
  | 45 => ⟨S_, .f32⟩
  | 46 => ⟨S100000x128, .f32⟩
  | 47 => ⟨S200000x1, .i32⟩
  | 48 => ⟨S100000x128, .f32⟩
  | 49 => ⟨S2000000x1, .f32⟩
  | 50 => ⟨S_, .i32⟩
  | 51 => ⟨S2000000, .i32⟩
  | 52 => ⟨S2000000, .i1⟩
  | 53 => ⟨S_, .i32⟩
  | 54 => ⟨S2000000, .i32⟩
  | 55 => ⟨S2000000, .i32⟩
  | 56 => ⟨S2000000, .i32⟩
  | 57 => ⟨S2000000x1, .i32⟩
  | 58 => ⟨S2000000x128, .f32⟩
  | 59 => ⟨S2000000x128, .f32⟩
  | 60 => ⟨S2000000x128, .f32⟩
  | 61 => ⟨S_, .f32⟩
  | 62 => ⟨S100000x128, .f32⟩
  | 63 => ⟨S2000000x1, .i32⟩
  | 64 => ⟨S100000x128, .f32⟩
  | 65 => ⟨S2000000x1, .f32⟩
  | 66 => ⟨S_, .i32⟩
  | 67 => ⟨S2000000, .i32⟩
  | 68 => ⟨S2000000, .i1⟩
  | 69 => ⟨S_, .i32⟩
  | 70 => ⟨S2000000, .i32⟩
  | 71 => ⟨S2000000, .i32⟩
  | 72 => ⟨S2000000, .i32⟩
  | 73 => ⟨S2000000x1, .i32⟩
  | 74 => ⟨S2000000x128, .f32⟩
  | 75 => ⟨S2000000x128, .f32⟩
  | 76 => ⟨S2000000x128, .f32⟩
  | 77 => ⟨S_, .f32⟩
  | 78 => ⟨S100000x128, .f32⟩
  | 79 => ⟨S2000000x1, .i32⟩
  | 80 => ⟨S100000x128, .f32⟩
  | 81 => ⟨S_, .f32⟩
  | 82 => ⟨S100000, .f32⟩
  | 83 => ⟨S2000000x1, .i32⟩
  | 84 => ⟨S100000, .f32⟩
  | 85 => ⟨S100000x1, .f32⟩
  | 86 => ⟨S_, .f32⟩
  | 87 => ⟨S100000x1, .f32⟩
  | 88 => ⟨S100000x1, .f32⟩
  | 89 => ⟨S100000x128, .f32⟩
  | 90 => ⟨S100000x128, .f32⟩
  | 91 => ⟨S200000x1, .f32⟩
  | 92 => ⟨S_, .i32⟩
  | 93 => ⟨S200000, .i32⟩
  | 94 => ⟨S200000, .i1⟩
  | 95 => ⟨S_, .i32⟩
  | 96 => ⟨S200000, .i32⟩
  | 97 => ⟨S200000, .i32⟩
  | 98 => ⟨S200000, .i32⟩
  | 99 => ⟨S200000x1, .i32⟩
  | 100 => ⟨S200000x128, .f32⟩
  | 101 => ⟨S200000x128, .f32⟩
  | 102 => ⟨S200000x128, .f32⟩
  | 103 => ⟨S_, .f32⟩
  | 104 => ⟨S100x128, .f32⟩
  | 105 => ⟨S200000x1, .i32⟩
  | 106 => ⟨S100x128, .f32⟩
  | 107 => ⟨S_, .f32⟩
  | 108 => ⟨S100, .f32⟩
  | 109 => ⟨S200000x1, .i32⟩
  | 110 => ⟨S100, .f32⟩
  | 111 => ⟨S100x1, .f32⟩
  | 112 => ⟨S_, .f32⟩
  | 113 => ⟨S100x1, .f32⟩
  | 114 => ⟨S100x1, .f32⟩
  | 115 => ⟨S100x128, .f32⟩
  | 116 => ⟨S100x128, .f32⟩
  | 117 => ⟨S2000000x1, .f32⟩
  | 118 => ⟨S_, .i32⟩
  | 119 => ⟨S2000000, .i32⟩
  | 120 => ⟨S2000000, .i1⟩
  | 121 => ⟨S_, .i32⟩
  | 122 => ⟨S2000000, .i32⟩
  | 123 => ⟨S2000000, .i32⟩
  | 124 => ⟨S2000000, .i32⟩
  | 125 => ⟨S2000000x1, .i32⟩
  | 126 => ⟨S2000000x128, .f32⟩
  | 127 => ⟨S2000000x128, .f32⟩
  | _ => ⟨S100000x128, .f32⟩

abbrev hbmTy0_1 (i : Nat) : BufTy := match i % 128 with
  | 0 => ⟨S2000000x128, .f32⟩
  | 1 => ⟨S_, .f32⟩
  | 2 => ⟨S40000x128, .f32⟩
  | 3 => ⟨S2000000x1, .i32⟩
  | 4 => ⟨S40000x128, .f32⟩
  | 5 => ⟨S_, .f32⟩
  | 6 => ⟨S40000, .f32⟩
  | 7 => ⟨S2000000x1, .i32⟩
  | 8 => ⟨S40000, .f32⟩
  | 9 => ⟨S40000x1, .f32⟩
  | 10 => ⟨S_, .f32⟩
  | 11 => ⟨S40000x1, .f32⟩
  | 12 => ⟨S40000x1, .f32⟩
  | 13 => ⟨S40000x128, .f32⟩
  | 14 => ⟨S40000x128, .f32⟩
  | 15 => ⟨S_, .i32⟩
  | 16 => ⟨S_, .f32⟩
  | 17 => ⟨S128x128, .f32⟩
  | 18 => ⟨S128x128, .bf16⟩
  | 19 => ⟨S100000x1, .i32⟩
  | 20 => ⟨S100000x128, .f32⟩
  | 21 => ⟨S2000000x1, .f32⟩
  | 22 => ⟨S_, .i32⟩
  | 23 => ⟨S2000000, .i32⟩
  | 24 => ⟨S2000000, .i1⟩
  | 25 => ⟨S_, .i32⟩
  | 26 => ⟨S2000000, .i32⟩
  | 27 => ⟨S2000000, .i32⟩
  | 28 => ⟨S2000000, .i32⟩
  | 29 => ⟨S2000000x1, .i32⟩
  | 30 => ⟨S2000000x128, .f32⟩
  | 31 => ⟨S2000000x128, .f32⟩
  | 32 => ⟨S2000000x128, .f32⟩
  | 33 => ⟨S_, .f32⟩
  | 34 => ⟨S40000x128, .f32⟩
  | 35 => ⟨S2000000x1, .i32⟩
  | 36 => ⟨S40000x128, .f32⟩
  | 37 => ⟨S256x128, .f32⟩
  | 38 => ⟨S256x128, .bf16⟩
  | 39 => ⟨S128x128, .f32⟩
  | 40 => ⟨S128x128, .bf16⟩
  | 41 => ⟨S1x1, .f32⟩
  | 42 => ⟨S100000x128, .f32⟩
  | 43 => ⟨S256x128, .f32⟩
  | 44 => ⟨S256x128, .bf16⟩
  | 45 => ⟨S128x128, .f32⟩
  | 46 => ⟨S128x128, .bf16⟩
  | 47 => ⟨S100x128, .f32⟩
  | 48 => ⟨S384x128, .f32⟩
  | 49 => ⟨S384x128, .bf16⟩
  | 50 => ⟨S40000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x1, .i32⟩
  | .local _ .vmem, ⟨1, _⟩ => ⟨S2000x1, .i32⟩
  | .local _ .vmem, ⟨2, _⟩ => ⟨S128x128, .bf16⟩
  | .local _ .vmem, ⟨3, _⟩ => ⟨S2000x128, .f32⟩
  | .local _ .vmem, ⟨4, _⟩ => ⟨S2000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x1, .f32⟩
  | .local _ .vmem, ⟨14, _⟩ => ⟨S1000x1, .f32⟩
  | .local _ .vmem, ⟨15, _⟩ => ⟨S1x1, .f32⟩
  | .local _ .vmem, ⟨16, _⟩ => ⟨S256x128, .bf16⟩
  | .local _ .vmem, ⟨17, _⟩ => ⟨S128, .f32⟩
  | .local _ .vmem, ⟨18, _⟩ => ⟨S128x128, .bf16⟩
  | .local _ .vmem, ⟨19, _⟩ => ⟨S128, .f32⟩
  | .local _ .vmem, ⟨20, _⟩ => ⟨S1000x128, .f32⟩
  | .local _ .vmem, ⟨21, _⟩ => ⟨S1000x128, .f32⟩
  | .local _ .vmem, ⟨22, _⟩ => ⟨S100x128, .f32⟩
  | .local _ .vmem, ⟨23, _⟩ => ⟨S100x128, .f32⟩
  | .local _ .vmem, ⟨24, _⟩ => ⟨S100x1, .f32⟩
  | .local _ .vmem, ⟨25, _⟩ => ⟨S256x128, .bf16⟩
  | .local _ .vmem, ⟨26, _⟩ => ⟨S128, .f32⟩
  | .local _ .vmem, ⟨27, _⟩ => ⟨S128x128, .bf16⟩
  | .local _ .vmem, ⟨28, _⟩ => ⟨S128, .f32⟩
  | .local _ .vmem, ⟨29, _⟩ => ⟨S100x128, .f32⟩
  | .local _ .vmem, ⟨30, _⟩ => ⟨S1000x128, .f32⟩
  | .local _ .vmem, ⟨31, _⟩ => ⟨S1000x128, .f32⟩
  | .local _ .vmem, ⟨32, _⟩ => ⟨S1000x128, .f32⟩
  | .local _ .vmem, ⟨33, _⟩ => ⟨S1000x128, .f32⟩
  | .local _ .vmem, ⟨34, _⟩ => ⟨S1000x1, .f32⟩
  | .local _ .vmem, ⟨35, _⟩ => ⟨S1000x1, .f32⟩
  | .local _ .vmem, ⟨36, _⟩ => ⟨S1000x128, .f32⟩
  | .local _ .vmem, ⟨37, _⟩ => ⟨S1000x128, .f32⟩
  | .local _ .vmem, ⟨38, _⟩ => ⟨S384x128, .bf16⟩
  | .local _ .vmem, ⟨39, _⟩ => ⟨S128, .f32⟩
  | .local _ .vmem, ⟨40, _⟩ => ⟨S1000x128, .f32⟩
  | .local _ .vmem, ⟨41, _⟩ => ⟨S1000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_c : Ref sig .tc := ⟨.hbm, 34, rfl⟩
abbrev main_v1 : Ref sig .tc := ⟨.hbm, 35, rfl⟩
abbrev main_v2 : Ref sig .tc := ⟨.hbm, 36, rfl⟩
abbrev main_c_0 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_cst : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_c_1 : Ref sig .tc := ⟨.hbm, 50, rfl⟩
abbrev main_v14 : Ref sig .tc := ⟨.hbm, 51, rfl⟩
abbrev main_v15 : Ref sig .tc := ⟨.hbm, 52, rfl⟩
abbrev main_c_2 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_cst_3 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_c_4 : Ref sig .tc := ⟨.hbm, 66, rfl⟩
abbrev main_v27 : Ref sig .tc := ⟨.hbm, 67, rfl⟩
abbrev main_v28 : Ref sig .tc := ⟨.hbm, 68, rfl⟩
abbrev main_c_5 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_6 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_7 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_cst_8 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_c_9 : Ref sig .tc := ⟨.hbm, 92, rfl⟩
abbrev main_v48 : Ref sig .tc := ⟨.hbm, 93, rfl⟩
abbrev main_v49 : Ref sig .tc := ⟨.hbm, 94, rfl⟩
abbrev main_c_10 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_cst_11 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_cst_12 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_13 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_c_14 : Ref sig .tc := ⟨.hbm, 118, rfl⟩
abbrev main_v69 : Ref sig .tc := ⟨.hbm, 119, rfl⟩
abbrev main_v70 : Ref sig .tc := ⟨.hbm, 120, rfl⟩
abbrev main_c_15 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_16 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_cst_17 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_cst_18 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_c_19 : Ref sig .tc := ⟨.hbm, 143, rfl⟩
abbrev main_call0_v0 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_c_20 : Ref sig .tc := ⟨.hbm, 150, rfl⟩
abbrev main_v94 : Ref sig .tc := ⟨.hbm, 151, rfl⟩
abbrev main_v95 : Ref sig .tc := ⟨.hbm, 152, rfl⟩
abbrev main_c_21 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_cst_22 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg10_1 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg6_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21
abbrev cc2_sem0_0 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem5_0 : DmaSem sig := 39
abbrev cc3_sem6_0 : DmaSem sig := 40
abbrev cc3_sem6_1 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S100x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S100x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S100x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S100x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S384x128 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S200000_S200000x1_0 : S200000.BroadcastsInDim S200000x1 (![0] : Fin 1 → Fin S200000x1.rank)
  bcast_S_S200000 : S_.BroadcastsInDim S200000 (![] : Fin 0 → Fin S200000.rank)
  bcast_S200000x1_S200000x128_0_1 : S200000x1.BroadcastsInDim S200000x128 (![0, 1] : Fin 2 → Fin S200000x128.rank)
  bcast_S_S100000x128 : S_.BroadcastsInDim S100000x128 (![] : Fin 0 → Fin S100000x128.rank)
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x128_0_1 : S2000000x1.BroadcastsInDim S2000000x128 (![0, 1] : Fin 2 → Fin S2000000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S100x128 : S_.BroadcastsInDim S100x128 (![] : Fin 0 → Fin S100x128.rank)
  bcast_S_S100 : S_.BroadcastsInDim S100 (![] : Fin 0 → Fin S100.rank)
  bcast_S100_S100x1_0 : S100.BroadcastsInDim S100x1 (![0] : Fin 1 → Fin S100x1.rank)
  bcast_S_S100x1 : S_.BroadcastsInDim S100x1 (![] : Fin 0 → Fin S100x1.rank)
  bcast_S100x1_S100x128_0_1 : S100x1.BroadcastsInDim S100x128 (![0, 1] : Fin 2 → Fin S100x128.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S_S40000x1 : S_.BroadcastsInDim S40000x1 (![] : Fin 0 → Fin S40000x1.rank)
  bcast_S40000x1_S40000x128_0_1 : S40000x1.BroadcastsInDim S40000x128 (![0, 1] : Fin 2 → Fin S40000x128.rank)
  pads_S100x128_S128x128_0280_000 : S100x128.Pads (![0, 0] : Fin 2 → Nat) ![28, 0] ![0, 0] S128x128
  h_S_ : 0 < S_.numel
  bitsLt_bf16_f32 : FTy.bits .bf16 < FTy.bits .f32
  shapeCasts_S100000_S100000x1 : S100000.ShapeCasts S100000x1
  iota_S2000x128_d1_w32 : S2000x128.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  natLt_1_32 : 1 < 32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2000x128_S2000x128_0_0 : ∀ a, (![0, 0] : Fin 2 → Nat) a + S2000x128.size a ≤ S2000x128.size a
  h_S2000x128 : 0 < S2000x128.numel
  transposes_S128x256_S256x128_1_0 : S128x256.Transposes [1, 0] S256x128
  transposes_S128x128_S128x128_1_0 : S128x128.Transposes [1, 0] S128x128
  shapeCasts_S_S1x1 : S_.ShapeCasts S1x1
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  concatenates_S1000x128_S1000x128_S1000x256_d1 : Shape.Concatenates [S1000x128, S1000x128] S1000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  inb_S1000x1_S1000x1_0_0 : ∀ a, (![0, 0] : Fin 2 → Nat) a + S1000x1.size a ≤ S1000x1.size a
  h_S1000x1 : 0 < S1000x1.numel
  broadcasts_S1000x1_S1000x128 : S1000x1.Broadcasts S1000x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S100x128_S100x128_0_0 : ∀ a, (![0, 0] : Fin 2 → Nat) a + S100x128.size a ≤ S100x128.size a
  h_S100x128 : 0 < S100x128.numel
  shapeCasts_S100x128_S100x128 : S100x128.ShapeCasts S100x128
  inb_S100x1_S100x1_0_0 : ∀ a, (![0, 0] : Fin 2 → Nat) a + S100x1.size a ≤ S100x1.size a
  h_S100x1 : 0 < S100x1.numel
  broadcasts_S100x1_S100x128 : S100x1.Broadcasts S100x128
  concatenates_S100x128_S100x128_S100x256_d1 : Shape.Concatenates [S100x128, S100x128] S100x256 1
  broadcasts_S1x128_S100x128 : S1x128.Broadcasts S100x128
  transposes_S128x384_S384x128_1_0 : S128x384.Transposes [1, 0] S384x128
  concatenates_S1000x128_S1000x128_S1000x128_S1000x384_d1 : Shape.Concatenates [S1000x128, S1000x128, S1000x128] S1000x384 1
  inb_S384x128_S384x128_0_0 : ∀ a, (![0, 0] : Fin 2 → Nat) a + S384x128.size a ≤ S384x128.size a
  h_S384x128 : 0 < S384x128.numel
  shapeCasts_S384x128_S384x128 : S384x128.ShapeCasts S384x128
  gather_S100x128_S200000x1_S200000x128_1_0_n_n_0_1_1128_wf : GatherDims.WF S100x128 S200000x1 S200000x128 [1] [0] [] [0] [] 1 ![1, 128]
  scatter_S100000x128_S200000x1_S200000x128_1_0_0_1_wf : ScatterDims.WF S100000x128 S200000x1 S200000x128 [1] [0] [0] 1
  gather_S100000x128_S2000000x1_S2000000x128_1_0_n_n_0_1_1128_wf : GatherDims.WF S100000x128 S2000000x1 S2000000x128 [1] [0] [] [0] [] 1 ![1, 128]
  scatter_S100000x128_S2000000x1_S2000000x128_1_0_0_1_wf : ScatterDims.WF S100000x128 S2000000x1 S2000000x128 [1] [0] [0] 1
  gather_S40000x128_S2000000x1_S2000000x128_1_0_n_n_0_1_1128_wf : GatherDims.WF S40000x128 S2000000x1 S2000000x128 [1] [0] [] [0] [] 1 ![1, 128]
  scatter_S100000_S2000000x1_S2000000_n_0_0_1_wf : ScatterDims.WF S100000 S2000000x1 S2000000 [] [0] [0] 1
  gather_S100000x128_S200000x1_S200000x128_1_0_n_n_0_1_1128_wf : GatherDims.WF S100000x128 S200000x1 S200000x128 [1] [0] [] [0] [] 1 ![1, 128]
  scatter_S100x128_S200000x1_S200000x128_1_0_0_1_wf : ScatterDims.WF S100x128 S200000x1 S200000x128 [1] [0] [0] 1
  scatter_S100_S200000x1_S200000_n_0_0_1_wf : ScatterDims.WF S100 S200000x1 S200000 [] [0] [0] 1
  scatter_S40000x128_S2000000x1_S2000000x128_1_0_0_1_wf : ScatterDims.WF S40000x128 S2000000x1 S2000000x128 [1] [0] [0] 1
  scatter_S40000_S2000000x1_S2000000_n_0_0_1_wf : ScatterDims.WF S40000 S2000000x1 S2000000 [] [0] [0] 1
  dot_S2000x128_S128x128_S2000x128_1_0_0_1_n_n_wf : DotDims.WF S2000x128 S128x128 S2000x128 [1] [0] [0] [1] [] []
  dot_S1000x256_S256x128_S1000x128_1_0_0_1_n_n_wf : DotDims.WF S1000x256 S256x128 S1000x128 [1] [0] [0] [1] [] []
  dot_S1000x128_S128x128_S1000x128_1_0_0_1_n_n_wf : DotDims.WF S1000x128 S128x128 S1000x128 [1] [0] [0] [1] [] []
  dot_S100x256_S256x128_S100x128_1_0_0_1_n_n_wf : DotDims.WF S100x256 S256x128 S100x128 [1] [0] [0] [1] [] []
  dot_S100x128_S128x128_S100x128_1_0_0_1_n_n_wf : DotDims.WF S100x128 S128x128 S100x128 [1] [0] [0] [1] [] []
  dot_S1000x384_S384x128_S1000x128_1_0_0_1_n_n_wf : DotDims.WF S1000x384 S384x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S100000x1.size a
  hwx0_0 : ∀ i : grid0.Coords, EltTy.bits .i32 = 32 ∨ (Rect.block (s := S100000x1) S2000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S100000x128.size a
  hwx1_0 : ∀ i : grid1.Coords, EltTy.bits .f32 = 32 ∨ (Rect.block (s := S100000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S100000x128.size a
  hwx1_1 : ∀ i : grid1.Coords, EltTy.bits .f32 = 32 ∨ (Rect.block (s := S100000x128) S1000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S100000x128.size a
  hwx1_2 : ∀ i : grid1.Coords, EltTy.bits .f32 = 32 ∨ (Rect.block (s := S100000x128) S1000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S100000x128.size a
  hwx1_3 : ∀ i : grid1.Coords, EltTy.bits .f32 = 32 ∨ (Rect.block (s := S100000x128) S1000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x1.size a ≤ S100000x1.size a
  hwx1_4 : ∀ i : grid1.Coords, EltTy.bits .f32 = 32 ∨ (Rect.block (s := S100000x1) S1000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x128.size a ≤ S256x128.size a
  hwx1_6 : ∀ i : grid1.Coords, EltTy.bits .bf16 = 32 ∨ (Rect.block (s := S256x128) S256x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .bf16 = 32 ∨ (Rect.block (s := S128x128) S128x128.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1000x128.size a ≤ S100000x128.size a
  hwx1_10 : ∀ i : grid1.Coords, EltTy.bits .f32 = 32 ∨ (Rect.block (s := S100000x128) S1000x128.size (cc1_transform_10 i) (hinb1_10 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S100x128.size a ≤ S100x128.size a
  hwx2_0 : ∀ i : grid2.Coords, EltTy.bits .f32 = 32 ∨ (Rect.block (s := S100x128) S100x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S100x128.size a ≤ S100x128.size a
  hwx2_1 : ∀ i : grid2.Coords, EltTy.bits .f32 = 32 ∨ (Rect.block (s := S100x128) S100x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S100x1.size a ≤ S100x1.size a
  hwx2_2 : ∀ i : grid2.Coords, EltTy.bits .f32 = 32 ∨ (Rect.block (s := S100x1) S100x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .bf16 = 32 ∨ (Rect.block (s := S256x128) S256x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S100x128.size a ≤ S100x128.size a
  hwx2_7 : ∀ i : grid2.Coords, EltTy.bits .f32 = 32 ∨ (Rect.block (s := S100x128) S100x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S40000x128.size a
  hwx3_0 : ∀ i : grid3.Coords, EltTy.bits .f32 = 32 ∨ (Rect.block (s := S40000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x128.size a ≤ S40000x128.size a
  hwx3_1 : ∀ i : grid3.Coords, EltTy.bits .f32 = 32 ∨ (Rect.block (s := S40000x128) S1000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x1.size a ≤ S40000x1.size a
  hwx3_2 : ∀ i : grid3.Coords, EltTy.bits .f32 = 32 ∨ (Rect.block (s := S40000x1) S1000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x128.size a ≤ S40000x128.size a
  hwx3_3 : ∀ i : grid3.Coords, EltTy.bits .f32 = 32 ∨ (Rect.block (s := S40000x128) S1000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S384x128.size a ≤ S384x128.size a
  hwx3_4 : ∀ i : grid3.Coords, EltTy.bits .bf16 = 32 ∨ (Rect.block (s := S384x128) S384x128.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x128.size a ≤ S40000x128.size a
  hwx3_6 : ∀ i : grid3.Coords, EltTy.bits .f32 = 32 ∨ (Rect.block (s := S40000x128) S1000x128.size (cc3_transform_6 i) (hinb3_6 i)).WholeWords (EltTy.packing .f32)

variable [Facts₀]

def gather_S100x128_S200000x1_S200000x128_1_0_n_n_0_1_1128 : GatherDims S100x128 S200000x1 S200000x128 where
  offsetDims := [1]
  collapsedSliceDims := [0]
  operandBatchingDims := []
  startIndicesBatchingDims := []
  startIndexMap := [0]
  indexVectorDim := 1
  sliceSizes := ![1, 128]
  wf := gather_S100x128_S200000x1_S200000x128_1_0_n_n_0_1_1128_wf
def scatter_S100000x128_S200000x1_S200000x128_1_0_0_1 : ScatterDims S100000x128 S200000x1 S200000x128 where
  updateWindowDims := [1]
  insertedWindowDims := [0]
  scatterDimsToOperandDims := [0]
  indexVectorDim := 1
  wf := scatter_S100000x128_S200000x1_S200000x128_1_0_0_1_wf
def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def gather_S40000x128_S2000000x1_S2000000x128_1_0_n_n_0_1_1128 : GatherDims S40000x128 S2000000x1 S2000000x128 where
  offsetDims := [1]
  collapsedSliceDims := [0]
  operandBatchingDims := []
  startIndicesBatchingDims := []
  startIndexMap := [0]
  indexVectorDim := 1
  sliceSizes := ![1, 128]
  wf := gather_S40000x128_S2000000x1_S2000000x128_1_0_n_n_0_1_1128_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def scatter_S100x128_S200000x1_S200000x128_1_0_0_1 : ScatterDims S100x128 S200000x1 S200000x128 where
  updateWindowDims := [1]
  insertedWindowDims := [0]
  scatterDimsToOperandDims := [0]
  indexVectorDim := 1
  wf := scatter_S100x128_S200000x1_S200000x128_1_0_0_1_wf
def scatter_S100_S200000x1_S200000_n_0_0_1 : ScatterDims S100 S200000x1 S200000 where
  updateWindowDims := []
  insertedWindowDims := [0]
  scatterDimsToOperandDims := [0]
  indexVectorDim := 1
  wf := scatter_S100_S200000x1_S200000_n_0_0_1_wf
def scatter_S40000x128_S2000000x1_S2000000x128_1_0_0_1 : ScatterDims S40000x128 S2000000x1 S2000000x128 where
  updateWindowDims := [1]
  insertedWindowDims := [0]
  scatterDimsToOperandDims := [0]
  indexVectorDim := 1
  wf := scatter_S40000x128_S2000000x1_S2000000x128_1_0_0_1_wf
def scatter_S40000_S2000000x1_S2000000_n_0_0_1 : ScatterDims S40000 S2000000x1 S2000000 where
  updateWindowDims := []
  insertedWindowDims := [0]
  scatterDimsToOperandDims := [0]
  indexVectorDim := 1
  wf := scatter_S40000_S2000000x1_S2000000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S100x256_S256x128_S100x128_1_0_0_1_n_n : DotDims S100x256 S256x128 S100x128 where
  lhsContracting := [1]
  rhsContracting := [0]
  lhsNonContracting := [0]
  rhsNonContracting := [1]
  lhsBatch := []
  rhsBatch := []
  wf := dot_S100x256_S256x128_S100x128_1_0_0_1_n_n_wf
def dot_S100x128_S128x128_S100x128_1_0_0_1_n_n : DotDims S100x128 S128x128 S100x128 where
  lhsContracting := [1]
  rhsContracting := [0]
  lhsNonContracting := [0]
  rhsNonContracting := [1]
  lhsBatch := []
  rhsBatch := []
  wf := dot_S100x128_S128x128_S100x128_1_0_0_1_n_n_wf
def dot_S1000x384_S384x128_S1000x128_1_0_0_1_n_n : DotDims S1000x384 S384x128 S1000x128 where
  lhsContracting := [1]
  rhsContracting := [0]
  lhsNonContracting := [0]
  rhsNonContracting := [1]
  lhsBatch := []
  rhsBatch := []
  wf := dot_S1000x384_S384x128_S1000x128_1_0_0_1_n_n_wf

abbrev win0_0 : Pipeline.Window sig grid0 :=
  Pipeline.Window.ofSpec (Memref.whole main_v91) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v90) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v92) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg19) S1000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v110) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v107) S256x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg23) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v109) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg25) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v111) S1000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_arg1) S100x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v67) S100x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg20) S100x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v113) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg27) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v115) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg29) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v116) S100x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_arg2) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v88) S1000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg21) S1000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v105) S1000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v118) S384x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg31) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v119) S1000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S100x128 : Shape := ⟨2, ![100, 128]⟩
abbrev S40000x128 : Shape := ⟨2, ![40000, 128]⟩
abbrev S2000000 : Shape := ⟨1, ![2000000]⟩
abbrev S200000 : Shape := ⟨1, ![200000]⟩
abbrev S100000 : Shape := ⟨1, ![100000]⟩
abbrev S100000x1 : Shape := ⟨2, ![100000, 1]⟩
abbrev S100x1 : Shape := ⟨2, ![100, 1]⟩
abbrev S40000x1 : Shape := ⟨2, ![40000, 1]⟩
abbrev S128x256 : Shape := ⟨2, ![128, 256]⟩
abbrev S128 : Shape := ⟨1, ![128]⟩
abbrev S128x128 : Shape := ⟨2, ![128, 128]⟩
abbrev S128x384 : Shape := ⟨2, ![128, 384]⟩
abbrev S_ : Shape := ⟨0, ![]⟩
abbrev S200000x1 : Shape := ⟨2, ![200000, 1]⟩
abbrev S200000x128 : Shape := ⟨2, ![200000, 128]⟩
abbrev S100000x256 : Shape := ⟨2, ![100000, 256]⟩
abbrev S256x128 : Shape := ⟨2, ![256, 128]⟩
abbrev S1x128 : Shape := ⟨2, ![1, 128]⟩
abbrev S2000000x1 : Shape := ⟨2, ![2000000, 1]⟩
abbrev S2000000x128 : Shape := ⟨2, ![2000000, 128]⟩
abbrev S100 : Shape := ⟨1, ![100]⟩
abbrev S100x256 : Shape := ⟨2, ![100, 256]⟩
abbrev S40000 : Shape := ⟨1, ![40000]⟩
abbrev S40000x384 : Shape := ⟨2, ![40000, 384]⟩
abbrev S384x128 : Shape := ⟨2, ![384, 128]⟩

abbrev nBuf : Space → Nat
  | .hbm => 242
  | .vmem => 0
  | .smem => 0
  | _ => 0

abbrev hbmTy0_0 (i : Nat) : BufTy := match i % 128 with
  | 0 => ⟨S100000x128, .f32⟩
  | 1 => ⟨S100x128, .f32⟩
  | 2 => ⟨S40000x128, .f32⟩
  | 3 => ⟨S2000000, .i32⟩
  | 4 => ⟨S2000000, .i32⟩
  | 5 => ⟨S2000000, .f32⟩
  | 6 => ⟨S200000, .i32⟩
  | 7 => ⟨S200000, .i32⟩
  | 8 => ⟨S200000, .f32⟩
  | 9 => ⟨S2000000, .i32⟩
  | 10 => ⟨S2000000, .i32⟩
  | 11 => ⟨S2000000, .f32⟩
  | 12 => ⟨S200000, .i32⟩
  | 13 => ⟨S200000, .i32⟩
  | 14 => ⟨S200000, .f32⟩
  | 15 => ⟨S2000000, .i32⟩
  | 16 => ⟨S2000000, .i32⟩
  | 17 => ⟨S2000000, .f32⟩
  | 18 => ⟨S100000, .i32⟩
  | 19 => ⟨S100000x1, .f32⟩
  | 20 => ⟨S100x1, .f32⟩
  | 21 => ⟨S40000x1, .f32⟩
  | 22 => ⟨S128x256, .f32⟩
  | 23 => ⟨S128, .f32⟩
  | 24 => ⟨S128x128, .f32⟩
  | 25 => ⟨S128, .f32⟩
  | 26 => ⟨S128x256, .f32⟩
  | 27 => ⟨S128, .f32⟩
  | 28 => ⟨S128x128, .f32⟩
  | 29 => ⟨S128, .f32⟩
  | 30 => ⟨S128x384, .f32⟩
  | 31 => ⟨S128, .f32⟩
  | 32 => ⟨S_, .f32⟩
  | 33 => ⟨S200000x1, .f32⟩
  | 34 => ⟨S_, .i32⟩
  | 35 => ⟨S200000, .i32⟩
  | 36 => ⟨S200000, .i1⟩
  | 37 => ⟨S_, .i32⟩
  | 38 => ⟨S200000, .i32⟩
  | 39 => ⟨S200000, .i32⟩
  | 40 => ⟨S200000, .i32⟩
  | 41 => ⟨S200000x1, .i32⟩
  | 42 => ⟨S200000x128, .f32⟩
  | 43 => ⟨S200000x128, .f32⟩
  | 44 => ⟨S200000x128, .f32⟩
  | 45 => ⟨S_, .f32⟩
  | 46 => ⟨S100000x128, .f32⟩
  | 47 => ⟨S200000x1, .i32⟩
  | 48 => ⟨S100000x128, .f32⟩
  | 49 => ⟨S100000x256, .f32⟩
  | 50 => ⟨S256x128, .f32⟩
  | 51 => ⟨S100000x128, .f32⟩
  | 52 => ⟨S1x128, .f32⟩
  | 53 => ⟨S100000x128, .f32⟩
  | 54 => ⟨S100000x128, .f32⟩
  | 55 => ⟨S128x128, .f32⟩
  | 56 => ⟨S100000x128, .f32⟩
  | 57 => ⟨S1x128, .f32⟩
  | 58 => ⟨S100000x128, .f32⟩
  | 59 => ⟨S100000x128, .f32⟩
  | 60 => ⟨S100000x128, .f32⟩
  | 61 => ⟨S100000x128, .f32⟩
  | 62 => ⟨S100000x128, .f32⟩
  | 63 => ⟨S_, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S100000x128, .f32⟩
  | 71 => ⟨S2000000x1, .f32⟩
  | 72 => ⟨S_, .i32⟩
  | 73 => ⟨S2000000, .i32⟩
  | 74 => ⟨S2000000, .i1⟩
  | 75 => ⟨S_, .i32⟩
  | 76 => ⟨S2000000, .i32⟩
  | 77 => ⟨S2000000, .i32⟩
  | 78 => ⟨S2000000, .i32⟩
  | 79 => ⟨S2000000x1, .i32⟩
  | 80 => ⟨S2000000x128, .f32⟩
  | 81 => ⟨S2000000x128, .f32⟩
  | 82 => ⟨S2000000x128, .f32⟩
  | 83 => ⟨S_, .f32⟩
  | 84 => ⟨S100000x128, .f32⟩
  | 85 => ⟨S2000000x1, .i32⟩
  | 86 => ⟨S100000x128, .f32⟩
  | 87 => ⟨S100000x128, .f32⟩
  | 88 => ⟨S2000000x1, .f32⟩
  | 89 => ⟨S_, .i32⟩
  | 90 => ⟨S2000000, .i32⟩
  | 91 => ⟨S2000000, .i1⟩
  | 92 => ⟨S_, .i32⟩
  | 93 => ⟨S2000000, .i32⟩
  | 94 => ⟨S2000000, .i32⟩
  | 95 => ⟨S2000000, .i32⟩
  | 96 => ⟨S2000000x1, .i32⟩
  | 97 => ⟨S2000000x128, .f32⟩
  | 98 => ⟨S2000000x128, .f32⟩
  | 99 => ⟨S2000000x128, .f32⟩
  | 100 => ⟨S_, .f32⟩
  | 101 => ⟨S100000x128, .f32⟩
  | 102 => ⟨S2000000x1, .i32⟩
  | 103 => ⟨S100000x128, .f32⟩
  | 104 => ⟨S_, .f32⟩
  | 105 => ⟨S100000, .f32⟩
  | 106 => ⟨S2000000x1, .i32⟩
  | 107 => ⟨S100000, .f32⟩
  | 108 => ⟨S100000x1, .f32⟩
  | 109 => ⟨S_, .f32⟩
  | 110 => ⟨S100000x1, .f32⟩
  | 111 => ⟨S100000x1, .f32⟩
  | 112 => ⟨S100000x128, .f32⟩
  | 113 => ⟨S100000x128, .f32⟩
  | 114 => ⟨S100000x128, .f32⟩
  | 115 => ⟨S100000x128, .f32⟩
  | 116 => ⟨S100000x128, .f32⟩
  | 117 => ⟨S100000x128, .f32⟩
  | 118 => ⟨S100000x128, .f32⟩
  | 119 => ⟨S200000x1, .f32⟩
  | 120 => ⟨S_, .i32⟩
  | 121 => ⟨S200000, .i32⟩
  | 122 => ⟨S200000, .i1⟩
  | 123 => ⟨S_, .i32⟩
  | 124 => ⟨S200000, .i32⟩
  | 125 => ⟨S200000, .i32⟩
  | 126 => ⟨S200000, .i32⟩
  | 127 => ⟨S200000x1, .i32⟩
  | _ => ⟨S100000x128, .f32⟩

abbrev hbmTy0_1 (i : Nat) : BufTy := match i % 128 with
  | 0 => ⟨S200000x128, .f32⟩
  | 1 => ⟨S200000x128, .f32⟩
  | 2 => ⟨S200000x128, .f32⟩
  | 3 => ⟨S_, .f32⟩
  | 4 => ⟨S100x128, .f32⟩
  | 5 => ⟨S200000x1, .i32⟩
  | 6 => ⟨S100x128, .f32⟩
  | 7 => ⟨S_, .f32⟩
  | 8 => ⟨S100, .f32⟩
  | 9 => ⟨S200000x1, .i32⟩
  | 10 => ⟨S100, .f32⟩
  | 11 => ⟨S100x1, .f32⟩
  | 12 => ⟨S_, .f32⟩
  | 13 => ⟨S100x1, .f32⟩
  | 14 => ⟨S100x1, .f32⟩
  | 15 => ⟨S100x128, .f32⟩
  | 16 => ⟨S100x128, .f32⟩
  | 17 => ⟨S100x128, .f32⟩
  | 18 => ⟨S100x128, .f32⟩
  | 19 => ⟨S100x256, .f32⟩
  | 20 => ⟨S256x128, .f32⟩
  | 21 => ⟨S100x128, .f32⟩
  | 22 => ⟨S1x128, .f32⟩
  | 23 => ⟨S100x128, .f32⟩
  | 24 => ⟨S100x128, .f32⟩
  | 25 => ⟨S128x128, .f32⟩
  | 26 => ⟨S100x128, .f32⟩
  | 27 => ⟨S1x128, .f32⟩
  | 28 => ⟨S100x128, .f32⟩
  | 29 => ⟨S100x128, .f32⟩
  | 30 => ⟨S100x128, .f32⟩
  | 31 => ⟨S100x128, .f32⟩
  | 32 => ⟨S100x128, .f32⟩
  | 33 => ⟨S_, .f32⟩
  | 34 => ⟨S100x128, .f32⟩
  | 35 => ⟨S100x128, .f32⟩
  | 36 => ⟨S_, .f32⟩
  | 37 => ⟨S100x128, .f32⟩
  | 38 => ⟨S100x128, .f32⟩
  | 39 => ⟨S100x128, .f32⟩
  | 40 => ⟨S100x128, .f32⟩
  | 41 => ⟨S_, .i32⟩
  | 42 => ⟨S100000, .i32⟩
  | 43 => ⟨S100000, .i1⟩
  | 44 => ⟨S_, .i32⟩
  | 45 => ⟨S100000, .i32⟩
  | 46 => ⟨S100000, .i32⟩
  | 47 => ⟨S100000, .i32⟩
  | 48 => ⟨S100000x1, .i32⟩
  | 49 => ⟨S100000x128, .f32⟩
  | 50 => ⟨S2000000x1, .f32⟩
  | 51 => ⟨S_, .i32⟩
  | 52 => ⟨S2000000, .i32⟩
  | 53 => ⟨S2000000, .i1⟩
  | 54 => ⟨S_, .i32⟩
  | 55 => ⟨S2000000, .i32⟩
  | 56 => ⟨S2000000, .i32⟩
  | 57 => ⟨S2000000, .i32⟩
  | 58 => ⟨S2000000x1, .i32⟩
  | 59 => ⟨S2000000x128, .f32⟩
  | 60 => ⟨S2000000x128, .f32⟩
  | 61 => ⟨S2000000x128, .f32⟩
  | 62 => ⟨S_, .f32⟩
  | 63 => ⟨S40000x128, .f32⟩
  | 64 => ⟨S2000000x1, .i32⟩
  | 65 => ⟨S40000x128, .f32⟩
  | 66 => ⟨S2000000x1, .f32⟩
  | 67 => ⟨S_, .i32⟩
  | 68 => ⟨S2000000, .i32⟩
  | 69 => ⟨S2000000, .i1⟩
  | 70 => ⟨S_, .i32⟩
  | 71 => ⟨S2000000, .i32⟩
  | 72 => ⟨S2000000, .i32⟩
  | 73 => ⟨S2000000, .i32⟩
  | 74 => ⟨S2000000x1, .i32⟩
  | 75 => ⟨S2000000x128, .f32⟩
  | 76 => ⟨S2000000x128, .f32⟩
  | 77 => ⟨S2000000x128, .f32⟩
  | 78 => ⟨S_, .f32⟩
  | 79 => ⟨S40000x128, .f32⟩
  | 80 => ⟨S2000000x1, .i32⟩
  | 81 => ⟨S40000x128, .f32⟩
  | 82 => ⟨S_, .f32⟩
  | 83 => ⟨S40000, .f32⟩
  | 84 => ⟨S2000000x1, .i32⟩
  | 85 => ⟨S40000, .f32⟩
  | 86 => ⟨S40000x1, .f32⟩
  | 87 => ⟨S_, .f32⟩
  | 88 => ⟨S40000x1, .f32⟩
  | 89 => ⟨S40000x1, .f32⟩
  | 90 => ⟨S40000x128, .f32⟩
  | 91 => ⟨S40000x128, .f32⟩
  | 92 => ⟨S40000x128, .f32⟩
  | 93 => ⟨S40000x128, .f32⟩
  | 94 => ⟨S40000x384, .f32⟩
  | 95 => ⟨S384x128, .f32⟩
  | 96 => ⟨S40000x128, .f32⟩
  | 97 => ⟨S1x128, .f32⟩
  | 98 => ⟨S40000x128, .f32⟩
  | 99 => ⟨S40000x128, .f32⟩
  | 100 => ⟨S40000x128, .f32⟩
  | 101 => ⟨S40000x128, .f32⟩
  | 102 => ⟨S_, .f32⟩
  | 103 => ⟨S40000x128, .f32⟩
  | 104 => ⟨S40000x128, .f32⟩
  | 105 => ⟨S_, .f32⟩
  | 106 => ⟨S40000x128, .f32⟩
  | 107 => ⟨S40000x128, .f32⟩
  | 108 => ⟨S40000x128, .f32⟩
  | 109 => ⟨S_, .f32⟩
  | 110 => ⟨S40000x128, .f32⟩
  | 111 => ⟨S40000x128, .f32⟩
  | 112 => ⟨S40000x128, .f32⟩
  | 113 => ⟨S40000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_c : Ref sig .tc := ⟨.hbm, 34, rfl⟩
abbrev main_v1 : Ref sig .tc := ⟨.hbm, 35, rfl⟩
abbrev main_v2 : Ref sig .tc := ⟨.hbm, 36, rfl⟩
abbrev main_c_0 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_cst : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst_1 : Ref sig .tc := ⟨.hbm, 63, rfl⟩
abbrev main_v27 : Ref sig .tc := ⟨.hbm, 64, rfl⟩
abbrev main_v28 : Ref sig .tc := ⟨.hbm, 65, rfl⟩
abbrev main_cst_2 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_c_3 : Ref sig .tc := ⟨.hbm, 72, rfl⟩
abbrev main_v34 : Ref sig .tc := ⟨.hbm, 73, rfl⟩
abbrev main_v35 : Ref sig .tc := ⟨.hbm, 74, rfl⟩
abbrev main_c_4 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_5 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_c_6 : Ref sig .tc := ⟨.hbm, 89, rfl⟩
abbrev main_v48 : Ref sig .tc := ⟨.hbm, 90, rfl⟩
abbrev main_v49 : Ref sig .tc := ⟨.hbm, 91, rfl⟩
abbrev main_c_7 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_cst_8 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_cst_9 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_cst_10 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_c_11 : Ref sig .tc := ⟨.hbm, 120, rfl⟩
abbrev main_v74 : Ref sig .tc := ⟨.hbm, 121, rfl⟩
abbrev main_v75 : Ref sig .tc := ⟨.hbm, 122, rfl⟩
abbrev main_c_12 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_cst_13 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_14 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_15 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_cst_16 : Ref sig .tc := ⟨.hbm, 161, rfl⟩
abbrev main_v110 : Ref sig .tc := ⟨.hbm, 162, rfl⟩
abbrev main_v111 : Ref sig .tc := ⟨.hbm, 163, rfl⟩
abbrev main_cst_17 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_c_18 : Ref sig .tc := ⟨.hbm, 169, rfl⟩
abbrev main_v116 : Ref sig .tc := ⟨.hbm, 170, rfl⟩
abbrev main_v117 : Ref sig .tc := ⟨.hbm, 171, rfl⟩
abbrev main_c_19 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_c_20 : Ref sig .tc := ⟨.hbm, 179, rfl⟩
abbrev main_v124 : Ref sig .tc := ⟨.hbm, 180, rfl⟩
abbrev main_v125 : Ref sig .tc := ⟨.hbm, 181, rfl⟩
abbrev main_c_21 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_cst_22 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_c_23 : Ref sig .tc := ⟨.hbm, 195, rfl⟩
abbrev main_v137 : Ref sig .tc := ⟨.hbm, 196, rfl⟩
abbrev main_v138 : Ref sig .tc := ⟨.hbm, 197, rfl⟩
abbrev main_c_24 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_cst_25 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_cst_26 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_cst_27 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_cst_28 : Ref sig .tc := ⟨.hbm, 230, rfl⟩
abbrev main_v167 : Ref sig .tc := ⟨.hbm, 231, rfl⟩
abbrev main_v168 : Ref sig .tc := ⟨.hbm, 232, rfl⟩
abbrev main_cst_29 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_cst_30 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩

abbrev nD : Nat := 1
abbrev τ : Topo := Topo.v7x

variable {F : FTy → Type} [FloatOps F]

class Facts₀ : Prop where
  bcast_S200000_S200000x1_0 : S200000.BroadcastsInDim S200000x1 (![0] : Fin 1 → Fin S200000x1.rank)
  bcast_S_S200000 : S_.BroadcastsInDim S200000 (![] : Fin 0 → Fin S200000.rank)
  bcast_S200000x1_S200000x128_0_1 : S200000x1.BroadcastsInDim S200000x128 (![0, 1] : Fin 2 → Fin S200000x128.rank)
  bcast_S_S100000x128 : S_.BroadcastsInDim S100000x128 (![] : Fin 0 → Fin S100000x128.rank)
  concatenates_S100000x128_S100000x128_S100000x256_d1 : Shape.Concatenates [S100000x128, S100000x128] S100000x256 1
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S128x128_S128x128_1_0 : S128x128.Transposes [1, 0] S128x128
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x128_0_1 : S2000000x1.BroadcastsInDim S2000000x128 (![0, 1] : Fin 2 → Fin S2000000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S100x128 : S_.BroadcastsInDim S100x128 (![] : Fin 0 → Fin S100x128.rank)
  bcast_S_S100 : S_.BroadcastsInDim S100 (![] : Fin 0 → Fin S100.rank)
  bcast_S100_S100x1_0 : S100.BroadcastsInDim S100x1 (![0] : Fin 1 → Fin S100x1.rank)
  bcast_S_S100x1 : S_.BroadcastsInDim S100x1 (![] : Fin 0 → Fin S100x1.rank)
  bcast_S100x1_S100x128_0_1 : S100x1.BroadcastsInDim S100x128 (![0, 1] : Fin 2 → Fin S100x128.rank)
  concatenates_S100x128_S100x128_S100x256_d1 : Shape.Concatenates [S100x128, S100x128] S100x256 1
  bcast_S1x128_S100x128_0_1 : S1x128.BroadcastsInDim S100x128 (![0, 1] : Fin 2 → Fin S100x128.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S_S40000x1 : S_.BroadcastsInDim S40000x1 (![] : Fin 0 → Fin S40000x1.rank)
  bcast_S40000x1_S40000x128_0_1 : S40000x1.BroadcastsInDim S40000x128 (![0, 1] : Fin 2 → Fin S40000x128.rank)
  concatenates_S40000x128_S40000x128_S40000x128_S40000x384_d1 : Shape.Concatenates [S40000x128, S40000x128, S40000x128] S40000x384 1
  transposes_S128x384_S384x128_1_0 : S128x384.Transposes [1, 0] S384x128
  bcast_S1x128_S40000x128_0_1 : S1x128.BroadcastsInDim S40000x128 (![0, 1] : Fin 2 → Fin S40000x128.rank)
  gather_S100x128_S200000x1_S200000x128_1_0_n_n_0_1_1128_wf : GatherDims.WF S100x128 S200000x1 S200000x128 [1] [0] [] [0] [] 1 ![1, 128]
  scatter_S100000x128_S200000x1_S200000x128_1_0_0_1_wf : ScatterDims.WF S100000x128 S200000x1 S200000x128 [1] [0] [0] 1
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  gather_S100000x128_S2000000x1_S2000000x128_1_0_n_n_0_1_1128_wf : GatherDims.WF S100000x128 S2000000x1 S2000000x128 [1] [0] [] [0] [] 1 ![1, 128]
  scatter_S100000x128_S2000000x1_S2000000x128_1_0_0_1_wf : ScatterDims.WF S100000x128 S2000000x1 S2000000x128 [1] [0] [0] 1
  gather_S40000x128_S2000000x1_S2000000x128_1_0_n_n_0_1_1128_wf : GatherDims.WF S40000x128 S2000000x1 S2000000x128 [1] [0] [] [0] [] 1 ![1, 128]
  scatter_S100000_S2000000x1_S2000000_n_0_0_1_wf : ScatterDims.WF S100000 S2000000x1 S2000000 [] [0] [0] 1
  gather_S100000x128_S200000x1_S200000x128_1_0_n_n_0_1_1128_wf : GatherDims.WF S100000x128 S200000x1 S200000x128 [1] [0] [] [0] [] 1 ![1, 128]
  scatter_S100x128_S200000x1_S200000x128_1_0_0_1_wf : ScatterDims.WF S100x128 S200000x1 S200000x128 [1] [0] [0] 1
  scatter_S100_S200000x1_S200000_n_0_0_1_wf : ScatterDims.WF S100 S200000x1 S200000 [] [0] [0] 1
  dot_S100x256_S256x128_S100x128_1_0_0_1_n_n_wf : DotDims.WF S100x256 S256x128 S100x128 [1] [0] [0] [1] [] []
  dot_S100x128_S128x128_S100x128_1_0_0_1_n_n_wf : DotDims.WF S100x128 S128x128 S100x128 [1] [0] [0] [1] [] []
  gather_S100x128_S100000x1_S100000x128_1_0_n_n_0_1_1128_wf : GatherDims.WF S100x128 S100000x1 S100000x128 [1] [0] [] [0] [] 1 ![1, 128]
  scatter_S40000x128_S2000000x1_S2000000x128_1_0_0_1_wf : ScatterDims.WF S40000x128 S2000000x1 S2000000x128 [1] [0] [0] 1
  scatter_S40000_S2000000x1_S2000000_n_0_0_1_wf : ScatterDims.WF S40000 S2000000x1 S2000000 [] [0] [0] 1
  dot_S40000x384_S384x128_S40000x128_1_0_0_1_n_n_wf : DotDims.WF S40000x384 S384x128 S40000x128 [1] [0] [0] [1] [] []

variable [Facts₀]

def gather_S100x128_S200000x1_S200000x128_1_0_n_n_0_1_1128 : GatherDims S100x128 S200000x1 S200000x128 where
  offsetDims := [1]
  collapsedSliceDims := [0]
  operandBatchingDims := []
  startIndicesBatchingDims := []
  startIndexMap := [0]
  indexVectorDim := 1
  sliceSizes := ![1, 128]
  wf := gather_S100x128_S200000x1_S200000x128_1_0_n_n_0_1_1128_wf
def scatter_S100000x128_S200000x1_S200000x128_1_0_0_1 : ScatterDims S100000x128 S200000x1 S200000x128 where
  updateWindowDims := [1]
  insertedWindowDims := [0]
  scatterDimsToOperandDims := [0]
  indexVectorDim := 1
  wf := scatter_S100000x128_S200000x1_S200000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def gather_S40000x128_S2000000x1_S2000000x128_1_0_n_n_0_1_1128 : GatherDims S40000x128 S2000000x1 S2000000x128 where
  offsetDims := [1]
  collapsedSliceDims := [0]
  operandBatchingDims := []
  startIndicesBatchingDims := []
  startIndexMap := [0]
  indexVectorDim := 1
  sliceSizes := ![1, 128]
  wf := gather_S40000x128_S2000000x1_S2000000x128_1_0_n_n_0_1_1128_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def scatter_S100x128_S200000x1_S200000x128_1_0_0_1 : ScatterDims S100x128 S200000x1 S200000x128 where
  updateWindowDims := [1]
  insertedWindowDims := [0]
  scatterDimsToOperandDims := [0]
  indexVectorDim := 1
  wf := scatter_S100x128_S200000x1_S200000x128_1_0_0_1_wf
def scatter_S100_S200000x1_S200000_n_0_0_1 : ScatterDims S100 S200000x1 S200000 where
  updateWindowDims := []
  insertedWindowDims := [0]
  scatterDimsToOperandDims := [0]
  indexVectorDim := 1
  wf := scatter_S100_S200000x1_S200000_n_0_0_1_wf
def dot_S100x256_S256x128_S100x128_1_0_0_1_n_n : DotDims S100x256 S256x128 S100x128 where
  lhsContracting := [1]
  rhsContracting := [0]
  lhsNonContracting := [0]
  rhsNonContracting := [1]
  lhsBatch := []
  rhsBatch := []
  wf := dot_S100x256_S256x128_S100x128_1_0_0_1_n_n_wf
def dot_S100x128_S128x128_S100x128_1_0_0_1_n_n : DotDims S100x128 S128x128 S100x128 where
  lhsContracting := [1]
  rhsContracting := [0]
  lhsNonContracting := [0]
  rhsNonContracting := [1]
  lhsBatch := []
  rhsBatch := []
  wf := dot_S100x128_S128x128_S100x128_1_0_0_1_n_n_wf
def gather_S100x128_S100000x1_S100000x128_1_0_n_n_0_1_1128 : GatherDims S100x128 S100000x1 S100000x128 where
  offsetDims := [1]
  collapsedSliceDims := [0]
  operandBatchingDims := []
  startIndicesBatchingDims := []
  startIndexMap := [0]
  indexVectorDim := 1
  sliceSizes := ![1, 128]
  wf := gather_S100x128_S100000x1_S100000x128_1_0_n_n_0_1_1128_wf
def scatter_S40000x128_S2000000x1_S2000000x128_1_0_0_1 : ScatterDims S40000x128 S2000000x1 S2000000x128 where
  updateWindowDims := [1]
  insertedWindowDims := [0]
  scatterDimsToOperandDims := [0]
  indexVectorDim := 1
  wf := scatter_S40000x128_S2000000x1_S2000000x128_1_0_0_1_wf
def scatter_S40000_S2000000x1_S2000000_n_0_0_1 : ScatterDims S40000 S2000000x1 S2000000 where
  updateWindowDims := []
  insertedWindowDims := [0]
  scatterDimsToOperandDims := [0]
  indexVectorDim := 1
  wf := scatter_S40000_S2000000x1_S2000000_n_0_0_1_wf
def dot_S40000x384_S384x128_S40000x128_1_0_0_1_n_n : DotDims S40000x384 S384x128 S40000x128 where
  lhsContracting := [1]
  rhsContracting := [0]
  lhsNonContracting := [0]
  rhsNonContracting := [1]
  lhsBatch := []
  rhsBatch := []
  wf := dot_S40000x384_S384x128_S40000x128_1_0_0_1_n_n_wf

class Facts : Prop extends Facts₀ where

variable [Facts]
-- ==== Proof.Spec.lean ====
/-
  What the three results are, index by index, over the extended reals.

  Every table has 128 columns. A *linear layer* of a row `x[r, ·]` of width `K` against a matrix given already
  transposed, `WT : [K, 128]`, and a bias `b : [128]` is `(∑ k, x[r, k] · WT[k, j]) + b[j]`. The *gate* of two
  tables `e1`, `e2` is `e1 + σ(lin([e1 | e2], WaT, ba) + lin(e1, WbT, bb)) · e2` with `σ` the logistic function and
  `[e1 | e2]` the two tables side by side. The item table adds the adjacency aggregate and `λ` times the row-normalised
  user aggregate scaled per row; the price table is the gate of the price embedding and its scaled aggregate; the user
  table blends the user embedding and its scaled aggregate by a gate over three tables side by side.
  The one-hot product `∑ k, [k = idx[r]] · T[k, j]` is what picks row `idx[r]` of a 128-row table.
-/
import Idealize.ShloMosaic.PureOps.Ideal
import Idealize.ShloMosaic.Lib.ValueIdx

noncomputable section

open scoped BigOperators

namespace Cert.Spec

open Idealize.ShloMosaic Idealize.ShloMosaic.ValueIdx

/-- A rank-2 table of extended reals. -/
abbrev Arr (A B : Nat) : Type := (⟨2, ![A, B]⟩ : Shape).Idx → EReal
/-- A rank-1 table of extended reals. -/
abbrev Vec1 (B : Nat) : Type := (⟨1, ![B]⟩ : Shape).Idx → EReal

/-- The row of a rank-2 index. -/
abbrev row {A B : Nat} (i : (⟨2, ![A, B]⟩ : Shape).Idx) : Fin A := ⟨(i 0).val, idx2_lt0 i⟩
/-- The column of a rank-2 index. -/
abbrev col {A B : Nat} (i : (⟨2, ![A, B]⟩ : Shape).Idx) : Fin B := ⟨(i 1).val, idx2_lt1 i⟩

/-- Two 128-column tables side by side. -/
def cat2 {A : Nat} (a b : Arr A 128) : Arr A 256 := fun i =>
  if h : (i 1).val < 128 then a (ix2 (row i) ⟨(i 1).val, h⟩)
  else b (ix2 (row i) ⟨(i 1).val - 128, by have := idx2_lt1 i; omega⟩)

/-- Three 128-column tables side by side. -/
def cat3 {A : Nat} (a b c : Arr A 128) : Arr A 384 := fun i =>
  if h : (i 1).val < 128 then a (ix2 (row i) ⟨(i 1).val, h⟩)
  else if h2 : (i 1).val < 256 then b (ix2 (row i) ⟨(i 1).val - 128, by omega⟩)
  else c (ix2 (row i) ⟨(i 1).val - 256, by have := idx2_lt1 i; omega⟩)

/-- A linear layer: the row against the transposed matrix, plus the bias. -/
def lin {A K : Nat} (x : Arr A K) (WT : Arr K 128) (b : Vec1 128) : Arr A 128 := fun i =>
  (∑ k : Fin K, x (ix2 (row i) k) * WT (ix2 k (col i))) + b (ix1 (col i))

/-- A one-column table read along every column. -/
def colB {A : Nat} (v : Arr A 1) : Arr A 128 := fun i => v (ix2 (row i) 0)

/-- A table scaled row by row. -/
def scaled {A : Nat} (a : Arr A 128) (v : Arr A 1) : Arr A 128 := fun i => a i * colB v i

/-- The gate of two tables. -/
def interGate {A : Nat} (e1 e2 : Arr A 128) (WaT : Arr 256 128) (ba : Vec1 128) (WbT : Arr 128 128) (bb : Vec1 128) :
    Arr A 128 := fun i =>
  e1 i + Ideal.logistic (lin (cat2 e1 e2) WaT ba i + lin e1 WbT bb i) * e2 i

/-- The item table. -/
def itemFn (emb vp adj avu : Arr 100000 128) (matvu : Arr 100000 1) (lam : EReal)
    (WaT : Arr 256 128) (ba : Vec1 128) (WbT : Arr 128 128) (bb : Vec1 128) : Arr 100000 128 := fun i =>
  interGate emb vp WaT ba WbT bb i + adj i + lam * scaled avu matvu i

/-- The price table. -/
def priceFn (pri apv : Arr 100 128) (matpv : Arr 100 1)
    (WaT : Arr 256 128) (ba : Vec1 128) (WbT : Arr 128 128) (bb : Vec1 128) : Arr 100 128 :=
  interGate pri (scaled apv matpv) WaT ba WbT bb

/-- The user table; `one` is the constant both programs spell as the f32 word of 1.0. -/
def userFn (one : EReal) (usr auv : Arr 40000 128) (matuv : Arr 40000 1) (epu : Arr 40000 128)
    (WuT : Arr 384 128) (bu : Vec1 128) : Arr 40000 128 := fun i =>
  Ideal.logistic (lin (cat3 usr (scaled auv matuv) epu) WuT bu i) * usr i
    + (one - Ideal.logistic (lin (cat3 usr (scaled auv matuv) epu) WuT bu i)) * scaled auv matuv i

/-- The one-hot table of an index column: 1 where the column's number is the row's index, else 0 — the comparison of
    32-bit words, widened to 32 bits and converted to a float, as the kernel body does. -/
def hot (idx : (⟨2, ![100000, 1]⟩ : Shape).Idx → BitVec 32) : Arr 100000 128 := fun i =>
  FloatOps.sitofp (F := Ideal) .f32 ((IntOp.cmpi .eq (BitVec.ofNat 32 (i 1).val) (idx (ix2 (row i) 0))).setWidth 32)

/-- Row `idx[r]` of a 128-row table as a one-hot product: `hot r k` is 1 where `k` is the row's index, else 0. -/
def onehotFn (hot : Arr 100000 128) (tbl : Arr 128 128) : Arr 100000 128 := fun i =>
  ∑ k : Fin 128, hot (ix2 (row i) k) * tbl (ix2 k (col i))

end Cert.Spec

end
-- ==== Proof.Region0.lean ====
/-
  The gather region (50 grid points of 2000 rows): its output array after the run is the one-hot product of the row
  indices against the 128-row table it read.
-/
import proofs.«424989_j54769422959169_1_alg».proof.Proof.Gen.KernelIdeal.Frame
import proofs.«424989_j54769422959169_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Gather

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! The product's operand indices at an output index and a contraction position, coordinate by coordinate: the left
    operand is read at (row, position), the right one at (position, column). -/

/-- The left operand's row is the output's row. -/
theorem lhs_row (j : S2000x128.Idx) (k : dot_S2000x128_S128x128_S2000x128_1_0_0_1_n_n.contr.Idx) :
    (dot_S2000x128_S128x128_S2000x128_1_0_0_1_n_n.lhsIdx j k 0).val = (j 0).val := by
  simp [DotDims.lhsIdx, dot_S2000x128_S128x128_S2000x128_1_0_0_1_n_n]; rfl

/-- The left operand's column is the contraction position. -/
theorem lhs_col (j : S2000x128.Idx) (k : dot_S2000x128_S128x128_S2000x128_1_0_0_1_n_n.contr.Idx) :
    (dot_S2000x128_S128x128_S2000x128_1_0_0_1_n_n.lhsIdx j k 1).val = (k ⟨0, by decide⟩).val :=
  DotDims.lhsIdx_val_of_single (d := dot_S2000x128_S128x128_S2000x128_1_0_0_1_n_n) rfl j k

/-- The right operand's row is the contraction position. -/
theorem rhs_row (j : S2000x128.Idx) (k : dot_S2000x128_S128x128_S2000x128_1_0_0_1_n_n.contr.Idx) :
    (dot_S2000x128_S128x128_S2000x128_1_0_0_1_n_n.rhsIdx j k 0).val = (k ⟨0, by decide⟩).val :=
  DotDims.rhsIdx_val_of_single (d := dot_S2000x128_S128x128_S2000x128_1_0_0_1_n_n) rfl j k

/-- The right operand's column is the output's column. -/
theorem rhs_col (j : S2000x128.Idx) (k : dot_S2000x128_S128x128_S2000x128_1_0_0_1_n_n.contr.Idx) :
    (dot_S2000x128_S128x128_S2000x128_1_0_0_1_n_n.rhsIdx j k 1).val = (j 1).val := by
  simp [DotDims.rhsIdx, dot_S2000x128_S128x128_S2000x128_1_0_0_1_n_n]; rfl

/-- A product of a 2000-row block against a 128-row table into a zero accumulator, at (p, q): the sum over the 128
    contracted coordinates. -/
theorem product_apply (a : FVec Ideal S2000x128 .bf16) (b : FVec Ideal S128x128 .bf16) (p : Fin 2000) (q : Fin 128) :
    matmul dot_S2000x128_S128x128_S2000x128_1_0_0_1_n_n none a b (constant S2000x128 .f32 0x00000000#32) (ix2 p q)
      = ∑ k : Fin 128, a (ix2 p k) * b (ix2 k q) := by
  show FloatOps.matmul _ none a b _ (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have hl : dot_S2000x128_S128x128_S2000x128_1_0_0_1_n_n.lhsIdx (ix2 p q)
      ((contrEquiv1 dot_S2000x128_S128x128_S2000x128_1_0_0_1_n_n 128 rfl rfl).symm k) = ix2 p k := by
    funext ax; apply Fin.ext
    match ax with
    | ⟨0, _⟩ => exact lhs_row _ _
    | ⟨1, _⟩ => exact (lhs_col _ _).trans hk
  have hr : dot_S2000x128_S128x128_S2000x128_1_0_0_1_n_n.rhsIdx (ix2 p q)
      ((contrEquiv1 dot_S2000x128_S128x128_S2000x128_1_0_0_1_n_n 128 rfl rfl).symm k) = ix2 k q := by
    funext ax; apply Fin.ext
    match ax with
    | ⟨0, _⟩ => exact (rhs_row _ _).trans hk
    | ⟨1, _⟩ => exact rhs_col _ _
  rw [hl, hr]

/-- The column of indices broadcast along the 128 columns, at (p, q): the row's index. -/
theorem column_apply (x : IVec S2000x1 32) (p : Fin 2000) (q : Fin 128) :
    broadcastTo S2000x128 x broadcasts_S2000x1_S2000x128 (ix2 p q) = x (ix2 p 0) := by
  refine broadcastTo_apply x _ (ix2 p q) (ix2 p 0) fun a => ?_
  match a with
  | ⟨0, _⟩ => rfl
  | ⟨1, _⟩ => rfl

/-- The body's arithmetic at (p, q): the one-hot row of the block's index against the table's column. -/
theorem payload_apply (x0 : Vec Ideal S2000x1 .i32) (x1 : Vec Ideal S128x128 .bf16) (p : Fin 2000) (q : Fin 128) :
    k0_pay1 x0 x1 (ix2 p q)
      = ∑ k : Fin 128, FloatOps.sitofp (F := Ideal) .f32 ((IntOp.cmpi .eq (BitVec.ofNat 32 k.val) (x0 (ix2 p 0))).setWidth 32)
          * x1 (ix2 k q) := by
  unfold k0_pay1
  refine (product_apply _ _ p q).trans ?_
  refine Finset.sum_congr rfl fun k _ => ?_
  rw [shapeCast_self, shapeCast_self]
  show FloatOps.sitofp (F := Ideal) .f32 ((IntOp.cmpi .eq (iota .tc S2000x128 32 [1] iota_S2000x128_d1_w32 (ix2 p k))
      (broadcastTo S2000x128 x0 broadcasts_S2000x1_S2000x128 (ix2 p k))).setWidth 32) * x1 (ix2 k q) = _
  rw [iota_single_apply, column_apply]

/-- The body's arithmetic at a block index, against the specification at an array index: when the block's row index is
    the array's at that row and the block's table entries are the table's at that column. -/
theorem payload_eq_spec (idx : S100000x1.Idx → BitVec 32) (tbl : S128x128.Idx → EReal)
    (x0 : Vec Ideal S2000x1 .i32) (x1 : Vec Ideal S128x128 .bf16) (j : S2000x128.Idx) (i : S100000x128.Idx)
    (hrow : x0 (ix2 (j 0) 0) = idx (ix2 (Cert.Spec.row i) 0))
    (htbl : ∀ k : Fin 128, x1 (ix2 k (j 1)) = tbl (ix2 k (Cert.Spec.col i))) :
    k0_pay1 x0 x1 j = Cert.Spec.onehotFn (Cert.Spec.hot idx) tbl i := by
  obtain ⟨p, q, rfl⟩ : ∃ (p : Fin 2000) (q : Fin 128), j = ix2 p q := ⟨j 0, j 1, eq_ix2 j⟩
  rw [payload_apply]
  unfold Cert.Spec.onehotFn Cert.Spec.hot
  refine Finset.sum_congr rfl fun k _ => ?_
  rw [show x0 (ix2 p 0) = idx (ix2 (Cert.Spec.row i) 0) from hrow,
    show x1 (ix2 k q) = tbl (ix2 k (Cert.Spec.col i)) from htbl k]

/-- The zero offsets of a whole-block access, as a constant function. -/
theorem zeros2 : (![0, 0] : Fin 2 → Nat) = fun _ => 0 := funext fun a => by fin_cases a <;> rfl

/-- The windows' index maps over the 50 points: the index column's block and the output's block are block t of
    their arrays, the table's block is the whole table. -/
theorem index_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- An index of the output array is in point t's block iff each coordinate is in the block's range on its axis. -/
theorem mem_block (t : Fin cfg0.N) (i : S100000x128.Idx) :
    i ∈ ((cfg0.win 2).blk t).view.set
      ↔ ∀ a : Fin 2, win0_2.index t a * S2000x128.size a ≤ (i a).val
          ∧ (i a).val < win0_2.index t a * S2000x128.size a + S2000x128.size a := by
  show i ∈ ((View.whole main_v92).slice (win0_2.rect t)).set ↔ _
  rw [View.set_slice_whole, Rect.mem_set_unit]
  exact Iff.rfl

/-- Every one of the 50 row blocks is some point's. -/
theorem index_onto : ∀ b : Fin 50, ∃ t : Fin cfg0.N, win0_2.index t (0 : Fin 2) = b.val ∧ win0_2.index t (1 : Fin 2) = 0 :=
  (by decide +kernel : ∀ b : Fin 50, ∃ t : Fin grid0.N, win0_2.index t (0 : Fin 2) = b.val ∧ win0_2.index t (1 : Fin 2) = 0)

/-- The 50 blocks of 2000 rows cover the 100000 rows: row r is in block r / 2000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, q0, q1⟩ := index_onto ⟨(i 0).val / 2000, by omega⟩
  have q0' : win0_2.index t (0 : Fin 2) = (i 0).val / 2000 := q0
  refine ⟨t, flush0_2 t, ?_⟩
  rw [mem_block]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

/- The TensorCore's buffer contents when the region is entered, at the ideal instance. -/
variable (V : (c : Dev nD) → (b : Ref sig .tc) → Buf (Elt Ideal) ((c : Thread nD τ).loc b))

/-- What point t writes back is block t of the one-hot product of the whole index column against the table. -/
theorem flushed_eq (c : Dev nD) (t : Fin cfg0.N) :
    (dat0 (F := Ideal) V c).flushed 2 t
      = ((cfg0.win 2).blk t).view.read (Elt Ideal) (Cert.Spec.onehotFn (Cert.Spec.hot (V c main_v91)) (V c main_v90)) := by
  show (cfg0.win 2).cut (grid0.coords t) ((dat0 V c).after 2 t) = _
  rw [after0_2]
  unfold out0_2
  rw [View.canon_unit_zero zeros2]
  simp only [View.ld_unit_zero (S := S2000x1) zeros2, View.ld_unit_zero (S := S128x128) zeros2]
  obtain ⟨e0, e1, e2, e3, e4, e5⟩ := index_facts t
  funext j
  show k0_pay1 (iblk0 V c 0 t) (iblk0 V c 1 t) j
    = Cert.Spec.onehotFn (Cert.Spec.hot (V c main_v91)) (V c main_v90) (((cfg0.win 2).blk t).view.emb j)
  have hj0 : (j 0).val < 2000 := (j 0).isLt
  have hj1 : (j 1).val < 128 := (j 1).isLt
  refine payload_eq_spec (V c main_v91) (V c main_v90) (iblk0 V c 0 t) (iblk0 V c 1 t) j _ ?_ ?_
  · show V c main_v91 (((cfg0.win 0).blk t).view.emb (ix2 (j 0) 0))
      = V c main_v91 (ix2 (Cert.Spec.row (((cfg0.win 2).blk t).view.emb j)) 0)
    have h : ((cfg0.win 0).blk t).view.emb (ix2 (j 0) 0) = ix2 (Cert.Spec.row (((cfg0.win 2).blk t).view.emb j)) 0 := by
      funext a; apply Fin.ext
      match a with
      | ⟨0, _⟩ =>
        show win0_0.index t (0 : Fin 2) * 2000 + 1 * (j 0).val = win0_2.index t (0 : Fin 2) * 2000 + 1 * (j 0).val
        omega
      | ⟨1, _⟩ =>
        show win0_0.index t (1 : Fin 2) * 1 + 1 * 0 = 0
        omega
    rw [h]
  · intro k
    show V c main_v90 (((cfg0.win 1).blk t).view.emb (ix2 k (j 1)))
      = V c main_v90 (ix2 k (Cert.Spec.col (((cfg0.win 2).blk t).view.emb j)))
    have h : ((cfg0.win 1).blk t).view.emb (ix2 k (j 1)) = ix2 k (Cert.Spec.col (((cfg0.win 2).blk t).view.emb j)) := by
      funext a; apply Fin.ext
      match a with
      | ⟨0, _⟩ =>
        show win0_1.index t (0 : Fin 2) * 128 + 1 * k.val = k.val
        omega
      | ⟨1, _⟩ =>
        show win0_1.index t (1 : Fin 2) * 128 + 1 * (j 1).val = win0_2.index t (1 : Fin 2) * 128 + 1 * (j 1).val
        omega
    rw [h]

/-- After the region's 50 points the output holds the one-hot product of the index column against the table. -/
theorem gather_value (c : Dev nD) :
    ((dat0 (F := Ideal) V c).arrAt 2 cfg0.N : S100000x128.Idx → EReal)
      = Cert.Spec.onehotFn (Cert.Spec.hot (V c main_v91)) (V c main_v90) :=
  (dat0 (F := Ideal) V c).arrAt_eq_of_cover 2 (Cert.Spec.onehotFn (Cert.Spec.hot (V c main_v91)) (V c main_v90))
    (fun t _ => flushed_eq V c t) covered

end Cert.KernelIdeal.Gather

end
-- ==== Proof.Region1.lean ====
/-
  The item region (100 grid points of 1000 rows): its output array after the run, as one function of the arrays it read.
-/
import proofs.«424989_j54769422959169_1_alg».proof.Proof.Gen.KernelIdeal.Frame
import proofs.«424989_j54769422959169_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Item

open Cert.KernelIdeal Cert.KernelIdeal.Gen
open Idealize.ShloMosaic Idealize.ShloMosaic.TcCoe Idealize.ShloMosaic.ValueIdx Idealize.SL.Sem
open Idealize.ShloMosaic.Pipeline (Dat Cfg Window)

/- The TensorCore's buffer contents when the region is entered, at the ideal instance. -/
variable (V : (c : Dev nD) → (b : Ref sig .tc) → Buf (Elt Ideal) ((c : Thread nD τ).loc b))

/-! ## The two block products at an index

Both products contract the left operand's columns against the right operand's rows: at output index (row, column)
and contraction position k the left operand is read at (row, k) and the right at (k, column). -/

theorem lhsA_row (j : S1000x128.Idx) (k : dot_S1000x256_S256x128_S1000x128_1_0_0_1_n_n.contr.Idx) :
    (dot_S1000x256_S256x128_S1000x128_1_0_0_1_n_n.lhsIdx j k 0).val = (j 0).val := by
  unfold DotDims.lhsIdx
  rw [dif_neg (show ¬(0 : Fin S1000x256.rank) ∈ dot_S1000x256_S256x128_S1000x128_1_0_0_1_n_n.lhsBatch by decide),
    dif_pos (show (0 : Fin S1000x256.rank) ∈ dot_S1000x256_S256x128_S1000x128_1_0_0_1_n_n.lhsNonContracting by decide)]
  rfl

theorem lhsA_col (j : S1000x128.Idx) (k : dot_S1000x256_S256x128_S1000x128_1_0_0_1_n_n.contr.Idx) :
    (dot_S1000x256_S256x128_S1000x128_1_0_0_1_n_n.lhsIdx j k 1).val = (k ⟨0, by decide⟩).val :=
  DotDims.lhsIdx_val_of_single (d := dot_S1000x256_S256x128_S1000x128_1_0_0_1_n_n) (cl := 1) rfl j k

theorem rhsA_row (j : S1000x128.Idx) (k : dot_S1000x256_S256x128_S1000x128_1_0_0_1_n_n.contr.Idx) :
    (dot_S1000x256_S256x128_S1000x128_1_0_0_1_n_n.rhsIdx j k 0).val = (k ⟨0, by decide⟩).val :=
  DotDims.rhsIdx_val_of_single (d := dot_S1000x256_S256x128_S1000x128_1_0_0_1_n_n) (cr := 0) rfl j k

theorem rhsA_col (j : S1000x128.Idx) (k : dot_S1000x256_S256x128_S1000x128_1_0_0_1_n_n.contr.Idx) :
    (dot_S1000x256_S256x128_S1000x128_1_0_0_1_n_n.rhsIdx j k 1).val = (j 1).val := by
  unfold DotDims.rhsIdx
  rw [dif_neg (show ¬(1 : Fin S256x128.rank) ∈ dot_S1000x256_S256x128_S1000x128_1_0_0_1_n_n.rhsBatch by decide),
    dif_pos (show (1 : Fin S256x128.rank) ∈ dot_S1000x256_S256x128_S1000x128_1_0_0_1_n_n.rhsNonContracting by decide)]
  rfl

/-- The product of a [1000,256] block by a [256,128] matrix into a zero accumulator, at row p and column q,
    is the sum over the 256 contracted positions. -/
theorem mmA_apply (a : FVec Ideal S1000x256 .bf16) (b : FVec Ideal S256x128 .bf16) (p : Fin 1000) (q : Fin 128) :
    matmul dot_S1000x256_S256x128_S1000x128_1_0_0_1_n_n none a b (constant S1000x128 .f32 0x00000000#32) (ix2 p q)
      = ∑ k : Fin 256, (a : Cert.Spec.Arr 1000 256) (ix2 p k) * (b : Cert.Spec.Arr 256 128) (ix2 k q) := by
  show FloatOps.matmul _ none a b _ (ix2 p q) = _
  rw [Ideal.matmul_constant_zero_apply,
    ← Equiv.sum_comp (contrEquiv1 dot_S1000x256_S256x128_S1000x128_1_0_0_1_n_n 256 rfl rfl).symm]
  refine Finset.sum_congr rfl fun k _ => ?_
  have hk := contrEquiv1_symm_val dot_S1000x256_S256x128_S1000x128_1_0_0_1_n_n 256 rfl rfl k
  have el : dot_S1000x256_S256x128_S1000x128_1_0_0_1_n_n.lhsIdx (ix2 p q)
      ((contrEquiv1 dot_S1000x256_S256x128_S1000x128_1_0_0_1_n_n 256 rfl rfl).symm k) = ix2 p k := by
    funext ax; apply Fin.ext
    match ax with
    | ⟨0, _⟩ => exact lhsA_row _ _
    | ⟨1, _⟩ => exact (lhsA_col _ _).trans hk
  have er : dot_S1000x256_S256x128_S1000x128_1_0_0_1_n_n.rhsIdx (ix2 p q)
      ((contrEquiv1 dot_S1000x256_S256x128_S1000x128_1_0_0_1_n_n 256 rfl rfl).symm k) = ix2 k q := by
    funext ax; apply Fin.ext
    match ax with
    | ⟨0, _⟩ => exact (rhsA_row _ _).trans hk
    | ⟨1, _⟩ => exact rhsA_col _ _
  rw [el, er]

theorem lhsB_row (j : S1000x128.Idx) (k : dot_S1000x128_S128x128_S1000x128_1_0_0_1_n_n.contr.Idx) :
    (dot_S1000x128_S128x128_S1000x128_1_0_0_1_n_n.lhsIdx j k 0).val = (j 0).val := by
  unfold DotDims.lhsIdx
  rw [dif_neg (show ¬(0 : Fin S1000x128.rank) ∈ dot_S1000x128_S128x128_S1000x128_1_0_0_1_n_n.lhsBatch by decide),
    dif_pos (show (0 : Fin S1000x128.rank) ∈ dot_S1000x128_S128x128_S1000x128_1_0_0_1_n_n.lhsNonContracting by decide)]
  rfl

theorem lhsB_col (j : S1000x128.Idx) (k : dot_S1000x128_S128x128_S1000x128_1_0_0_1_n_n.contr.Idx) :
    (dot_S1000x128_S128x128_S1000x128_1_0_0_1_n_n.lhsIdx j k 1).val = (k ⟨0, by decide⟩).val :=
  DotDims.lhsIdx_val_of_single (d := dot_S1000x128_S128x128_S1000x128_1_0_0_1_n_n) (cl := 1) rfl j k

theorem rhsB_row (j : S1000x128.Idx) (k : dot_S1000x128_S128x128_S1000x128_1_0_0_1_n_n.contr.Idx) :
    (dot_S1000x128_S128x128_S1000x128_1_0_0_1_n_n.rhsIdx j k 0).val = (k ⟨0, by decide⟩).val :=
  DotDims.rhsIdx_val_of_single (d := dot_S1000x128_S128x128_S1000x128_1_0_0_1_n_n) (cr := 0) rfl j k

theorem rhsB_col (j : S1000x128.Idx) (k : dot_S1000x128_S128x128_S1000x128_1_0_0_1_n_n.contr.Idx) :
    (dot_S1000x128_S128x128_S1000x128_1_0_0_1_n_n.rhsIdx j k 1).val = (j 1).val := by
  unfold DotDims.rhsIdx
  rw [dif_neg (show ¬(1 : Fin S128x128.rank) ∈ dot_S1000x128_S128x128_S1000x128_1_0_0_1_n_n.rhsBatch by decide),
    dif_pos (show (1 : Fin S128x128.rank) ∈ dot_S1000x128_S128x128_S1000x128_1_0_0_1_n_n.rhsNonContracting by decide)]
  rfl

/-- The product of a [1000,128] block by a [128,128] matrix into a zero accumulator, at row p and column q,
    is the sum over the 128 contracted positions. -/
theorem mmB_apply (a : FVec Ideal S1000x128 .bf16) (b : FVec Ideal S128x128 .bf16) (p : Fin 1000) (q : Fin 128) :
    matmul dot_S1000x128_S128x128_S1000x128_1_0_0_1_n_n none a b (constant S1000x128 .f32 0x00000000#32) (ix2 p q)
      = ∑ k : Fin 128, (a : Cert.Spec.Arr 1000 128) (ix2 p k) * (b : Cert.Spec.Arr 128 128) (ix2 k q) := by
  show FloatOps.matmul _ none a b _ (ix2 p q) = _
  rw [Ideal.matmul_constant_zero_apply,
    ← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 p q)
      ((contrEquiv1 dot_S1000x128_S128x128_S1000x128_1_0_0_1_n_n 128 rfl rfl).symm k) = ix2 p k := by
    funext ax; apply Fin.ext
    match ax with
    | ⟨0, _⟩ => exact lhsB_row _ _
    | ⟨1, _⟩ => exact (lhsB_col _ _).trans hk
  have er : dot_S1000x128_S128x128_S1000x128_1_0_0_1_n_n.rhsIdx (ix2 p q)
      ((contrEquiv1 dot_S1000x128_S128x128_S1000x128_1_0_0_1_n_n 128 rfl rfl).symm k) = ix2 k q := by
    funext ax; apply Fin.ext
    match ax with
    | ⟨0, _⟩ => exact (rhsB_row _ _).trans hk
    | ⟨1, _⟩ => exact rhsB_col _ _
  rw [el, er]

/-! ## The layout operations of the body at an index -/

/-- Two [1000,128] blocks side by side along the columns, at row p and position k of 256. -/
theorem cat_apply (x0 x1 : FVec Ideal S1000x128 .f32) (p : Fin 1000) (k : Fin 256) :
    concatenate S1000x256 1 [⟨S1000x128, x0⟩, ⟨S1000x128, x1⟩] concatenates_S1000x128_S1000x128_S1000x256_d1 (ix2 p k)
      = Cert.Spec.cat2 (A := 1000) x0 x1 (ix2 p k) := by
  unfold Cert.Spec.cat2
  by_cases h : k.val < 128
  · rw [dif_pos (show ((ix2 p k : S1000x256.Idx) 1).val < 128 from h)]
    exact concatenate_pair_apply_left (1 : Fin S1000x256.rank) x0 x1 _ (ix2 p k) rfl _
      (fun b => by match b with | ⟨0, _⟩ => rfl | ⟨1, _⟩ => rfl)
  · rw [dif_neg (show ¬ ((ix2 p k : S1000x256.Idx) 1).val < 128 from h)]
    exact concatenate_pair_apply_right (1 : Fin S1000x256.rank) x0 x1 _ (ix2 p k) rfl rfl _
      (fun b hb => by match b, hb with | ⟨0, _⟩, _ => rfl | ⟨1, _⟩, hb => exact absurd rfl hb)
      (by show (k.val - 128) + 128 = k.val; omega)

/-- A [128] bias viewed as one row and repeated down the 1000 rows reads its entry at the column. -/
theorem bias_apply (b : Vec Ideal S128 .f32) (p : Fin 1000) (q : Fin 128) :
    broadcastTo S1000x128 (shapeCast S1x128 b shapeCasts_S128_S1x128) broadcasts_S1x128_S1000x128 (ix2 p q)
      = (b : Cert.Spec.Vec1 128) (ix1 q) :=
  (broadcastTo_1b_ab_apply _ _ p q).trans (shapeCast_a_1a_apply b _ 0 q)

/-- A [1000,1] column repeated along the 128 columns reads its entry at the row. -/
theorem colB_apply (v : Vec Ideal S1000x1 .f32) (p : Fin 1000) (q : Fin 128) :
    broadcastTo S1000x128 v broadcasts_S1000x1_S1000x128 (ix2 p q) = Cert.Spec.colB (A := 1000) v (ix2 p q) := by
  refine broadcastTo_apply v _ (ix2 p q) (ix2 p 0) fun ax => ?_
  match ax with
  | ⟨0, _⟩ => rfl
  | ⟨1, _⟩ => rfl

/-- The one entry of a [1,1] block. -/
theorem lam_apply (v : Vec Ideal S1x1 .f32) :
    extractAt ![0, 0] v inpos_S1x1_p0_0 = (v : Cert.Spec.Arr 1 1) (ix2 0 0) := by
  unfold extractAt
  exact congrArg v (funext fun a => by match a with | ⟨0, _⟩ => rfl | ⟨1, _⟩ => rfl)

/-! ## The body's result at an index -/

/-- The logistic function of a block, entry by entry. -/
theorem logistic_apply (a : FVec Ideal S1000x128 .f32) (i : S1000x128.Idx) : logistic a i = Ideal.logistic (a i) := rfl

/-- The side-by-side block against the [256,128] matrix. -/
theorem mmA_cat_apply (x0 x1 : FVec Ideal S1000x128 .f32) (x6 : FVec Ideal S256x128 .bf16) (p : Fin 1000) (q : Fin 128) :
    matmul dot_S1000x256_S256x128_S1000x128_1_0_0_1_n_n none
        (truncf .bf16 (concatenate S1000x256 1 [⟨S1000x128, x0⟩, ⟨S1000x128, x1⟩] concatenates_S1000x128_S1000x128_S1000x256_d1) bitsLt_bf16_f32)
        x6 (constant S1000x128 .f32 0x00000000#32) (ix2 p q)
      = ∑ k : Fin 256, Cert.Spec.cat2 (A := 1000) x0 x1 (ix2 p k) * (x6 : Cert.Spec.Arr 256 128) (ix2 k q) := by
  rw [mmA_apply]
  exact Finset.sum_congr rfl fun k _ => congrArg (· * _) (cat_apply x0 x1 p k)

/-- The first block against the [128,128] matrix. -/
theorem mmB_trunc_apply (x0 : FVec Ideal S1000x128 .f32) (x8 : FVec Ideal S128x128 .bf16) (p : Fin 1000) (q : Fin 128) :
    matmul dot_S1000x128_S128x128_S1000x128_1_0_0_1_n_n none (truncf .bf16 x0 bitsLt_bf16_f32) x8
        (constant S1000x128 .f32 0x00000000#32) (ix2 p q)
      = ∑ k : Fin 128, (x0 : Cert.Spec.Arr 1000 128) (ix2 p k) * (x8 : Cert.Spec.Arr 128 128) (ix2 k q) :=
  mmB_apply _ _ p q

/-- The body's result at row p and column q of the block: the gate of the first two blocks, plus the third, plus the
    [1,1] block's entry times the fourth block scaled by the column block. -/
theorem pay_apply (x0 x1 x2 x3 : Vec Ideal S1000x128 .f32) (x4 : Vec Ideal S1000x1 .f32) (x5 : Vec Ideal S1x1 .f32)
    (x6 : Vec Ideal S256x128 .bf16) (x7 : Vec Ideal S128 .f32) (x8 : Vec Ideal S128x128 .bf16) (x9 : Vec Ideal S128 .f32)
    (p : Fin 1000) (q : Fin 128) :
    k1_pay1 x0 x1 x6 x7 x8 x9 x3 x4 x5 x2 (ix2 p q)
      = Cert.Spec.interGate (A := 1000) x0 x1 x6 x7 x8 x9 (ix2 p q) + (x2 : Cert.Spec.Arr 1000 128) (ix2 p q)
        + (x5 : Cert.Spec.Arr 1 1) (ix2 0 0) * Cert.Spec.scaled (A := 1000) x3 x4 (ix2 p q) := by
  unfold k1_pay1
  simp only [addf_apply, mulf_apply, logistic_apply, broadcast_apply, mmA_cat_apply, mmB_trunc_apply, bias_apply,
    colB_apply, lam_apply]
  simp only [shapeCast_self]
  rw [bias_apply x7 p q, bias_apply x9 p q, colB_apply x4 p q, lam_apply x5]
  rfl

/-! ## The body's result from blocks that hold one row of the arrays -/

/-- The side-by-side table depends on its row only: blocks that hold row r of two tables give that row of the pair. -/
theorem cat2_row (x0 x1 : Cert.Spec.Arr 1000 128) (emb vp : Cert.Spec.Arr 100000 128) (p : Fin 1000) (r : Fin 100000)
    (h0 : ∀ k : Fin 128, x0 (ix2 p k) = emb (ix2 r k)) (h1 : ∀ k : Fin 128, x1 (ix2 p k) = vp (ix2 r k)) (k : Fin 256) :
    Cert.Spec.cat2 x0 x1 (ix2 p k) = Cert.Spec.cat2 emb vp (ix2 r k) := by
  unfold Cert.Spec.cat2
  by_cases h : k.val < 128
  · rw [dif_pos (show ((ix2 p k : (⟨2, ![1000, 256]⟩ : Shape).Idx) 1).val < 128 from h),
      dif_pos (show ((ix2 r k : (⟨2, ![100000, 256]⟩ : Shape).Idx) 1).val < 128 from h)]
    exact h0 ⟨k.val, h⟩
  · rw [dif_neg (show ¬ ((ix2 p k : (⟨2, ![1000, 256]⟩ : Shape).Idx) 1).val < 128 from h),
      dif_neg (show ¬ ((ix2 r k : (⟨2, ![100000, 256]⟩ : Shape).Idx) 1).val < 128 from h)]
    exact h1 ⟨k.val - 128, by have := k.isLt; omega⟩

/-- The gate at a row depends on that row of its two tables only. -/
theorem interGate_row (x0 x1 : Cert.Spec.Arr 1000 128) (emb vp : Cert.Spec.Arr 100000 128)
    (WaT : Cert.Spec.Arr 256 128) (ba : Cert.Spec.Vec1 128) (WbT : Cert.Spec.Arr 128 128) (bb : Cert.Spec.Vec1 128)
    (p : Fin 1000) (r : Fin 100000)
    (h0 : ∀ k : Fin 128, x0 (ix2 p k) = emb (ix2 r k)) (h1 : ∀ k : Fin 128, x1 (ix2 p k) = vp (ix2 r k)) (q : Fin 128) :
    Cert.Spec.interGate x0 x1 WaT ba WbT bb (ix2 p q) = Cert.Spec.interGate emb vp WaT ba WbT bb (ix2 r q) := by
  show x0 (ix2 p q) + Ideal.logistic (((∑ k : Fin 256, Cert.Spec.cat2 x0 x1 (ix2 p k) * WaT (ix2 k q)) + ba (ix1 q))
        + ((∑ k : Fin 128, x0 (ix2 p k) * WbT (ix2 k q)) + bb (ix1 q))) * x1 (ix2 p q)
    = emb (ix2 r q) + Ideal.logistic (((∑ k : Fin 256, Cert.Spec.cat2 emb vp (ix2 r k) * WaT (ix2 k q)) + ba (ix1 q))
        + ((∑ k : Fin 128, emb (ix2 r k) * WbT (ix2 k q)) + bb (ix1 q))) * vp (ix2 r q)
  rw [h0 q, h1 q, Finset.sum_congr rfl fun k _ => congrArg (· * WaT (ix2 k q)) (cat2_row x0 x1 emb vp p r h0 h1 k),
    Finset.sum_congr rfl fun k _ => congrArg (· * WbT (ix2 k q)) (h0 k)]

/-- The body's result at row p, column q of its block is the item function at row r, column q of the arrays, when
    the blocks hold row r of the row-tiled arrays at their row p and the small blocks are the whole small arrays. -/
theorem pay_eq_item (x0 x1 x2 x3 : Vec Ideal S1000x128 .f32) (x4 : Vec Ideal S1000x1 .f32) (x5 : Vec Ideal S1x1 .f32)
    (x6 : Vec Ideal S256x128 .bf16) (x7 : Vec Ideal S128 .f32) (x8 : Vec Ideal S128x128 .bf16) (x9 : Vec Ideal S128 .f32)
    (emb vp adj avu : Cert.Spec.Arr 100000 128) (matvu : Cert.Spec.Arr 100000 1) (lam : Cert.Spec.Arr 1 1)
    (WaT : Cert.Spec.Arr 256 128) (ba : Cert.Spec.Vec1 128) (WbT : Cert.Spec.Arr 128 128) (bb : Cert.Spec.Vec1 128)
    (p : Fin 1000) (q : Fin 128) (r : Fin 100000)
    (h0 : ∀ k : Fin 128, (x0 : Cert.Spec.Arr 1000 128) (ix2 p k) = emb (ix2 r k))
    (h1 : ∀ k : Fin 128, (x1 : Cert.Spec.Arr 1000 128) (ix2 p k) = vp (ix2 r k))
    (h2 : (x2 : Cert.Spec.Arr 1000 128) (ix2 p q) = adj (ix2 r q))
    (h3 : (x3 : Cert.Spec.Arr 1000 128) (ix2 p q) = avu (ix2 r q))
    (h4 : (x4 : Cert.Spec.Arr 1000 1) (ix2 p 0) = matvu (ix2 r 0))
    (h5 : (x5 : Cert.Spec.Arr 1 1) = lam) (h6 : (x6 : Cert.Spec.Arr 256 128) = WaT) (h7 : (x7 : Cert.Spec.Vec1 128) = ba)
    (h8 : (x8 : Cert.Spec.Arr 128 128) = WbT) (h9 : (x9 : Cert.Spec.Vec1 128) = bb) :
    k1_pay1 x0 x1 x6 x7 x8 x9 x3 x4 x5 x2 (ix2 p q)
      = Cert.Spec.itemFn emb vp adj avu matvu (lam (ix2 0 0)) WaT ba WbT bb (ix2 r q) := by
  subst h5 h6 h7 h8 h9
  rw [pay_apply, interGate_row x0 x1 emb vp x6 x7 x8 x9 p r h0 h1 q, h2]
  show _ + _ + _ * ((x3 : Cert.Spec.Arr 1000 128) (ix2 p q) * (x4 : Cert.Spec.Arr 1000 1) (ix2 p 0))
    = _ + _ + _ * (avu (ix2 r q) * matvu (ix2 r 0))
  rw [h3, h4]

/-! ## The windows' blocks as pieces of the arrays -/

/-- The index maps over the 100 grid points: a row-tiled window's block index at point t is (t, 0); a whole-operand
    window's is 0 on every axis. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ win1_7.index t (0 : Fin 1) = 0
    ∧ (win1_8.index t (0 : Fin 2) = 0 ∧ win1_8.index t (1 : Fin 2) = 0)
    ∧ win1_9.index t (0 : Fin 1) = 0
    ∧ (win1_10.index t (0 : Fin 2) = t.val ∧ win1_10.index t (1 : Fin 2) = 0) :=
  (by decide +kernel : ∀ t : Fin grid1.N, _)

/-- Window 0's block at point t is rows 1000·t … 1000·t + 999 of its array. -/
theorem iblk0_apply (c : Dev nD) (t : Fin cfg1.N) (x : S1000x128.Idx) (k : S100000x128.Idx)
    (hk0 : (k 0).val = 1000 * t.val + (x 0).val) (hk1 : (k 1).val = (x 1).val) :
    (iblk1 (F := Ideal) V c 0 t : Vec Ideal S1000x128 .f32) x = (V c main_arg0 : S100000x128.Idx → EReal) k := by
  obtain ⟨e0, e1⟩ := (idx_facts t).1
  unfold iblk1
  rw [View.read_apply]
  show V c main_arg0 _ = V c main_arg0 _
  congr 1
  funext a
  apply Fin.ext
  match a with
  | ⟨0, _⟩ => show win1_0.index t 0 * 1000 + 1 * (x 0).val = (k 0).val; rw [e0, hk0]; omega
  | ⟨1, _⟩ => show win1_0.index t 1 * 128 + 1 * (x 1).val = (k 1).val; rw [e1, hk1]; omega

/-- Window 1's block at point t is rows 1000·t … 1000·t + 999 of its array. -/
theorem iblk1_apply (c : Dev nD) (t : Fin cfg1.N) (x : S1000x128.Idx) (k : S100000x128.Idx)
    (hk0 : (k 0).val = 1000 * t.val + (x 0).val) (hk1 : (k 1).val = (x 1).val) :
    (iblk1 (F := Ideal) V c 1 t : Vec Ideal S1000x128 .f32) x = (V c main_v12 : S100000x128.Idx → EReal) k := by
  obtain ⟨e0, e1⟩ := (idx_facts t).2.1
  unfold iblk1
  rw [View.read_apply]
  show V c main_v12 _ = V c main_v12 _
  congr 1
  funext a
  apply Fin.ext
  match a with
  | ⟨0, _⟩ => show win1_1.index t 0 * 1000 + 1 * (x 0).val = (k 0).val; rw [e0, hk0]; omega
  | ⟨1, _⟩ => show win1_1.index t 1 * 128 + 1 * (x 1).val = (k 1).val; rw [e1, hk1]; omega

/-- Window 2's block at point t is rows 1000·t … 1000·t + 999 of its array. -/
theorem iblk2_apply (c : Dev nD) (t : Fin cfg1.N) (x : S1000x128.Idx) (k : S100000x128.Idx)
    (hk0 : (k 0).val = 1000 * t.val + (x 0).val) (hk1 : (k 1).val = (x 1).val) :
    (iblk1 (F := Ideal) V c 2 t : Vec Ideal S1000x128 .f32) x = (V c main_v25 : S100000x128.Idx → EReal) k := by
  obtain ⟨e0, e1⟩ := (idx_facts t).2.2.1
  unfold iblk1
  rw [View.read_apply]
  show V c main_v25 _ = V c main_v25 _
  congr 1
  funext a
  apply Fin.ext
  match a with
  | ⟨0, _⟩ => show win1_2.index t 0 * 1000 + 1 * (x 0).val = (k 0).val; rw [e0, hk0]; omega
  | ⟨1, _⟩ => show win1_2.index t 1 * 128 + 1 * (x 1).val = (k 1).val; rw [e1, hk1]; omega

/-- Window 3's block at point t is rows 1000·t … 1000·t + 999 of its array. -/
theorem iblk3_apply (c : Dev nD) (t : Fin cfg1.N) (x : S1000x128.Idx) (k : S100000x128.Idx)
    (hk0 : (k 0).val = 1000 * t.val + (x 0).val) (hk1 : (k 1).val = (x 1).val) :
    (iblk1 (F := Ideal) V c 3 t : Vec Ideal S1000x128 .f32) x = (V c main_v46 : S100000x128.Idx → EReal) k := by
  obtain ⟨e0, e1⟩ := (idx_facts t).2.2.2.1
  unfold iblk1
  rw [View.read_apply]
  show V c main_v46 _ = V c main_v46 _
  congr 1
  funext a
  apply Fin.ext
  match a with
  | ⟨0, _⟩ => show win1_3.index t 0 * 1000 + 1 * (x 0).val = (k 0).val; rw [e0, hk0]; omega
  | ⟨1, _⟩ => show win1_3.index t 1 * 128 + 1 * (x 1).val = (k 1).val; rw [e1, hk1]; omega

/-- Window 4's block at point t is rows 1000·t … 1000·t + 999 of the one-column array. -/
theorem iblk4_apply (c : Dev nD) (t : Fin cfg1.N) (x : S1000x1.Idx) (k : S100000x1.Idx)
    (hk0 : (k 0).val = 1000 * t.val + (x 0).val) (hk1 : (k 1).val = (x 1).val) :
    (iblk1 (F := Ideal) V c 4 t : Vec Ideal S1000x1 .f32) x = (V c main_arg19 : S100000x1.Idx → EReal) k := by
  obtain ⟨e0, e1⟩ := (idx_facts t).2.2.2.2.1
  unfold iblk1
  rw [View.read_apply]
  show V c main_arg19 _ = V c main_arg19 _
  congr 1
  funext a
  apply Fin.ext
  match a with
  | ⟨0, _⟩ => show win1_4.index t 0 * 1000 + 1 * (x 0).val = (k 0).val; rw [e0, hk0]; omega
  | ⟨1, _⟩ => show win1_4.index t 1 * 1 + 1 * (x 1).val = (k 1).val; rw [e1, hk1]; omega

/-- Window 5's block at every point is its whole [1,1] array. -/
theorem iblk5_eq (c : Dev nD) (t : Fin cfg1.N) :
    (iblk1 (F := Ideal) V c 5 t : Vec Ideal S1x1 .f32) = (V c main_v110 : S1x1.Idx → EReal) := by
  obtain ⟨e0, e1⟩ := (idx_facts t).2.2.2.2.2.1
  funext x
  unfold iblk1
  rw [View.read_apply]
  show V c main_v110 _ = V c main_v110 x
  congr 1
  funext a
  apply Fin.ext
  match a with
  | ⟨0, _⟩ => show win1_5.index t 0 * 1 + 1 * (x 0).val = (x 0).val; rw [e0]; omega
  | ⟨1, _⟩ => show win1_5.index t 1 * 1 + 1 * (x 1).val = (x 1).val; rw [e1]; omega

/-- Window 6's block at every point is its whole [256,128] array. -/
theorem iblk6_eq (c : Dev nD) (t : Fin cfg1.N) :
    (iblk1 (F := Ideal) V c 6 t : Vec Ideal S256x128 .bf16) = (V c main_v107 : S256x128.Idx → EReal) := by
  obtain ⟨e0, e1⟩ := (idx_facts t).2.2.2.2.2.2.1
  funext x
  unfold iblk1
  rw [View.read_apply]
  show V c main_v107 _ = V c main_v107 x
  congr 1
  funext a
  apply Fin.ext
  match a with
  | ⟨0, _⟩ => show win1_6.index t 0 * 256 + 1 * (x 0).val = (x 0).val; rw [e0]; omega
  | ⟨1, _⟩ => show win1_6.index t 1 * 128 + 1 * (x 1).val = (x 1).val; rw [e1]; omega

/-- Window 7's block at every point is its whole [128] array. -/
theorem iblk7_eq (c : Dev nD) (t : Fin cfg1.N) :
    (iblk1 (F := Ideal) V c 7 t : Vec Ideal S128 .f32) = (V c main_arg23 : S128.Idx → EReal) := by
  have e0 := (idx_facts t).2.2.2.2.2.2.2.1
  funext x
  unfold iblk1
  rw [View.read_apply]
  show V c main_arg23 _ = V c main_arg23 x
  congr 1
  funext a
  apply Fin.ext
  match a with
  | ⟨0, _⟩ => show win1_7.index t 0 * 128 + 1 * (x 0).val = (x 0).val; rw [e0]; omega

/-- Window 8's block at every point is its whole [128,128] array. -/
theorem iblk8_eq (c : Dev nD) (t : Fin cfg1.N) :
    (iblk1 (F := Ideal) V c 8 t : Vec Ideal S128x128 .bf16) = (V c main_v109 : S128x128.Idx → EReal) := by
  obtain ⟨e0, e1⟩ := (idx_facts t).2.2.2.2.2.2.2.2.1
  funext x
  unfold iblk1
  rw [View.read_apply]
  show V c main_v109 _ = V c main_v109 x
  congr 1
  funext a
  apply Fin.ext
  match a with
  | ⟨0, _⟩ => show win1_8.index t 0 * 128 + 1 * (x 0).val = (x 0).val; rw [e0]; omega
  | ⟨1, _⟩ => show win1_8.index t 1 * 128 + 1 * (x 1).val = (x 1).val; rw [e1]; omega

/-- Window 9's block at every point is its whole [128] array. -/
theorem iblk9_eq (c : Dev nD) (t : Fin cfg1.N) :
    (iblk1 (F := Ideal) V c 9 t : Vec Ideal S128 .f32) = (V c main_arg25 : S128.Idx → EReal) := by
  have e0 := (idx_facts t).2.2.2.2.2.2.2.2.2.1
  funext x
  unfold iblk1
  rw [View.read_apply]
  show V c main_arg25 _ = V c main_arg25 x
  congr 1
  funext a
  apply Fin.ext
  match a with
  | ⟨0, _⟩ => show win1_9.index t 0 * 128 + 1 * (x 0).val = (x 0).val; rw [e0]; omega

/-! ## From the blocks to the array -/

theorem hz2 : (![0, 0] : Fin 2 → Nat) = fun _ => 0 := funext fun a => by fin_cases a <;> rfl
theorem hz1 : (![0] : Fin 1 → Nat) = fun _ => 0 := funext fun a => by fin_cases a; rfl

/-- The specification's item table of the arrays the region found. -/
abbrev itemOf (c : Dev nD) : S100000x128.Idx → EReal :=
  Cert.Spec.itemFn (V c main_arg0) (V c main_v12) (V c main_v25) (V c main_v46) (V c main_arg19)
    ((V c main_v110 : S1x1.Idx → EReal) (ix2 0 0)) (V c main_v107) (V c main_arg23) (V c main_v109) (V c main_arg25)

/-- What point t writes back is block t — rows 1000·t … 1000·t + 999 — of the item table of the arrays. -/
theorem flushed_eq (c : Dev nD) (t : Fin cfg1.N) :
    (dat1 (F := Ideal) V c).flushed 10 t = ((cfg1.win 10).blk t).view.read (Elt Ideal) (itemOf V c) := by
  show (cfg1.win 10).cut (grid1.coords t) ((dat1 V c).after 10 t) = _
  rw [after1_10]
  unfold out1_10
  rw [View.canon_unit_zero hz2]
  simp only [View.ld_unit_zero (S := S1000x128) hz2, View.ld_unit_zero (S := S256x128) hz2,
    View.ld_unit_zero (S := S128) hz1, View.ld_unit_zero (S := S128x128) hz2,
    View.ld_unit_zero (S := S1000x1) hz2, View.ld_unit_zero (S := S1x1) hz2]
  obtain ⟨e0, e1⟩ := (idx_facts t).2.2.2.2.2.2.2.2.2.2
  have ht : t.val < 100 := by have h := t.isLt; have hN : cfg1.N = 100 := N_1; omega
  funext j
  have hp : (j 0).val < 1000 := (j 0).isLt
  have hq : (j 1).val < 128 := (j 1).isLt
  have ej : (cfg1.win 10).xinj (grid1.coords t) j = (ix2 ⟨(j 0).val, hp⟩ ⟨(j 1).val, hq⟩ : S1000x128.Idx) :=
    funext fun a => by match a with | ⟨0, _⟩ => rfl | ⟨1, _⟩ => rfl
  have er : ((cfg1.win 10).blk t).view.emb j
      = (ix2 ⟨1000 * t.val + (j 0).val, by omega⟩ ⟨(j 1).val, hq⟩ : S100000x128.Idx) :=
    funext fun a => Fin.ext (by
      match a with
      | ⟨0, _⟩ => show win1_10.index t 0 * 1000 + 1 * (j 0).val = 1000 * t.val + (j 0).val; rw [e0]; omega
      | ⟨1, _⟩ => show win1_10.index t 1 * 128 + 1 * (j 1).val = (j 1).val; rw [e1]; omega)
  show k1_pay1 (iblk1 V c 0 t) (iblk1 V c 1 t) (iblk1 V c 6 t) (iblk1 V c 7 t) (iblk1 V c 8 t) (iblk1 V c 9 t)
      (iblk1 V c 3 t) (iblk1 V c 4 t) (iblk1 V c 5 t) (iblk1 V c 2 t) ((cfg1.win 10).xinj (grid1.coords t) j)
    = itemOf V c (((cfg1.win 10).blk t).view.emb j)
  rw [ej, er]
  exact pay_eq_item (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t)
    (V c main_arg0) (V c main_v12) (V c main_v25) (V c main_v46) (V c main_arg19) (V c main_v110)
    (V c main_v107) (V c main_arg23) (V c main_v109) (V c main_arg25)
    ⟨(j 0).val, hp⟩ ⟨(j 1).val, hq⟩ ⟨1000 * t.val + (j 0).val, by omega⟩
    (fun k => iblk0_apply V c t _ _ rfl rfl) (fun k => iblk1_apply V c t _ _ rfl rfl)
    (iblk2_apply V c t _ _ rfl rfl) (iblk3_apply V c t _ _ rfl rfl) (iblk4_apply V c t _ _ rfl rfl)
    (iblk5_eq V c t) (iblk6_eq V c t) (iblk7_eq V c t) (iblk8_eq V c t) (iblk9_eq V c t)

/-- An index of the output array is in point t's block iff each coordinate is in the block's range on its axis. -/
theorem mem_blk (t : Fin cfg1.N) (i : S100000x128.Idx) :
    i ∈ ((cfg1.win 10).blk t).view.set ↔ ∀ a : Fin 2, win1_10.index t a * S1000x128.size a ≤ (i a).val
      ∧ (i a).val < win1_10.index t a * S1000x128.size a + S1000x128.size a := by
  show i ∈ ((View.whole main_v111).slice (win1_10.rect t)).set ↔ _
  rw [View.set_slice_whole, Rect.mem_set_unit]
  exact Iff.rfl

/-- Every row r of the output array is in the block of point r / 1000, which writes back. -/
theorem cover (i : S100000x128.Idx) :
    ∃ t : Fin cfg1.N, (cfg1.win 10).flush t = true ∧ i ∈ ((cfg1.win 10).blk t).view.set := by
  have hi0 : (i 0).val < 100000 := (i 0).isLt
  have hi1 : (i 1).val < 128 := (i 1).isLt
  have hN : cfg1.N = 100 := N_1
  obtain ⟨t, htv⟩ : ∃ t : Fin cfg1.N, t.val = (i 0).val / 1000 := ⟨⟨(i 0).val / 1000, by rw [hN]; omega⟩, rfl⟩
  obtain ⟨e0, e1⟩ := (idx_facts t).2.2.2.2.2.2.2.2.2.2
  refine ⟨t, flush1_10 t, ?_⟩
  rw [mem_blk]
  intro a
  match a with
  | ⟨0, _⟩ =>
    show win1_10.index t 0 * 1000 ≤ (i 0).val ∧ (i 0).val < win1_10.index t 0 * 1000 + 1000
    rw [e0, htv]; omega
  | ⟨1, _⟩ =>
    show win1_10.index t 1 * 128 ≤ (i 1).val ∧ (i 1).val < win1_10.index t 1 * 128 + 128
    rw [e1]; omega

/-- After the region's 100 points the item output holds, at every index, the gate of the item embedding and the
    price aggregate, plus the adjacency aggregate, plus λ times the scaled user aggregate — of the region's input arrays
    as it found them. -/
theorem item_value (c : Dev nD) :
    ((dat1 (F := Ideal) V c).arrAt 10 cfg1.N : S100000x128.Idx → EReal)
      = Cert.Spec.itemFn (V c main_arg0) (V c main_v12) (V c main_v25) (V c main_v46) (V c main_arg19)
          ((V c main_v110 : S1x1.Idx → EReal) (ix2 0 0)) (V c main_v107) (V c main_arg23) (V c main_v109) (V c main_arg25) :=
  (dat1 (F := Ideal) V c).arrAt_eq_of_cover 10 (itemOf V c) (fun t _ => flushed_eq V c t) cover

end Cert.KernelIdeal.Item

end
-- ==== Proof.Region2.lean ====
/-
  The price region (one grid point, the whole 100-row table): its output array after the run, as one function of the
  arrays it read.
-/
import proofs.«424989_j54769422959169_1_alg».proof.Proof.Gen.KernelIdeal.Frame
import proofs.«424989_j54769422959169_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Price

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The two products' operand indices -/

/-- The wide product's left operand is read at the output's row … -/
theorem lhs_wide_0 (i : S100x128.Idx) (q : dot_S100x256_S256x128_S100x128_1_0_0_1_n_n.contr.Idx) :
    (dot_S100x256_S256x128_S100x128_1_0_0_1_n_n.lhsIdx i q 0).val = (i 0).val := by
  unfold DotDims.lhsIdx
  rw [dif_neg (show ¬(0 : Fin S100x256.rank) ∈ dot_S100x256_S256x128_S100x128_1_0_0_1_n_n.lhsBatch by decide), dif_pos (show (0 : Fin S100x256.rank) ∈ dot_S100x256_S256x128_S100x128_1_0_0_1_n_n.lhsNonContracting by decide)]
  rfl
/-- … and the contraction position; -/
theorem lhs_wide_1 (i : S100x128.Idx) (q : dot_S100x256_S256x128_S100x128_1_0_0_1_n_n.contr.Idx) :
    (dot_S100x256_S256x128_S100x128_1_0_0_1_n_n.lhsIdx i q 1).val = (q ⟨0, by decide⟩).val :=
  dot_S100x256_S256x128_S100x128_1_0_0_1_n_n.lhsIdx_val_of_single rfl i q
/-- its right operand at the contraction position … -/
theorem rhs_wide_0 (i : S100x128.Idx) (q : dot_S100x256_S256x128_S100x128_1_0_0_1_n_n.contr.Idx) :
    (dot_S100x256_S256x128_S100x128_1_0_0_1_n_n.rhsIdx i q 0).val = (q ⟨0, by decide⟩).val :=
  dot_S100x256_S256x128_S100x128_1_0_0_1_n_n.rhsIdx_val_of_single rfl i q
/-- … and the output's column. -/
theorem rhs_wide_1 (i : S100x128.Idx) (q : dot_S100x256_S256x128_S100x128_1_0_0_1_n_n.contr.Idx) :
    (dot_S100x256_S256x128_S100x128_1_0_0_1_n_n.rhsIdx i q 1).val = (i 1).val := by
  unfold DotDims.rhsIdx
  rw [dif_neg (show ¬(1 : Fin S256x128.rank) ∈ dot_S100x256_S256x128_S100x128_1_0_0_1_n_n.rhsBatch by decide), dif_pos (show (1 : Fin S256x128.rank) ∈ dot_S100x256_S256x128_S100x128_1_0_0_1_n_n.rhsNonContracting by decide)]
  rfl

/-- The square product's left operand is read at the output's row … -/
theorem lhs_sq_0 (i : S100x128.Idx) (q : dot_S100x128_S128x128_S100x128_1_0_0_1_n_n.contr.Idx) :
    (dot_S100x128_S128x128_S100x128_1_0_0_1_n_n.lhsIdx i q 0).val = (i 0).val := by
  unfold DotDims.lhsIdx
  rw [dif_neg (show ¬(0 : Fin S100x128.rank) ∈ dot_S100x128_S128x128_S100x128_1_0_0_1_n_n.lhsBatch by decide), dif_pos (show (0 : Fin S100x128.rank) ∈ dot_S100x128_S128x128_S100x128_1_0_0_1_n_n.lhsNonContracting by decide)]
  rfl
/-- … and the contraction position; -/
theorem lhs_sq_1 (i : S100x128.Idx) (q : dot_S100x128_S128x128_S100x128_1_0_0_1_n_n.contr.Idx) :
    (dot_S100x128_S128x128_S100x128_1_0_0_1_n_n.lhsIdx i q 1).val = (q ⟨0, by decide⟩).val :=
  dot_S100x128_S128x128_S100x128_1_0_0_1_n_n.lhsIdx_val_of_single rfl i q
/-- its right operand at the contraction position … -/
theorem rhs_sq_0 (i : S100x128.Idx) (q : dot_S100x128_S128x128_S100x128_1_0_0_1_n_n.contr.Idx) :
    (dot_S100x128_S128x128_S100x128_1_0_0_1_n_n.rhsIdx i q 0).val = (q ⟨0, by decide⟩).val :=
  dot_S100x128_S128x128_S100x128_1_0_0_1_n_n.rhsIdx_val_of_single rfl i q
/-- … and the output's column. -/
theorem rhs_sq_1 (i : S100x128.Idx) (q : dot_S100x128_S128x128_S100x128_1_0_0_1_n_n.contr.Idx) :
    (dot_S100x128_S128x128_S100x128_1_0_0_1_n_n.rhsIdx i q 1).val = (i 1).val := by
  unfold DotDims.rhsIdx
  rw [dif_neg (show ¬(1 : Fin S128x128.rank) ∈ dot_S100x128_S128x128_S100x128_1_0_0_1_n_n.rhsBatch by decide), dif_pos (show (1 : Fin S128x128.rank) ∈ dot_S100x128_S128x128_S100x128_1_0_0_1_n_n.rhsNonContracting by decide)]
  rfl

/-! ## The two products at an index -/

/-- The product of a 256-wide table with a [256, 128] matrix into zero: the sum over the 256 positions. -/
theorem matmul_wide_apply (a : FVec Ideal S100x256 .bf16) (b : FVec Ideal S256x128 .bf16) (p : Fin 100) (q : Fin 128) :
    matmul dot_S100x256_S256x128_S100x128_1_0_0_1_n_n none a b (constant S100x128 .f32 0x00000000#32) (ix2 p q)
      = ∑ k : Fin 256, a (ix2 p k) * b (ix2 k q) := by
  simp only [matmul]
  rw [Ideal.matmul_constant_zero_apply, ← Equiv.sum_comp (contrEquiv1 dot_S100x256_S256x128_S100x128_1_0_0_1_n_n 256 rfl rfl).symm]
  refine Finset.sum_congr rfl fun k _ => ?_
  have hk := contrEquiv1_symm_val dot_S100x256_S256x128_S100x128_1_0_0_1_n_n 256 rfl rfl k
  have el : dot_S100x256_S256x128_S100x128_1_0_0_1_n_n.lhsIdx (ix2 p q) ((contrEquiv1 dot_S100x256_S256x128_S100x128_1_0_0_1_n_n 256 rfl rfl).symm k) = ix2 p k := funext fun a => Fin.ext (by
    match a with
    | ⟨0, _⟩ => exact lhs_wide_0 _ _
    | ⟨1, _⟩ => exact (lhs_wide_1 _ _).trans hk)
  have er : dot_S100x256_S256x128_S100x128_1_0_0_1_n_n.rhsIdx (ix2 p q) ((contrEquiv1 dot_S100x256_S256x128_S100x128_1_0_0_1_n_n 256 rfl rfl).symm k) = ix2 k q := funext fun a => Fin.ext (by
    match a with
    | ⟨0, _⟩ => exact (rhs_wide_0 _ _).trans hk
    | ⟨1, _⟩ => exact rhs_wide_1 _ _)
  rw [el, er]

/-- The product of a 128-wide table with a [128, 128] matrix into zero: the sum over the 128 positions. -/
theorem matmul_sq_apply (a : FVec Ideal S100x128 .bf16) (b : FVec Ideal S128x128 .bf16) (p : Fin 100) (q : Fin 128) :
    matmul dot_S100x128_S128x128_S100x128_1_0_0_1_n_n none a b (constant S100x128 .f32 0x00000000#32) (ix2 p q)
      = ∑ k : Fin 128, a (ix2 p k) * b (ix2 k q) := by
  simp only [matmul]
  rw [Ideal.matmul_constant_zero_apply, ← Equiv.sum_comp (contrEquiv1 dot_S100x128_S128x128_S100x128_1_0_0_1_n_n 128 rfl rfl).symm]
  refine Finset.sum_congr rfl fun k _ => ?_
  have hk := contrEquiv1_symm_val dot_S100x128_S128x128_S100x128_1_0_0_1_n_n 128 rfl rfl k
  have el : dot_S100x128_S128x128_S100x128_1_0_0_1_n_n.lhsIdx (ix2 p q) ((contrEquiv1 dot_S100x128_S128x128_S100x128_1_0_0_1_n_n 128 rfl rfl).symm k) = ix2 p k := funext fun a => Fin.ext (by
    match a with
    | ⟨0, _⟩ => exact lhs_sq_0 _ _
    | ⟨1, _⟩ => exact (lhs_sq_1 _ _).trans hk)
  have er : dot_S100x128_S128x128_S100x128_1_0_0_1_n_n.rhsIdx (ix2 p q) ((contrEquiv1 dot_S100x128_S128x128_S100x128_1_0_0_1_n_n 128 rfl rfl).symm k) = ix2 k q := funext fun a => Fin.ext (by
    match a with
    | ⟨0, _⟩ => exact (rhs_sq_0 _ _).trans hk
    | ⟨1, _⟩ => exact rhs_sq_1 _ _)
  rw [el, er]

/-! ## The layout operations at an index -/

/-- The scale column broadcast along the columns reads the row's scale. -/
theorem scale_column_apply (v : FVec Ideal S100x1 .f32) (p : Fin 100) (q : Fin 128) :
    broadcastTo S100x128 v broadcasts_S100x1_S100x128 (ix2 p q) = v (ix2 p (0 : Fin 1)) := by
  refine broadcastTo_apply v _ (ix2 p q) (ix2 p (0 : Fin 1)) fun ax => ?_
  match ax with
  | ⟨0, _⟩ =>
    show p.val = if (100 : ℕ) = 1 then 0 else p.val
    rw [if_neg (by decide)]
  | ⟨1, _⟩ => rfl

/-- A bias as one row broadcast over the rows reads the column's bias. -/
theorem bias_row_apply (v : FVec Ideal S128 .f32) (p : Fin 100) (q : Fin 128) :
    broadcastTo S100x128 (shapeCast S1x128 v shapeCasts_S128_S1x128) broadcasts_S1x128_S100x128 (ix2 p q) = v (ix1 q) :=
  (broadcastTo_1b_ab_apply _ _ p q).trans (shapeCast_a_1a_apply v _ 0 q)

/-- Two tables side by side: left of column 128 the first, from there on the second. -/
theorem side_by_side_apply (a b : FVec Ideal S100x128 .f32) (p : Fin 100) (k : Fin 256) :
    concatenate S100x256 1 [⟨S100x128, a⟩, ⟨S100x128, b⟩] concatenates_S100x128_S100x128_S100x256_d1 (ix2 p k)
      = Cert.Spec.cat2 a b (ix2 p k) := by
  show _ = if h : k.val < 128 then a (ix2 p ⟨k.val, h⟩) else b (ix2 p ⟨k.val - 128, by have := k.isLt; omega⟩)
  by_cases h : k.val < 128
  · rw [dif_pos h]
    exact concatenate_pair_apply_left (1 : Fin S100x256.rank) a b _ (ix2 p k) rfl (ix2 p ⟨k.val, h⟩)
      (fun bx => by match bx with | ⟨0, _⟩ => rfl | ⟨1, _⟩ => rfl)
  · rw [dif_neg h]
    exact concatenate_pair_apply_right (1 : Fin S100x256.rank) a b _ (ix2 p k) rfl rfl (ix2 p ⟨k.val - 128, by have := k.isLt; omega⟩)
      (fun bx hb => by match bx, hb with | ⟨0, _⟩, _ => rfl | ⟨1, _⟩, hb => exact absurd rfl hb)
      (by show (k.val - 128) + 128 = k.val; omega)

/-! ## The body's arithmetic at an index -/

/-- The logistic function of a table at an index is the logistic function of the entry. -/
theorem logistic_apply {s : Shape} {φ : FTy} (a : FVec Ideal s φ) (i : s.Idx) :
    Idealize.ShloMosaic.logistic a i = Ideal.logistic (a i) := rfl

/-- The aggregate times its scale column broadcast along the columns is the table scaled row by row. -/
theorem scaled_eq (a : FVec Ideal S100x128 .f32) (v : FVec Ideal S100x1 .f32) :
    mulf a (broadcastTo S100x128 v broadcasts_S100x1_S100x128) = Cert.Spec.scaled a v := by
  funext j
  obtain ⟨p, q, rfl⟩ : ∃ (p : Fin 100) (q : Fin 128), j = ix2 p q := ⟨j 0, j 1, eq_ix2 j⟩
  show a (ix2 p q) * broadcastTo S100x128 v broadcasts_S100x1_S100x128 (ix2 p q) = a (ix2 p q) * v (ix2 p (0 : Fin 1))
  rw [scale_column_apply]

/-- The body's arithmetic, entry by entry, is the gate of the price embedding and the scaled aggregate. -/
theorem pay_apply (x0 x1 : Vec Ideal S100x128 .f32) (x2 : Vec Ideal S100x1 .f32) (x3 : Vec Ideal S256x128 .bf16)
    (x4 : Vec Ideal S128 .f32) (x5 : Vec Ideal S128x128 .bf16) (x6 : Vec Ideal S128 .f32) (p : Fin 100) (q : Fin 128) :
    k2_pay1 x0 x1 x2 x3 x4 x5 x6 (ix2 p q) = Cert.Spec.priceFn x0 x1 x2 x3 x4 x5 x6 (ix2 p q) := by
  unfold k2_pay1
  rw [shapeCast_self, shapeCast_self, shapeCast_self, scaled_eq]
  simp only [addf_apply, mulf_apply, logistic_apply, matmul_wide_apply, matmul_sq_apply, bias_row_apply, truncf_apply,
    side_by_side_apply]
  rfl

/- The TensorCore's buffer contents when the region is entered, at the ideal instance. -/
variable (V : (c : Dev nD) → (b : Ref sig .tc) → Buf (Elt Ideal) ((c : Thread nD τ).loc b))

/-! ## From the one block to the array -/

theorem zeros2 : (![0, 0] : Fin 2 → Nat) = fun _ => 0 := funext fun a => by fin_cases a <;> rfl
theorem zeros1 : (![0] : Fin 1 → Nat) = fun _ => 0 := funext fun a => by fin_cases a <;> rfl

/-- Every window's block index is zero on every axis, at every point of the grid. -/
theorem idx_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = 0 ∧ win2_7.index t (1 : Fin 2) = 0 :=
  (by decide +kernel : ∀ t : Fin grid2.N, _)

/-- The price embedding's block is the whole table. -/
theorem price_block (c : Dev nD) (t : Fin cfg2.N) : iblk2 V c 0 t = V c main_arg1 := by
  obtain ⟨e0, e1, -⟩ := idx_facts t
  funext j
  show V c main_arg1 (((cfg2.win 0).blk t).view.emb j) = V c main_arg1 j
  refine congrArg (V c main_arg1) (funext fun a => Fin.ext ?_)
  match a with
  | ⟨0, _⟩ => show win2_0.index t (0 : Fin 2) * 100 + 1 * (j 0).val = (j 0).val; omega
  | ⟨1, _⟩ => show win2_0.index t (1 : Fin 2) * 128 + 1 * (j 1).val = (j 1).val; omega

/-- The aggregate's block is the whole table. -/
theorem aggregate_block (c : Dev nD) (t : Fin cfg2.N) : iblk2 V c 1 t = V c main_v67 := by
  obtain ⟨-, -, e0, e1, -⟩ := idx_facts t
  funext j
  show V c main_v67 (((cfg2.win 1).blk t).view.emb j) = V c main_v67 j
  refine congrArg (V c main_v67) (funext fun a => Fin.ext ?_)
  match a with
  | ⟨0, _⟩ => show win2_1.index t (0 : Fin 2) * 100 + 1 * (j 0).val = (j 0).val; omega
  | ⟨1, _⟩ => show win2_1.index t (1 : Fin 2) * 128 + 1 * (j 1).val = (j 1).val; omega

/-- The scale's block is the whole column. -/
theorem scale_block (c : Dev nD) (t : Fin cfg2.N) : iblk2 V c 2 t = V c main_arg20 := by
  obtain ⟨-, -, -, -, e0, e1, -⟩ := idx_facts t
  funext j
  show V c main_arg20 (((cfg2.win 2).blk t).view.emb j) = V c main_arg20 j
  refine congrArg (V c main_arg20) (funext fun a => Fin.ext ?_)
  match a with
  | ⟨0, _⟩ => show win2_2.index t (0 : Fin 2) * 100 + 1 * (j 0).val = (j 0).val; omega
  | ⟨1, _⟩ => show win2_2.index t (1 : Fin 2) * 1 + 1 * (j 1).val = (j 1).val; omega

/-- The wide matrix's block is the whole matrix. -/
theorem wide_matrix_block (c : Dev nD) (t : Fin cfg2.N) : iblk2 V c 3 t = V c main_v113 := by
  obtain ⟨-, -, -, -, -, -, e0, e1, -⟩ := idx_facts t
  funext j
  show V c main_v113 (((cfg2.win 3).blk t).view.emb j) = V c main_v113 j
  refine congrArg (V c main_v113) (funext fun a => Fin.ext ?_)
  match a with
  | ⟨0, _⟩ => show win2_3.index t (0 : Fin 2) * 256 + 1 * (j 0).val = (j 0).val; omega
  | ⟨1, _⟩ => show win2_3.index t (1 : Fin 2) * 128 + 1 * (j 1).val = (j 1).val; omega

/-- The wide layer's bias block is the whole bias. -/
theorem wide_bias_block (c : Dev nD) (t : Fin cfg2.N) : iblk2 V c 4 t = V c main_arg27 := by
  obtain ⟨-, -, -, -, -, -, -, -, e0, -⟩ := idx_facts t
  funext j
  show V c main_arg27 (((cfg2.win 4).blk t).view.emb j) = V c main_arg27 j
  refine congrArg (V c main_arg27) (funext fun a => Fin.ext ?_)
  match a with
  | ⟨0, _⟩ => show win2_4.index t (0 : Fin 1) * 128 + 1 * (j 0).val = (j 0).val; omega

/-- The square matrix's block is the whole matrix. -/
theorem square_matrix_block (c : Dev nD) (t : Fin cfg2.N) : iblk2 V c 5 t = V c main_v115 := by
  obtain ⟨-, -, -, -, -, -, -, -, -, e0, e1, -⟩ := idx_facts t
  funext j
  show V c main_v115 (((cfg2.win 5).blk t).view.emb j) = V c main_v115 j
  refine congrArg (V c main_v115) (funext fun a => Fin.ext ?_)
  match a with
  | ⟨0, _⟩ => show win2_5.index t (0 : Fin 2) * 128 + 1 * (j 0).val = (j 0).val; omega
  | ⟨1, _⟩ => show win2_5.index t (1 : Fin 2) * 128 + 1 * (j 1).val = (j 1).val; omega

/-- The square layer's bias block is the whole bias. -/
theorem square_bias_block (c : Dev nD) (t : Fin cfg2.N) : iblk2 V c 6 t = V c main_arg29 := by
  obtain ⟨-, -, -, -, -, -, -, -, -, -, -, e0, -⟩ := idx_facts t
  funext j
  show V c main_arg29 (((cfg2.win 6).blk t).view.emb j) = V c main_arg29 j
  refine congrArg (V c main_arg29) (funext fun a => Fin.ext ?_)
  match a with
  | ⟨0, _⟩ => show win2_6.index t (0 : Fin 1) * 128 + 1 * (j 0).val = (j 0).val; omega

/-- What the one point writes back is its block of the gate of the price embedding and the scaled aggregate. -/
theorem flushed_eq (c : Dev nD) (t : Fin cfg2.N) :
    (dat2 V c).flushed 7 t = ((cfg2.win 7).blk t).view.read (Elt Ideal)
      (Cert.Spec.priceFn (V c main_arg1) (V c main_v67) (V c main_arg20) (V c main_v113) (V c main_arg27)
        (V c main_v115) (V c main_arg29)) := by
  show (cfg2.win 7).cut (grid2.coords t) ((dat2 V c).after 7 t) = _
  rw [after2_7]
  unfold out2_7
  rw [View.canon_unit_zero zeros2]
  simp only [View.ld_unit_zero (S := S100x128) zeros2, View.ld_unit_zero (S := S100x1) zeros2,
    View.ld_unit_zero (S := S256x128) zeros2, View.ld_unit_zero (S := S128) zeros1,
    View.ld_unit_zero (S := S128x128) zeros2]
  rw [price_block, aggregate_block, scale_block, wide_matrix_block, wide_bias_block, square_matrix_block,
    square_bias_block]
  obtain ⟨-, -, -, -, -, -, -, -, -, -, -, -, e0, e1⟩ := idx_facts t
  funext j
  obtain ⟨p, q, rfl⟩ : ∃ (p : Fin 100) (q : Fin 128), j = ix2 p q := ⟨j 0, j 1, eq_ix2 j⟩
  show k2_pay1 (V c main_arg1) (V c main_v67) (V c main_arg20) (V c main_v113) (V c main_arg27) (V c main_v115)
      (V c main_arg29) (ix2 p q)
    = Cert.Spec.priceFn (V c main_arg1) (V c main_v67) (V c main_arg20) (V c main_v113) (V c main_arg27)
        (V c main_v115) (V c main_arg29) (((cfg2.win 7).blk t).view.emb (ix2 p q))
  refine (pay_apply _ _ _ _ _ _ _ p q).trans (congrArg _ (funext fun a => Fin.ext ?_))
  match a with
  | ⟨0, _⟩ => show p.val = win2_7.index t (0 : Fin 2) * 100 + 1 * p.val; omega
  | ⟨1, _⟩ => show q.val = win2_7.index t (1 : Fin 2) * 128 + 1 * q.val; omega

/-- An index of the output is in point `t`'s block iff each coordinate is in the block's range on its axis. -/
theorem mem_blk (t : Fin cfg2.N) (i : S100x128.Idx) :
    i ∈ ((cfg2.win 7).blk t).view.set ↔ ∀ a : Fin 2, win2_7.index t a * S100x128.size a ≤ (i a).val ∧ (i a).val < win2_7.index t a * S100x128.size a + S100x128.size a := by
  show i ∈ ((View.whole main_v116).slice (win2_7.rect t)).set ↔ _
  rw [View.set_slice_whole, Rect.mem_set_unit]
  exact Iff.rfl

/-- The one point's block covers every index of the output. -/
theorem covered (i : S100x128.Idx) :
    ∃ t : Fin cfg2.N, (cfg2.win 7).flush t = true ∧ i ∈ ((cfg2.win 7).blk t).view.set := by
  obtain ⟨-, -, -, -, -, -, -, -, -, -, -, -, e0, e1⟩ := idx_facts t2_0
  refine ⟨t2_0, flush2_7 t2_0, ?_⟩
  rw [mem_blk]
  intro a
  have h0 := idx2_lt0 i
  have h1 := idx2_lt1 i
  match a with
  | ⟨0, _⟩ => show win2_7.index t2_0 (0 : Fin 2) * 100 ≤ (i 0).val ∧ (i 0).val < win2_7.index t2_0 (0 : Fin 2) * 100 + 100; omega
  | ⟨1, _⟩ => show win2_7.index t2_0 (1 : Fin 2) * 128 ≤ (i 1).val ∧ (i 1).val < win2_7.index t2_0 (1 : Fin 2) * 128 + 128; omega

/-- After the region's one point the price output holds the gate of the price embedding and its scaled aggregate. -/
theorem price_value (c : Dev nD) :
    ((dat2 (F := Ideal) V c).arrAt 7 cfg2.N : S100x128.Idx → EReal)
      = Cert.Spec.priceFn (V c main_arg1) (V c main_v67) (V c main_arg20) (V c main_v113) (V c main_arg27)
          (V c main_v115) (V c main_arg29) :=
  (dat2 V c).arrAt_eq_of_cover 7 _ (fun t _ => flushed_eq V c t) covered

end Cert.KernelIdeal.Price

end
-- ==== Proof.Region3.lean ====
/-
  The user region (40 grid points of 1000 rows): its output array after the run, as one function of the arrays it read.
-/
import proofs.«424989_j54769422959169_1_alg».proof.Proof.Gen.KernelIdeal.Frame
import proofs.«424989_j54769422959169_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.User

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The blend on a table of any number of rows

The specification's user table is this function at 40000 rows; a block of 1000 rows is the same function at 1000 rows
of the blocks' entries, and its value in a row depends only on that row of each table. -/

/-- The blend of a user table and its scaled aggregate by the gate over three tables side by side, for any number of rows. -/
def blend {A : Nat} (one : EReal) (usr auv : Cert.Spec.Arr A 128) (matuv : Cert.Spec.Arr A 1) (epu : Cert.Spec.Arr A 128)
    (WuT : Cert.Spec.Arr 384 128) (bu : Cert.Spec.Vec1 128) : Cert.Spec.Arr A 128 := fun i =>
  Ideal.logistic (Cert.Spec.lin (Cert.Spec.cat3 usr (Cert.Spec.scaled auv matuv) epu) WuT bu i) * usr i
    + (one - Ideal.logistic (Cert.Spec.lin (Cert.Spec.cat3 usr (Cert.Spec.scaled auv matuv) epu) WuT bu i)) * Cert.Spec.scaled auv matuv i

/-- At 40000 rows it is the specification's user table. -/
theorem blend_eq_userFn (one : EReal) (usr auv : Cert.Spec.Arr 40000 128) (matuv : Cert.Spec.Arr 40000 1)
    (epu : Cert.Spec.Arr 40000 128) (WuT : Cert.Spec.Arr 384 128) (bu : Cert.Spec.Vec1 128) :
    blend one usr auv matuv epu WuT bu = Cert.Spec.userFn one usr auv matuv epu WuT bu := rfl

/-- Three tables side by side, read in the first table's columns. -/
theorem cat3_left {A : Nat} (a b c : Cert.Spec.Arr A 128) (p : Fin A) (k : Fin 384) (h : k.val < 128) :
    Cert.Spec.cat3 a b c (ix2 p k) = a (ix2 p ⟨k.val, h⟩) := dif_pos h

/-- Three tables side by side, read in the second table's columns. -/
theorem cat3_mid {A : Nat} (a b c : Cert.Spec.Arr A 128) (p : Fin A) (k : Fin 384) (h : ¬k.val < 128) (h2 : k.val < 256) :
    Cert.Spec.cat3 a b c (ix2 p k) = b (ix2 p ⟨k.val - 128, by omega⟩) := (dif_neg h).trans (dif_pos h2)

/-- Three tables side by side, read in the third table's columns. -/
theorem cat3_right {A : Nat} (a b c : Cert.Spec.Arr A 128) (p : Fin A) (k : Fin 384) (h : ¬k.val < 128) (h2 : ¬k.val < 256) :
    Cert.Spec.cat3 a b c (ix2 p k) = c (ix2 p ⟨k.val - 256, by have := k.isLt; omega⟩) := (dif_neg h).trans (dif_neg h2)

/-- The blend in a row depends only on that row of each table: two families of tables that agree on a row of each
    (row `p` of the first family, row `r` of the second) have the same blend there. -/
theorem blend_congr {A B : Nat} (one : EReal) (usr auv : Cert.Spec.Arr A 128) (matuv : Cert.Spec.Arr A 1) (epu : Cert.Spec.Arr A 128)
    (usr' auv' : Cert.Spec.Arr B 128) (matuv' : Cert.Spec.Arr B 1) (epu' : Cert.Spec.Arr B 128)
    (WuT : Cert.Spec.Arr 384 128) (bu : Cert.Spec.Vec1 128) (p : Fin A) (r : Fin B) (q : Fin 128)
    (h0 : ∀ k : Fin 128, usr (ix2 p k) = usr' (ix2 r k)) (h1 : ∀ k : Fin 128, auv (ix2 p k) = auv' (ix2 r k))
    (h2 : matuv (ix2 p (0 : Fin 1)) = matuv' (ix2 r (0 : Fin 1))) (h3 : ∀ k : Fin 128, epu (ix2 p k) = epu' (ix2 r k)) :
    blend one usr auv matuv epu WuT bu (ix2 p q) = blend one usr' auv' matuv' epu' WuT bu (ix2 r q) := by
  have hs : ∀ k : Fin 128, Cert.Spec.scaled auv matuv (ix2 p k) = Cert.Spec.scaled auv' matuv' (ix2 r k) := fun k => by
    show auv (ix2 p k) * matuv (ix2 p (0 : Fin 1)) = auv' (ix2 r k) * matuv' (ix2 r (0 : Fin 1))
    rw [h1 k, h2]
  have hc : ∀ k : Fin 384, Cert.Spec.cat3 usr (Cert.Spec.scaled auv matuv) epu (ix2 p k)
      = Cert.Spec.cat3 usr' (Cert.Spec.scaled auv' matuv') epu' (ix2 r k) := fun k => by
    by_cases ha : k.val < 128
    · rw [cat3_left _ _ _ p k ha, cat3_left _ _ _ r k ha]; exact h0 _
    · by_cases hb : k.val < 256
      · rw [cat3_mid _ _ _ p k ha hb, cat3_mid _ _ _ r k ha hb]; exact hs _
      · rw [cat3_right _ _ _ p k ha hb, cat3_right _ _ _ r k ha hb]; exact h3 _
  have hl : Cert.Spec.lin (Cert.Spec.cat3 usr (Cert.Spec.scaled auv matuv) epu) WuT bu (ix2 p q)
      = Cert.Spec.lin (Cert.Spec.cat3 usr' (Cert.Spec.scaled auv' matuv') epu') WuT bu (ix2 r q) := by
    show (∑ k : Fin 384, Cert.Spec.cat3 usr (Cert.Spec.scaled auv matuv) epu (ix2 p k) * WuT (ix2 k q)) + bu (ix1 q)
      = (∑ k : Fin 384, Cert.Spec.cat3 usr' (Cert.Spec.scaled auv' matuv') epu' (ix2 r k) * WuT (ix2 k q)) + bu (ix1 q)
    rw [Finset.sum_congr rfl fun k _ => by rw [hc k]]
  show Ideal.logistic (Cert.Spec.lin (Cert.Spec.cat3 usr (Cert.Spec.scaled auv matuv) epu) WuT bu (ix2 p q)) * usr (ix2 p q)
      + (one - Ideal.logistic (Cert.Spec.lin (Cert.Spec.cat3 usr (Cert.Spec.scaled auv matuv) epu) WuT bu (ix2 p q)))
        * Cert.Spec.scaled auv matuv (ix2 p q)
    = Ideal.logistic (Cert.Spec.lin (Cert.Spec.cat3 usr' (Cert.Spec.scaled auv' matuv') epu') WuT bu (ix2 r q)) * usr' (ix2 r q)
      + (one - Ideal.logistic (Cert.Spec.lin (Cert.Spec.cat3 usr' (Cert.Spec.scaled auv' matuv') epu') WuT bu (ix2 r q)))
        * Cert.Spec.scaled auv' matuv' (ix2 r q)
  rw [hl, h0 q, hs q]

/-! ## The body's layout operations and product, read at a row and a column -/

/-- A one-column table broadcast along the columns reads, in row `p`, the column's entry of that row. -/
theorem broadcastCol_at (v : FVec Ideal S1000x1 .f32) (h : S1000x1.Broadcasts S1000x128) (p : Fin 1000) (q : Fin 128) :
    broadcastTo S1000x128 v h (ix2 p q) = v (ix2 p (0 : Fin 1)) := by
  refine broadcastTo_apply v h (ix2 p q) (ix2 p (0 : Fin 1)) fun ax => ?_
  match ax with
  | ⟨0, _⟩ =>
    show p.val = if (1000 : Nat) = 1 then 0 else p.val
    rw [if_neg (by decide)]
  | ⟨1, _⟩ => rfl

/-- The aggregate times its broadcast scale column is the specification's row-scaled table. -/
theorem scaled_eq (a : FVec Ideal S1000x128 .f32) (v : FVec Ideal S1000x1 .f32) (h : S1000x128.ShapeCasts S1000x128)
    (h' : S1000x1.Broadcasts S1000x128) :
    mulf (shapeCast S1000x128 a h) (broadcastTo S1000x128 v h') = Cert.Spec.scaled a v := by
  funext i
  obtain ⟨p, q, rfl⟩ : ∃ (p : Fin 1000) (q : Fin 128), i = ix2 p q := ⟨i 0, i 1, eq_ix2 i⟩
  show shapeCast S1000x128 a h (ix2 p q) * broadcastTo S1000x128 v h' (ix2 p q) = a (ix2 p q) * v (ix2 p (0 : Fin 1))
  rw [shapeCast_self, broadcastCol_at]

/-- The bias, viewed as one row and broadcast over the rows, reads its entry of the column. -/
theorem bias_at (b : FVec Ideal S128 .f32) (h1 : S128.ShapeCasts S1x128) (h2 : S1x128.Broadcasts S1000x128) (p : Fin 1000) (q : Fin 128) :
    broadcastTo S1000x128 (shapeCast S1x128 b h1) h2 (ix2 p q) = b (ix1 q) := by
  rw [broadcastTo_1b_ab_apply, shapeCast_a_1a_apply]

/-- The body's three-piece concatenation along the columns is the specification's three tables side by side. -/
theorem cat_eq (a b c : FVec Ideal S1000x128 .f32) (h : Shape.Concatenates [S1000x128, S1000x128, S1000x128] S1000x384 1) :
    concatenate S1000x384 1 [⟨S1000x128, a⟩, ⟨S1000x128, b⟩, ⟨S1000x128, c⟩] h = Cert.Spec.cat3 a b c := by
  funext i
  obtain ⟨p, k, rfl⟩ : ∃ (p : Fin 1000) (k : Fin 384), i = ix2 p k := ⟨i 0, i 1, eq_ix2 i⟩
  by_cases ha : k.val < 128
  · rw [cat3_left a b c p k ha]
    refine concatenate_apply_piece (t := S1000x384) (1 : Fin 2) [⟨S1000x128, a⟩, ⟨S1000x128, b⟩, ⟨S1000x128, c⟩] h (ix2 p k) 0
      (show 0 < 3 by omega) S1000x128 a rfl rfl 0 rfl (ix2 p ⟨k.val, ha⟩)
      (fun ax hax => ?_) ?_
    · match ax with
      | ⟨0, _⟩ => rfl
      | ⟨1, _⟩ => exact absurd rfl hax
    · show 0 + k.val = k.val
      omega
  · by_cases hb : k.val < 256
    · rw [cat3_mid a b c p k ha hb]
      refine concatenate_apply_piece (t := S1000x384) (1 : Fin 2) [⟨S1000x128, a⟩, ⟨S1000x128, b⟩, ⟨S1000x128, c⟩] h (ix2 p k) 1
        (show 1 < 3 by omega) S1000x128 b rfl rfl 128 rfl
        (ix2 p ⟨k.val - 128, by omega⟩) (fun ax hax => ?_) ?_
      · match ax with
        | ⟨0, _⟩ => rfl
        | ⟨1, _⟩ => exact absurd rfl hax
      · show 128 + (k.val - 128) = k.val
        omega
    · rw [cat3_right a b c p k ha hb]
      refine concatenate_apply_piece (t := S1000x384) (1 : Fin 2) [⟨S1000x128, a⟩, ⟨S1000x128, b⟩, ⟨S1000x128, c⟩] h (ix2 p k) 2
        (show 2 < 3 by omega) S1000x128 c rfl rfl 256 rfl
        (ix2 p ⟨k.val - 256, by have := k.isLt; omega⟩) (fun ax hax => ?_) ?_
      · match ax with
        | ⟨0, _⟩ => rfl
        | ⟨1, _⟩ => exact absurd rfl hax
      · show 256 + (k.val - 256) = k.val
        omega

/-! The product's operand indices, axis by axis: the left operand is read at (row, contraction position), the right at
    (contraction position, column). -/

theorem lhs_axis0 (i : S1000x128.Idx) (q : dot_S1000x384_S384x128_S1000x128_1_0_0_1_n_n.contr.Idx) :
    (dot_S1000x384_S384x128_S1000x128_1_0_0_1_n_n.lhsIdx i q 0).val = (i 0).val := by
  unfold DotDims.lhsIdx
  rw [dif_neg (show ¬(0 : Fin S1000x384.rank) ∈ dot_S1000x384_S384x128_S1000x128_1_0_0_1_n_n.lhsBatch by decide),
    dif_pos (show (0 : Fin S1000x384.rank) ∈ dot_S1000x384_S384x128_S1000x128_1_0_0_1_n_n.lhsNonContracting by decide)]
  rfl

theorem lhs_axis1 (i : S1000x128.Idx) (q : dot_S1000x384_S384x128_S1000x128_1_0_0_1_n_n.contr.Idx) :
    (dot_S1000x384_S384x128_S1000x128_1_0_0_1_n_n.lhsIdx i q 1).val = (q ⟨0, by decide⟩).val :=
  dot_S1000x384_S384x128_S1000x128_1_0_0_1_n_n.lhsIdx_val_of_single rfl i q

theorem rhs_axis0 (i : S1000x128.Idx) (q : dot_S1000x384_S384x128_S1000x128_1_0_0_1_n_n.contr.Idx) :
    (dot_S1000x384_S384x128_S1000x128_1_0_0_1_n_n.rhsIdx i q 0).val = (q ⟨0, by decide⟩).val :=
  dot_S1000x384_S384x128_S1000x128_1_0_0_1_n_n.rhsIdx_val_of_single rfl i q

theorem rhs_axis1 (i : S1000x128.Idx) (q : dot_S1000x384_S384x128_S1000x128_1_0_0_1_n_n.contr.Idx) :
    (dot_S1000x384_S384x128_S1000x128_1_0_0_1_n_n.rhsIdx i q 1).val = (i 1).val := by
  unfold DotDims.rhsIdx
  rw [dif_neg (show ¬(1 : Fin S384x128.rank) ∈ dot_S1000x384_S384x128_S1000x128_1_0_0_1_n_n.rhsBatch by decide),
    dif_pos (show (1 : Fin S384x128.rank) ∈ dot_S1000x384_S384x128_S1000x128_1_0_0_1_n_n.rhsNonContracting by decide)]
  rfl

/-- The product into a zero accumulator, at row `p` and column `q`: the sum over the 384 contracted positions. -/
theorem matmul_at (X : FVec Ideal S1000x384 .bf16) (W : FVec Ideal S384x128 .bf16) (p : Fin 1000) (q : Fin 128) :
    matmul dot_S1000x384_S384x128_S1000x128_1_0_0_1_n_n none X W (constant (F := Ideal) S1000x128 .f32 0x00000000#32) (ix2 p q)
      = ∑ k : Fin 384, X (ix2 p k) * W (ix2 k q) := by
  show FloatOps.matmul dot_S1000x384_S384x128_S1000x128_1_0_0_1_n_n none X W (constant (F := Ideal) S1000x128 .f32 0x00000000#32) (ix2 p q) = _
  rw [Ideal.matmul_constant_zero_apply,
    ← Equiv.sum_comp (contrEquiv1 dot_S1000x384_S384x128_S1000x128_1_0_0_1_n_n 384 rfl rfl).symm]
  refine Finset.sum_congr rfl fun k _ => ?_
  have hk := contrEquiv1_symm_val dot_S1000x384_S384x128_S1000x128_1_0_0_1_n_n 384 rfl rfl k
  have el : dot_S1000x384_S384x128_S1000x128_1_0_0_1_n_n.lhsIdx (ix2 p q)
      ((contrEquiv1 dot_S1000x384_S384x128_S1000x128_1_0_0_1_n_n 384 rfl rfl).symm k) = ix2 p k := funext fun a => Fin.ext (by
    match a with
    | ⟨0, _⟩ => exact lhs_axis0 _ _
    | ⟨1, _⟩ => exact (lhs_axis1 _ _).trans hk)
  have er : dot_S1000x384_S384x128_S1000x128_1_0_0_1_n_n.rhsIdx (ix2 p q)
      ((contrEquiv1 dot_S1000x384_S384x128_S1000x128_1_0_0_1_n_n 384 rfl rfl).symm k) = ix2 k q := funext fun a => Fin.ext (by
    match a with
    | ⟨0, _⟩ => exact (rhs_axis0 _ _).trans hk
    | ⟨1, _⟩ => exact rhs_axis1 _ _)
  rw [el, er]

/-- The product of the (format-changed) table against the matrix, plus the broadcast bias, is the specification's linear layer. -/
theorem lin_eq (X : FVec Ideal S1000x384 .f32) (W : FVec Ideal S384x128 .bf16) (b : FVec Ideal S128 .f32)
    (h9 : FTy.bf16.bits < FTy.f32.bits) (hW : S384x128.ShapeCasts S384x128) (h1 : S128.ShapeCasts S1x128)
    (h2 : S1x128.Broadcasts S1000x128) :
    addf (matmul dot_S1000x384_S384x128_S1000x128_1_0_0_1_n_n none (truncf .bf16 X h9) (shapeCast S384x128 W hW)
        (constant (F := Ideal) S1000x128 .f32 0x00000000#32)) (broadcastTo S1000x128 (shapeCast S1x128 b h1) h2)
      = Cert.Spec.lin X W b := by
  funext i
  obtain ⟨p, q, rfl⟩ : ∃ (p : Fin 1000) (q : Fin 128), i = ix2 p q := ⟨i 0, i 1, eq_ix2 i⟩
  show matmul dot_S1000x384_S384x128_S1000x128_1_0_0_1_n_n none (truncf .bf16 X h9) (shapeCast S384x128 W hW)
        (constant (F := Ideal) S1000x128 .f32 0x00000000#32) (ix2 p q) + broadcastTo S1000x128 (shapeCast S1x128 b h1) h2 (ix2 p q)
      = (∑ k : Fin 384, X (ix2 p k) * W (ix2 k q)) + b (ix1 q)
  rw [shapeCast_self, matmul_at, bias_at]
  rfl

/-- THE BODY'S VALUE: the block it stores is the blend of the blocks it loaded. -/
theorem pay_eq (x0 x1 : Vec Ideal S1000x128 .f32) (x2 : Vec Ideal S1000x1 .f32) (x3 : Vec Ideal S1000x128 .f32)
    (x4 : Vec Ideal S384x128 .bf16) (x5 : Vec Ideal S128 .f32) :
    k3_pay1 (F := Ideal) x0 x1 x2 x3 x4 x5 = blend (Ideal.ofBits .f32 0x3F800000#32) x0 x1 x2 x3 x4 x5 := by
  unfold k3_pay1
  dsimp only
  rw [scaled_eq, shapeCast_self x3, cat_eq, lin_eq]
  rfl

/- The TensorCore's buffer contents when the region is entered, at the ideal instance. -/
variable (V : (c : Dev nD) → (b : Ref sig .tc) → Buf (Elt Ideal) ((c : Thread nD τ).loc b))

/-! ## From the blocks to the array

Point `t` works on rows `1000 t … 1000 t + 999`: every row-tiled window's block index there is `(t, 0)`, and the matrix's
and the bias's is zero. -/

/-- The windows' index maps, decided over the 40 points. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0 :=
  (by decide +kernel : ∀ t : Fin grid3.N, _)

/-- A point's number is below 40. -/
theorem point_lt (t : Fin cfg3.N) : t.val < 40 := lt_of_lt_of_eq t.isLt N_3

/-- The array row that row `p` of point `t`'s block is. -/
abbrev arow (t : Fin cfg3.N) (p : Fin 1000) : Fin 40000 :=
  ⟨t.val * 1000 + p.val, by have := point_lt t; have := p.isLt; omega⟩

/-- The user embedding's block at point `t` holds rows `1000 t + p` of its array. -/
theorem read0 (c : Dev nD) (t : Fin cfg3.N) (p : Fin 1000) (k : Fin 128) :
    iblk3 (F := Ideal) V c 0 t (ix2 p k) = V c main_arg2 (ix2 (arow t p) k) := by
  obtain ⟨e0, e1, -⟩ := idx_facts t
  show V c main_arg2 (((cfg3.win 0).blk t).view.emb (ix2 p k)) = V c main_arg2 (ix2 (arow t p) k)
  refine congrArg _ (funext fun a => Fin.ext ?_)
  match a with
  | ⟨0, _⟩ => show win3_0.index t (0 : Fin 2) * 1000 + 1 * p.val = t.val * 1000 + p.val; omega
  | ⟨1, _⟩ => show win3_0.index t (1 : Fin 2) * 128 + 1 * k.val = k.val; omega

/-- The aggregate's block at point `t` holds rows `1000 t + p` of its array. -/
theorem read1 (c : Dev nD) (t : Fin cfg3.N) (p : Fin 1000) (k : Fin 128) :
    iblk3 (F := Ideal) V c 1 t (ix2 p k) = V c main_v88 (ix2 (arow t p) k) := by
  obtain ⟨-, -, e0, e1, -⟩ := idx_facts t
  show V c main_v88 (((cfg3.win 1).blk t).view.emb (ix2 p k)) = V c main_v88 (ix2 (arow t p) k)
  refine congrArg _ (funext fun a => Fin.ext ?_)
  match a with
  | ⟨0, _⟩ => show win3_1.index t (0 : Fin 2) * 1000 + 1 * p.val = t.val * 1000 + p.val; omega
  | ⟨1, _⟩ => show win3_1.index t (1 : Fin 2) * 128 + 1 * k.val = k.val; omega

/-- The scale column's block at point `t` holds rows `1000 t + p` of its array. -/
theorem read2 (c : Dev nD) (t : Fin cfg3.N) (p : Fin 1000) :
    iblk3 (F := Ideal) V c 2 t (ix2 p (0 : Fin 1)) = V c main_arg21 (ix2 (arow t p) (0 : Fin 1)) := by
  obtain ⟨-, -, -, -, e0, e1, -⟩ := idx_facts t
  show V c main_arg21 (((cfg3.win 2).blk t).view.emb (ix2 p (0 : Fin 1))) = V c main_arg21 (ix2 (arow t p) (0 : Fin 1))
  refine congrArg _ (funext fun a => Fin.ext ?_)
  match a with
  | ⟨0, _⟩ => show win3_2.index t (0 : Fin 2) * 1000 + 1 * p.val = t.val * 1000 + p.val; omega
  | ⟨1, _⟩ => show win3_2.index t (1 : Fin 2) * 1 + 1 * 0 = 0; omega

/-- The third table's block at point `t` holds rows `1000 t + p` of its array. -/
theorem read3 (c : Dev nD) (t : Fin cfg3.N) (p : Fin 1000) (k : Fin 128) :
    iblk3 (F := Ideal) V c 3 t (ix2 p k) = V c main_v105 (ix2 (arow t p) k) := by
  obtain ⟨-, -, -, -, -, -, e0, e1, -⟩ := idx_facts t
  show V c main_v105 (((cfg3.win 3).blk t).view.emb (ix2 p k)) = V c main_v105 (ix2 (arow t p) k)
  refine congrArg _ (funext fun a => Fin.ext ?_)
  match a with
  | ⟨0, _⟩ => show win3_3.index t (0 : Fin 2) * 1000 + 1 * p.val = t.val * 1000 + p.val; omega
  | ⟨1, _⟩ => show win3_3.index t (1 : Fin 2) * 128 + 1 * k.val = k.val; omega

/-- The matrix's block at every point is the whole matrix. -/
theorem read4 (c : Dev nD) (t : Fin cfg3.N) :
    (iblk3 (F := Ideal) V c 4 t : S384x128.Idx → EReal) = V c main_v118 := by
  obtain ⟨-, -, -, -, -, -, -, -, e0, e1, -⟩ := idx_facts t
  funext y
  show V c main_v118 (((cfg3.win 4).blk t).view.emb y) = V c main_v118 y
  refine congrArg _ (funext fun a => Fin.ext ?_)
  match a with
  | ⟨0, _⟩ => show win3_4.index t (0 : Fin 2) * 384 + 1 * (y 0).val = (y 0).val; omega
  | ⟨1, _⟩ => show win3_4.index t (1 : Fin 2) * 128 + 1 * (y 1).val = (y 1).val; omega

/-- The bias's block at every point is the whole bias. -/
theorem read5 (c : Dev nD) (t : Fin cfg3.N) :
    (iblk3 (F := Ideal) V c 5 t : S128.Idx → EReal) = V c main_arg31 := by
  obtain ⟨-, -, -, -, -, -, -, -, -, -, e0, -⟩ := idx_facts t
  funext y
  show V c main_arg31 (((cfg3.win 5).blk t).view.emb y) = V c main_arg31 y
  refine congrArg _ (funext fun a => Fin.ext ?_)
  match a with
  | ⟨0, _⟩ => show win3_5.index t (0 : Fin 1) * 128 + 1 * (y 0).val = (y 0).val; omega

/-- The blend of the blocks of point `t`, in block row `p`, is the specification's user table in array row `1000 t + p`. -/
theorem point_eq (c : Dev nD) (t : Fin cfg3.N) (p : Fin 1000) (q : Fin 128) :
    blend (Ideal.ofBits .f32 0x3F800000#32) (iblk3 (F := Ideal) V c 0 t) (iblk3 (F := Ideal) V c 1 t) (iblk3 (F := Ideal) V c 2 t)
        (iblk3 (F := Ideal) V c 3 t) (iblk3 (F := Ideal) V c 4 t) (iblk3 (F := Ideal) V c 5 t) (ix2 p q)
      = Cert.Spec.userFn (Ideal.ofBits .f32 0x3F800000#32) (V c main_arg2) (V c main_v88) (V c main_arg21) (V c main_v105)
          (V c main_v118) (V c main_arg31) (ix2 (arow t p) q) := by
  rw [← blend_eq_userFn, read4 V c t, read5 V c t]
  exact blend_congr (Ideal.ofBits .f32 0x3F800000#32) (iblk3 (F := Ideal) V c 0 t) (iblk3 (F := Ideal) V c 1 t)
    (iblk3 (F := Ideal) V c 2 t) (iblk3 (F := Ideal) V c 3 t) (V c main_arg2) (V c main_v88) (V c main_arg21) (V c main_v105)
    (V c main_v118) (V c main_arg31) p (arow t p) q (read0 V c t p) (read1 V c t p) (read2 V c t p) (read3 V c t p)

theorem off2 : (![0, 0] : Fin 2 → Nat) = fun _ => 0 := funext fun a => by fin_cases a <;> rfl
theorem off1 : (![0] : Fin 1 → Nat) = fun _ => 0 := funext fun a => by fin_cases a <;> rfl

/-- WHAT POINT `t` WRITES BACK is block `t` of the specification's user table of the arrays as the region finds them. -/
theorem flushed_eq (c : Dev nD) (t : Fin cfg3.N) :
    (dat3 (F := Ideal) V c).flushed 6 t = ((cfg3.win 6).blk t).view.read (Elt Ideal)
      (Cert.Spec.userFn (Ideal.ofBits .f32 0x3F800000#32) (V c main_arg2) (V c main_v88) (V c main_arg21) (V c main_v105)
        (V c main_v118) (V c main_arg31)) := by
  show (cfg3.win 6).cut (grid3.coords t) ((dat3 (F := Ideal) V c).after 6 t) = _
  rw [after3_6]
  unfold out3_6
  rw [View.canon_unit_zero off2]
  simp only [View.ld_unit_zero (S := S1000x128) off2, View.ld_unit_zero (S := S1000x1) off2,
    View.ld_unit_zero (S := S384x128) off2, View.ld_unit_zero (S := S128) off1]
  rw [pay_eq (iblk3 (F := Ideal) V c 0 t) (iblk3 (F := Ideal) V c 1 t) (iblk3 (F := Ideal) V c 2 t) (iblk3 (F := Ideal) V c 3 t)
    (iblk3 (F := Ideal) V c 4 t) (iblk3 (F := Ideal) V c 5 t)]
  obtain ⟨-, -, -, -, -, -, -, -, -, -, -, e0, e1⟩ := idx_facts t
  funext j
  have lt0 : (j 0).val < 1000 := (j 0).isLt
  have lt1 : (j 1).val < 128 := (j 1).isLt
  have ej : (cfg3.win 6).xinj (grid3.coords t) j = ix2 (⟨(j 0).val, lt0⟩ : Fin 1000) (⟨(j 1).val, lt1⟩ : Fin 128) :=
    funext fun a => by
      match a with
      | ⟨0, _⟩ => rfl
      | ⟨1, _⟩ => rfl
  have ei : ((cfg3.win 6).blk t).view.emb j = ix2 (arow t ⟨(j 0).val, lt0⟩) (⟨(j 1).val, lt1⟩ : Fin 128) :=
    funext fun a => Fin.ext (by
      match a with
      | ⟨0, _⟩ => show win3_6.index t (0 : Fin 2) * 1000 + 1 * (j 0).val = t.val * 1000 + (j 0).val; omega
      | ⟨1, _⟩ => show win3_6.index t (1 : Fin 2) * 128 + 1 * (j 1).val = (j 1).val; omega)
  show blend (Ideal.ofBits .f32 0x3F800000#32) (iblk3 (F := Ideal) V c 0 t) (iblk3 (F := Ideal) V c 1 t) (iblk3 (F := Ideal) V c 2 t)
        (iblk3 (F := Ideal) V c 3 t) (iblk3 (F := Ideal) V c 4 t) (iblk3 (F := Ideal) V c 5 t) ((cfg3.win 6).xinj (grid3.coords t) j)
      = Cert.Spec.userFn (Ideal.ofBits .f32 0x3F800000#32) (V c main_arg2) (V c main_v88) (V c main_arg21) (V c main_v105)
          (V c main_v118) (V c main_arg31) (((cfg3.win 6).blk t).view.emb j)
  rw [ej, ei]
  exact point_eq V c t _ _

/-- An index of the output array is in point `t`'s block iff each coordinate is in the block's range on its axis. -/
theorem mem_blk (t : Fin cfg3.N) (i : S40000x128.Idx) :
    i ∈ ((cfg3.win 6).blk t).view.set ↔ ∀ a : Fin 2, win3_6.index t a * S1000x128.size a ≤ (i a).val
      ∧ (i a).val < win3_6.index t a * S1000x128.size a + S1000x128.size a := by
  show i ∈ ((View.whole main_v119).slice (win3_6.rect t)).set ↔ _
  rw [View.set_slice_whole, Rect.mem_set_unit]
  exact Iff.rfl

/-- Every row is in the block of the point that is its number divided by 1000: the 40 blocks cover the array. -/
theorem covered (i : S40000x128.Idx) :
    ∃ t : Fin cfg3.N, (cfg3.win 6).flush t = true ∧ i ∈ ((cfg3.win 6).blk t).view.set := by
  have hi0 : (i 0).val < 40000 := (i 0).isLt
  have hi1 : (i 1).val < 128 := (i 1).isLt
  have hN : (i 0).val / 1000 < cfg3.N := lt_of_lt_of_eq (show (i 0).val / 1000 < 40 by omega) N_3.symm
  obtain ⟨-, -, -, -, -, -, -, -, -, -, -, e0, e1⟩ := idx_facts ⟨(i 0).val / 1000, hN⟩
  refine ⟨⟨(i 0).val / 1000, hN⟩, flush3_6 _, ?_⟩
  rw [mem_blk]
  intro a
  match a with
  | ⟨0, _⟩ =>
    show win3_6.index ⟨(i 0).val / 1000, hN⟩ (0 : Fin 2) * 1000 ≤ (i 0).val
      ∧ (i 0).val < win3_6.index ⟨(i 0).val / 1000, hN⟩ (0 : Fin 2) * 1000 + 1000
    rw [e0]
    show (i 0).val / 1000 * 1000 ≤ (i 0).val ∧ (i 0).val < (i 0).val / 1000 * 1000 + 1000
    omega
  | ⟨1, _⟩ =>
    show win3_6.index ⟨(i 0).val / 1000, hN⟩ (1 : Fin 2) * 128 ≤ (i 1).val
      ∧ (i 1).val < win3_6.index ⟨(i 0).val / 1000, hN⟩ (1 : Fin 2) * 128 + 128
    rw [e1]
    omega

/-- After the region's 40 points the user output holds the blend of the user embedding and its scaled aggregate by the
    gate over the three tables side by side. -/
theorem user_value (c : Dev nD) :
    ((dat3 (F := Ideal) V c).arrAt 6 cfg3.N : S40000x128.Idx → EReal)
      = Cert.Spec.userFn (Ideal.ofBits .f32 0x3F800000#32) (V c main_arg2) (V c main_v88) (V c main_arg21) (V c main_v105)
          (V c main_v118) (V c main_arg31) :=
  (dat3 (F := Ideal) V c).arrAt_eq_of_cover 6 _ (fun t _ => flushed_eq V c t) covered

end Cert.KernelIdeal.User

end
-- ==== Proof.Chains.lean ====
/-
  The sparse aggregations both programs compute with the same host operations, each named once.
  `spmm`: the COO product — row `rows[e]` receives `vals[e] · x[cols[e], ·]`, summed over the edges `e` (a negative column
  index wraps by the table's height, as the index arithmetic in front of the gather does). `rowNorm`: that sum divided,
  row by row, by the row's sum of `vals` plus the constant `1e-8` (the f32 word `0x322BCC77`).
  `gatherPrice`: row `idx[r]` of the price table for every item `r`.
-/
import proofs.«424989_j54769422959169_1_alg».proof.ReferenceIdeal
import proofs.«424989_j54769422959169_1_alg».proof.Proof.Gen.ReferenceIdeal

noncomputable section

namespace Cert.ReferenceIdeal.Chains

open Cert.ReferenceIdeal Cert.ReferenceIdeal.Gen Idealize.ShloMosaic

variable {F : FTy → Type} [FloatOps F]

/-- 200000 edges from the 100-row price table into the 100000 item rows. -/
def spmmVp (rows cols : IVec S200000 32) (vals : FVec F S200000 .f32) (x : FVec F S100x128 .f32) : FVec F S100000x128 .f32 :=
  Host.scatterAdd scatter_S100000x128_S200000x1_S200000x128_1_0_0_1 (broadcastInDim S100000x128 ![] bcast_S_S100000x128 (constant S_ .f32 0x00000000#32)) (broadcastInDim S200000x1 ![0] bcast_S200000_S200000x1_0 rows) (mulf (broadcastInDim S200000x128 ![0, 1] bcast_S200000x1_S200000x128_0_1 (broadcastInDim S200000x1 ![0] bcast_S200000_S200000x1_0 vals)) (Host.gather gather_S100x128_S200000x1_S200000x128_1_0_n_n_0_1_1128 x (broadcastInDim S200000x1 ![0] bcast_S200000_S200000x1_0 (select (cmpi .slt cols (broadcastInDim S200000 ![] bcast_S_S200000 (constantI S_ 32 0#32))) (addi cols (broadcastInDim S200000 ![] bcast_S_S200000 (constantI S_ 32 100#32))) cols))))

/-- 2000000 edges from the item table into the item rows. -/
def spmmAdj (rows cols : IVec S2000000 32) (vals : FVec F S2000000 .f32) (x : FVec F S100000x128 .f32) : FVec F S100000x128 .f32 :=
  Host.scatterAdd scatter_S100000x128_S2000000x1_S2000000x128_1_0_0_1 (broadcastInDim S100000x128 ![] bcast_S_S100000x128 (constant S_ .f32 0x00000000#32)) (broadcastInDim S2000000x1 ![0] bcast_S2000000_S2000000x1_0 rows) (mulf (broadcastInDim S2000000x128 ![0, 1] bcast_S2000000x1_S2000000x128_0_1 (broadcastInDim S2000000x1 ![0] bcast_S2000000_S2000000x1_0 vals)) (Host.gather gather_S100000x128_S2000000x1_S2000000x128_1_0_n_n_0_1_1128 x (broadcastInDim S2000000x1 ![0] bcast_S2000000_S2000000x1_0 (select (cmpi .slt cols (broadcastInDim S2000000 ![] bcast_S_S2000000 (constantI S_ 32 0#32))) (addi cols (broadcastInDim S2000000 ![] bcast_S_S2000000 (constantI S_ 32 100000#32))) cols))))

/-- 2000000 edges from the user table into the item rows, row-normalised. -/
def alphaVu (rows cols : IVec S2000000 32) (vals : FVec F S2000000 .f32) (x : FVec F S40000x128 .f32) : FVec F S100000x128 .f32 :=
  Host.divf (Host.scatterAdd scatter_S100000x128_S2000000x1_S2000000x128_1_0_0_1 (broadcastInDim S100000x128 ![] bcast_S_S100000x128 (constant S_ .f32 0x00000000#32)) (broadcastInDim S2000000x1 ![0] bcast_S2000000_S2000000x1_0 rows) (mulf (broadcastInDim S2000000x128 ![0, 1] bcast_S2000000x1_S2000000x128_0_1 (broadcastInDim S2000000x1 ![0] bcast_S2000000_S2000000x1_0 vals)) (Host.gather gather_S40000x128_S2000000x1_S2000000x128_1_0_n_n_0_1_1128 x (broadcastInDim S2000000x1 ![0] bcast_S2000000_S2000000x1_0 (select (cmpi .slt cols (broadcastInDim S2000000 ![] bcast_S_S2000000 (constantI S_ 32 0#32))) (addi cols (broadcastInDim S2000000 ![] bcast_S_S2000000 (constantI S_ 32 40000#32))) cols))))) (broadcastInDim S100000x128 ![0, 1] bcast_S100000x1_S100000x128_0_1 (addf (broadcastInDim S100000x1 ![0] bcast_S100000_S100000x1_0 (Host.scatterAdd scatter_S100000_S2000000x1_S2000000_n_0_0_1 (broadcastInDim S100000 ![] bcast_S_S100000 (constant S_ .f32 0x00000000#32)) (broadcastInDim S2000000x1 ![0] bcast_S2000000_S2000000x1_0 rows) vals)) (broadcastInDim S100000x1 ![] bcast_S_S100000x1 (constant S_ .f32 0x322BCC77#32))))

/-- 200000 edges from the item table into the 100 price rows, row-normalised. -/
def alphaPv (rows cols : IVec S200000 32) (vals : FVec F S200000 .f32) (x : FVec F S100000x128 .f32) : FVec F S100x128 .f32 :=
  Host.divf (Host.scatterAdd scatter_S100x128_S200000x1_S200000x128_1_0_0_1 (broadcastInDim S100x128 ![] bcast_S_S100x128 (constant S_ .f32 0x00000000#32)) (broadcastInDim S200000x1 ![0] bcast_S200000_S200000x1_0 rows) (mulf (broadcastInDim S200000x128 ![0, 1] bcast_S200000x1_S200000x128_0_1 (broadcastInDim S200000x1 ![0] bcast_S200000_S200000x1_0 vals)) (Host.gather gather_S100000x128_S200000x1_S200000x128_1_0_n_n_0_1_1128 x (broadcastInDim S200000x1 ![0] bcast_S200000_S200000x1_0 (select (cmpi .slt cols (broadcastInDim S200000 ![] bcast_S_S200000 (constantI S_ 32 0#32))) (addi cols (broadcastInDim S200000 ![] bcast_S_S200000 (constantI S_ 32 100000#32))) cols))))) (broadcastInDim S100x128 ![0, 1] bcast_S100x1_S100x128_0_1 (addf (broadcastInDim S100x1 ![0] bcast_S100_S100x1_0 (Host.scatterAdd scatter_S100_S200000x1_S200000_n_0_0_1 (broadcastInDim S100 ![] bcast_S_S100 (constant S_ .f32 0x00000000#32)) (broadcastInDim S200000x1 ![0] bcast_S200000_S200000x1_0 rows) vals)) (broadcastInDim S100x1 ![] bcast_S_S100x1 (constant S_ .f32 0x322BCC77#32))))

/-- 2000000 edges from the item table into the user rows, row-normalised. -/
def alphaUv (rows cols : IVec S2000000 32) (vals : FVec F S2000000 .f32) (x : FVec F S100000x128 .f32) : FVec F S40000x128 .f32 :=
  Host.divf (Host.scatterAdd scatter_S40000x128_S2000000x1_S2000000x128_1_0_0_1 (broadcastInDim S40000x128 ![] bcast_S_S40000x128 (constant S_ .f32 0x00000000#32)) (broadcastInDim S2000000x1 ![0] bcast_S2000000_S2000000x1_0 rows) (mulf (broadcastInDim S2000000x128 ![0, 1] bcast_S2000000x1_S2000000x128_0_1 (broadcastInDim S2000000x1 ![0] bcast_S2000000_S2000000x1_0 vals)) (Host.gather gather_S100000x128_S2000000x1_S2000000x128_1_0_n_n_0_1_1128 x (broadcastInDim S2000000x1 ![0] bcast_S2000000_S2000000x1_0 (select (cmpi .slt cols (broadcastInDim S2000000 ![] bcast_S_S2000000 (constantI S_ 32 0#32))) (addi cols (broadcastInDim S2000000 ![] bcast_S_S2000000 (constantI S_ 32 100000#32))) cols))))) (broadcastInDim S40000x128 ![0, 1] bcast_S40000x1_S40000x128_0_1 (addf (broadcastInDim S40000x1 ![0] bcast_S40000_S40000x1_0 (Host.scatterAdd scatter_S40000_S2000000x1_S2000000_n_0_0_1 (broadcastInDim S40000 ![] bcast_S_S40000 (constant S_ .f32 0x00000000#32)) (broadcastInDim S2000000x1 ![0] bcast_S2000000_S2000000x1_0 rows) vals)) (broadcastInDim S40000x1 ![] bcast_S_S40000x1 (constant S_ .f32 0x322BCC77#32))))

/-- 2000000 edges from an item-indexed table into the user rows. -/
def spmmUv (rows cols : IVec S2000000 32) (vals : FVec F S2000000 .f32) (x : FVec F S100000x128 .f32) : FVec F S40000x128 .f32 :=
  Host.scatterAdd scatter_S40000x128_S2000000x1_S2000000x128_1_0_0_1 (broadcastInDim S40000x128 ![] bcast_S_S40000x128 (constant S_ .f32 0x00000000#32)) (broadcastInDim S2000000x1 ![0] bcast_S2000000_S2000000x1_0 rows) (mulf (broadcastInDim S2000000x128 ![0, 1] bcast_S2000000x1_S2000000x128_0_1 (broadcastInDim S2000000x1 ![0] bcast_S2000000_S2000000x1_0 vals)) (Host.gather gather_S100000x128_S2000000x1_S2000000x128_1_0_n_n_0_1_1128 x (broadcastInDim S2000000x1 ![0] bcast_S2000000_S2000000x1_0 (select (cmpi .slt cols (broadcastInDim S2000000 ![] bcast_S_S2000000 (constantI S_ 32 0#32))) (addi cols (broadcastInDim S2000000 ![] bcast_S_S2000000 (constantI S_ 32 100000#32))) cols))))

/-- Row `idx[r]` of the price table, for every item `r`. -/
def gatherPrice (pri : FVec F S100x128 .f32) (idx : IVec S100000 32) : FVec F S100000x128 .f32 :=
  Host.gather gather_S100x128_S100000x1_S100000x128_1_0_n_n_0_1_1128 pri (broadcastInDim S100000x1 ![0] bcast_S100000_S100000x1_0 (select (cmpi .slt idx (broadcastInDim S100000 ![] bcast_S_S100000 (constantI S_ 32 0#32))) (addi idx (broadcastInDim S100000 ![] bcast_S_S100000 (constantI S_ 32 100#32))) idx))

end Cert.ReferenceIdeal.Chains

end
-- ==== Proof.Walk1.lean ====
/-
  The buffer contents at the segment boundaries of the kernel's @main, read back to the launch memory: each of the three
  result buffers is, at the end, what its region left in its output array; and each array the item region reads is, when
  the region is entered, an argument as launched or the host operations' term of the arguments.
-/
import proofs.«424989_j54769422959169_1_alg».proof.Proof.Gen.KernelIdeal.Frame
import proofs.«424989_j54769422959169_1_alg».proof.Proof.Chains
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Walk

open Cert.KernelIdeal Cert.KernelIdeal.Gen Cert.ReferenceIdeal.Chains
open Idealize.ShloMosaic Idealize.ShloMosaic.TcCoe Idealize.ShloMosaic.ValueIdx Idealize.ShloMosaic.StableHlo Idealize.SL.Sem
open Idealize.ShloMosaic.Pipeline (Dat Cfg Window)

variable (m : (ℓ : Loc nD τ sig) → Buf (Elt Ideal) ℓ) (ρ : Dev nD → PrngReg)

/-- A stretch of host operations none of which writes the buffer leaves the buffer as it was: the stretch's
    operations are listed, each one's result buffer is a different reference. -/
local macro "walk1_stretch_keeps " h:ident : tactic =>
  `(tactic| exact StableHlo.after_of_forall_not_mem _ _ (List.forall_iff_forall_mem.mp (by
      simp only [$h:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The host stretches, computed at the buffers they write

Each lemma is over an arbitrary valuation the stretch starts from, so the term stays small; the launch memory is put in last. -/

namespace Aux1

/-- The first host stretch, cut after its first `n` operations. -/
theorem after0_split (n : Nat) (V : Valuation τ sig (Elt Ideal)) :
    StableHlo.after hostOps0 V = StableHlo.after (hostOps0.drop n) (StableHlo.after (hostOps0.take n) V) := by
  rw [← StableHlo.after_append, List.take_append_drop]

/-- The first stretch's sixteenth operation writes the price-to-item product; no later one writes it again. -/
theorem after0_v12 (V : Valuation τ sig (Elt Ideal)) :
    (StableHlo.after hostOps0 V (Proc.devRef .tc main_v12) : S100000x128.Idx → EReal)
      = spmmVp (F := Ideal) (V (Proc.devRef .tc main_arg6)) (V (Proc.devRef .tc main_arg7)) (V (Proc.devRef .tc main_arg8)) (V (Proc.devRef .tc main_arg1)) := by
  rw [after0_split 16 V]
  refine (StableHlo.after_of_forall_not_mem _ _ (List.forall_iff_forall_mem.mp ?_)).trans ?_
  · simp only [hostOps0, List.drop_succ_cons, List.drop_zero, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)
  · simp only [hostOps0, List.take_succ_cons, List.take_zero]
    after_results_simp
    rfl

/-- The thirty-second operation writes the adjacency product. -/
theorem after0_v25 (V : Valuation τ sig (Elt Ideal)) :
    (StableHlo.after hostOps0 V (Proc.devRef .tc main_v25) : S100000x128.Idx → EReal)
      = spmmAdj (F := Ideal) (V (Proc.devRef .tc main_arg3)) (V (Proc.devRef .tc main_arg4)) (V (Proc.devRef .tc main_arg5)) (V (Proc.devRef .tc main_arg0)) := by
  rw [after0_split 32 V]
  refine (StableHlo.after_of_forall_not_mem _ _ (List.forall_iff_forall_mem.mp ?_)).trans ?_
  · simp only [hostOps0, List.drop_succ_cons, List.drop_zero, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)
  · simp only [hostOps0, List.take_succ_cons, List.take_zero]
    after_results_simp
    rfl

/-- The fifty-eighth operation writes the row-normalised user-to-item product. -/
theorem after0_v46 (V : Valuation τ sig (Elt Ideal)) :
    (StableHlo.after hostOps0 V (Proc.devRef .tc main_v46) : S100000x128.Idx → EReal)
      = alphaVu (F := Ideal) (V (Proc.devRef .tc main_arg9)) (V (Proc.devRef .tc main_arg10)) (V (Proc.devRef .tc main_arg11)) (V (Proc.devRef .tc main_arg2)) := by
  rw [after0_split 58 V]
  refine (StableHlo.after_of_forall_not_mem _ _ (List.forall_iff_forall_mem.mp ?_)).trans ?_
  · simp only [hostOps0, List.drop_succ_cons, List.drop_zero, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)
  · simp only [hostOps0, List.take_succ_cons, List.take_zero]
    after_results_simp
    rfl

/-- The stretch before the item region: the bf16 copy of a transposed matrix is, over the extended reals, the
    transposed matrix. -/
theorem after1_v107 (V : Valuation τ sig (Elt Ideal)) :
    (StableHlo.after hostOps1 V (Proc.devRef .tc main_v107) : S256x128.Idx → EReal)
      = transpose S256x128 [1, 0] (V (Proc.devRef .tc main_arg22) : S128x256.Idx → EReal) transposes_S128x256_S256x128_1_0 := by
  simp only [hostOps1]
  after_results
  funext i
  rfl
theorem after1_v109 (V : Valuation τ sig (Elt Ideal)) :
    (StableHlo.after hostOps1 V (Proc.devRef .tc main_v109) : S128x128.Idx → EReal)
      = transpose S128x128 [1, 0] (V (Proc.devRef .tc main_arg24) : S128x128.Idx → EReal) transposes_S128x128_S128x128_1_0 := by
  simp only [hostOps1]
  after_results
  funext i
  rfl
/-- The 1×1 reshape of a scalar holds the scalar: the one index of the 1×1 shape is sent to the one index of the
    rank-0 shape. -/
theorem after1_v110 (V : Valuation τ sig (Elt Ideal)) :
    (StableHlo.after hostOps1 V (Proc.devRef .tc main_v110) : S1x1.Idx → EReal) (ix2 0 0)
      = (V (Proc.devRef .tc main_arg32) : S_.Idx → EReal) ix0 := by
  simp only [hostOps1]
  after_results
  exact congrArg (V (Proc.devRef .tc main_arg32) : S_.Idx → EReal) (eq_ix0 _)

/-! The arguments the last stretch reads are, when the gather region is left, as launched. -/

theorem W4_arg22 (c : Dev nD) : W4 m ρ c (Proc.devRef .tc main_arg22) = m ((c : Thread nD τ).loc main_arg22) :=
  calc W4 m ρ c (Proc.devRef .tc main_arg22)
    _ = W3 m ρ c (Proc.devRef .tc main_arg22) := W4_of_ne m ρ c main_arg22 (by decide)
    _ = W2 m ρ c (Proc.devRef .tc main_arg22) := by walk1_stretch_keeps hostOps0_2
    _ = W1 m ρ c (Proc.devRef .tc main_arg22) := by walk1_stretch_keeps hostOps0_1
    _ = W0 m ρ c (Proc.devRef .tc main_arg22) := by walk1_stretch_keeps hostOps0
    _ = m ((c : Thread nD τ).loc main_arg22) := rfl
theorem W4_arg24 (c : Dev nD) : W4 m ρ c (Proc.devRef .tc main_arg24) = m ((c : Thread nD τ).loc main_arg24) :=
  calc W4 m ρ c (Proc.devRef .tc main_arg24)
    _ = W3 m ρ c (Proc.devRef .tc main_arg24) := W4_of_ne m ρ c main_arg24 (by decide)
    _ = W2 m ρ c (Proc.devRef .tc main_arg24) := by walk1_stretch_keeps hostOps0_2
    _ = W1 m ρ c (Proc.devRef .tc main_arg24) := by walk1_stretch_keeps hostOps0_1
    _ = W0 m ρ c (Proc.devRef .tc main_arg24) := by walk1_stretch_keeps hostOps0
    _ = m ((c : Thread nD τ).loc main_arg24) := rfl
theorem W4_arg32 (c : Dev nD) : W4 m ρ c (Proc.devRef .tc main_arg32) = m ((c : Thread nD τ).loc main_arg32) :=
  calc W4 m ρ c (Proc.devRef .tc main_arg32)
    _ = W3 m ρ c (Proc.devRef .tc main_arg32) := W4_of_ne m ρ c main_arg32 (by decide)
    _ = W2 m ρ c (Proc.devRef .tc main_arg32) := by walk1_stretch_keeps hostOps0_2
    _ = W1 m ρ c (Proc.devRef .tc main_arg32) := by walk1_stretch_keeps hostOps0_1
    _ = W0 m ρ c (Proc.devRef .tc main_arg32) := by walk1_stretch_keeps hostOps0
    _ = m ((c : Thread nD τ).loc main_arg32) := rfl

/-! The three aggregates are not written between the first stretch and the item region. -/

theorem W5_v12 (c : Dev nD) : W5 m ρ c (Proc.devRef .tc main_v12) = W1 m ρ c (Proc.devRef .tc main_v12) :=
  calc W5 m ρ c (Proc.devRef .tc main_v12)
    _ = W4 m ρ c (Proc.devRef .tc main_v12) := by walk1_stretch_keeps hostOps1
    _ = W3 m ρ c (Proc.devRef .tc main_v12) := W4_of_ne m ρ c main_v12 (by decide)
    _ = W2 m ρ c (Proc.devRef .tc main_v12) := by walk1_stretch_keeps hostOps0_2
    _ = W1 m ρ c (Proc.devRef .tc main_v12) := by walk1_stretch_keeps hostOps0_1
theorem W5_v25 (c : Dev nD) : W5 m ρ c (Proc.devRef .tc main_v25) = W1 m ρ c (Proc.devRef .tc main_v25) :=
  calc W5 m ρ c (Proc.devRef .tc main_v25)
    _ = W4 m ρ c (Proc.devRef .tc main_v25) := by walk1_stretch_keeps hostOps1
    _ = W3 m ρ c (Proc.devRef .tc main_v25) := W4_of_ne m ρ c main_v25 (by decide)
    _ = W2 m ρ c (Proc.devRef .tc main_v25) := by walk1_stretch_keeps hostOps0_2
    _ = W1 m ρ c (Proc.devRef .tc main_v25) := by walk1_stretch_keeps hostOps0_1
theorem W5_v46 (c : Dev nD) : W5 m ρ c (Proc.devRef .tc main_v46) = W1 m ρ c (Proc.devRef .tc main_v46) :=
  calc W5 m ρ c (Proc.devRef .tc main_v46)
    _ = W4 m ρ c (Proc.devRef .tc main_v46) := by walk1_stretch_keeps hostOps1
    _ = W3 m ρ c (Proc.devRef .tc main_v46) := W4_of_ne m ρ c main_v46 (by decide)
    _ = W2 m ρ c (Proc.devRef .tc main_v46) := by walk1_stretch_keeps hostOps0_2
    _ = W1 m ρ c (Proc.devRef .tc main_v46) := by walk1_stretch_keeps hostOps0_1

end Aux1

/-! ## The results: no later host operation and no later region writes them -/

theorem W10_item (c : Dev nD) : W10 m ρ c (Proc.devRef .tc main_v111) = (dat1 (V5 m ρ) c).arrAt 10 cfg1.N :=
  calc W10 m ρ c (Proc.devRef .tc main_v111)
    _ = W9 m ρ c (Proc.devRef .tc main_v111) := W10_of_ne m ρ c main_v111 (by decide)
    _ = W8 m ρ c (Proc.devRef .tc main_v111) := by walk1_stretch_keeps hostOps3
    _ = W7 m ρ c (Proc.devRef .tc main_v111) := W8_of_ne m ρ c main_v111 (by decide)
    _ = W6 m ρ c (Proc.devRef .tc main_v111) := by walk1_stretch_keeps hostOps2
    _ = (dat1 (V5 m ρ) c).arrAt 10 cfg1.N := W6_arr m ρ c 10
theorem W10_price (c : Dev nD) : W10 m ρ c (Proc.devRef .tc main_v116) = (dat2 (V7 m ρ) c).arrAt 7 cfg2.N :=
  calc W10 m ρ c (Proc.devRef .tc main_v116)
    _ = W9 m ρ c (Proc.devRef .tc main_v116) := W10_of_ne m ρ c main_v116 (by decide)
    _ = W8 m ρ c (Proc.devRef .tc main_v116) := by walk1_stretch_keeps hostOps3
    _ = (dat2 (V7 m ρ) c).arrAt 7 cfg2.N := W8_arr m ρ c 7
theorem W10_user (c : Dev nD) : W10 m ρ c (Proc.devRef .tc main_v119) = (dat3 (V9 m ρ) c).arrAt 6 cfg3.N :=
  W10_arr m ρ c 6

/-! ## What the item region finds in the arrays it reads -/

theorem V5_arg0 (c : Dev nD) : V5 m ρ c main_arg0 = (m ((c : Thread nD τ).loc main_arg0)) :=
  calc W5 m ρ c (Proc.devRef .tc main_arg0)
    _ = W4 m ρ c (Proc.devRef .tc main_arg0) := by walk1_stretch_keeps hostOps1
    _ = W3 m ρ c (Proc.devRef .tc main_arg0) := W4_of_ne m ρ c main_arg0 (by decide)
    _ = W2 m ρ c (Proc.devRef .tc main_arg0) := by walk1_stretch_keeps hostOps0_2
    _ = W1 m ρ c (Proc.devRef .tc main_arg0) := by walk1_stretch_keeps hostOps0_1
    _ = W0 m ρ c (Proc.devRef .tc main_arg0) := by walk1_stretch_keeps hostOps0
    _ = m ((c : Thread nD τ).loc main_arg0) := rfl
theorem V5_v12 (c : Dev nD) : (V5 m ρ c main_v12 : S100000x128.Idx → EReal)
    = spmmVp (F := Ideal) (m ((c : Thread nD τ).loc main_arg6)) (m ((c : Thread nD τ).loc main_arg7)) (m ((c : Thread nD τ).loc main_arg8)) (m ((c : Thread nD τ).loc main_arg1)) :=
  (Aux1.W5_v12 m ρ c).trans (Aux1.after0_v12 (W0 m ρ c))
theorem V5_v25 (c : Dev nD) : (V5 m ρ c main_v25 : S100000x128.Idx → EReal)
    = spmmAdj (F := Ideal) (m ((c : Thread nD τ).loc main_arg3)) (m ((c : Thread nD τ).loc main_arg4)) (m ((c : Thread nD τ).loc main_arg5)) (m ((c : Thread nD τ).loc main_arg0)) :=
  (Aux1.W5_v25 m ρ c).trans (Aux1.after0_v25 (W0 m ρ c))
theorem V5_v46 (c : Dev nD) : (V5 m ρ c main_v46 : S100000x128.Idx → EReal)
    = alphaVu (F := Ideal) (m ((c : Thread nD τ).loc main_arg9)) (m ((c : Thread nD τ).loc main_arg10)) (m ((c : Thread nD τ).loc main_arg11)) (m ((c : Thread nD τ).loc main_arg2)) :=
  (Aux1.W5_v46 m ρ c).trans (Aux1.after0_v46 (W0 m ρ c))
theorem V5_arg19 (c : Dev nD) : V5 m ρ c main_arg19 = (m ((c : Thread nD τ).loc main_arg19)) :=
  calc W5 m ρ c (Proc.devRef .tc main_arg19)
    _ = W4 m ρ c (Proc.devRef .tc main_arg19) := by walk1_stretch_keeps hostOps1
    _ = W3 m ρ c (Proc.devRef .tc main_arg19) := W4_of_ne m ρ c main_arg19 (by decide)
    _ = W2 m ρ c (Proc.devRef .tc main_arg19) := by walk1_stretch_keeps hostOps0_2
    _ = W1 m ρ c (Proc.devRef .tc main_arg19) := by walk1_stretch_keeps hostOps0_1
    _ = W0 m ρ c (Proc.devRef .tc main_arg19) := by walk1_stretch_keeps hostOps0
    _ = m ((c : Thread nD τ).loc main_arg19) := rfl
/-- The 1×1 copy of λ holds λ. -/
theorem V5_v110 (c : Dev nD) : (V5 m ρ c main_v110 : S1x1.Idx → EReal) (ix2 0 0) = ((m ((c : Thread nD τ).loc main_arg32)) : S_.Idx → EReal) ix0 :=
  (Aux1.after1_v110 (W4 m ρ c)).trans (congrArg (fun f : S_.Idx → EReal => f ix0) (Aux1.W4_arg32 m ρ c))
/-- The bf16 copy of the transposed matrix is, at the ideal instance, the transposed matrix. -/
theorem V5_v107 (c : Dev nD) : (V5 m ρ c main_v107 : S256x128.Idx → EReal)
    = transpose S256x128 [1, 0] ((m ((c : Thread nD τ).loc main_arg22)) : S128x256.Idx → EReal) transposes_S128x256_S256x128_1_0 :=
  (Aux1.after1_v107 (W4 m ρ c)).trans
    (congrArg (fun x : S128x256.Idx → EReal => transpose S256x128 [1, 0] x transposes_S128x256_S256x128_1_0) (Aux1.W4_arg22 m ρ c))
theorem V5_arg23 (c : Dev nD) : V5 m ρ c main_arg23 = (m ((c : Thread nD τ).loc main_arg23)) :=
  calc W5 m ρ c (Proc.devRef .tc main_arg23)
    _ = W4 m ρ c (Proc.devRef .tc main_arg23) := by walk1_stretch_keeps hostOps1
    _ = W3 m ρ c (Proc.devRef .tc main_arg23) := W4_of_ne m ρ c main_arg23 (by decide)
    _ = W2 m ρ c (Proc.devRef .tc main_arg23) := by walk1_stretch_keeps hostOps0_2
    _ = W1 m ρ c (Proc.devRef .tc main_arg23) := by walk1_stretch_keeps hostOps0_1
    _ = W0 m ρ c (Proc.devRef .tc main_arg23) := by walk1_stretch_keeps hostOps0
    _ = m ((c : Thread nD τ).loc main_arg23) := rfl
theorem V5_v109 (c : Dev nD) : (V5 m ρ c main_v109 : S128x128.Idx → EReal)
    = transpose S128x128 [1, 0] ((m ((c : Thread nD τ).loc main_arg24)) : S128x128.Idx → EReal) transposes_S128x128_S128x128_1_0 :=
  (Aux1.after1_v109 (W4 m ρ c)).trans
    (congrArg (fun x : S128x128.Idx → EReal => transpose S128x128 [1, 0] x transposes_S128x128_S128x128_1_0) (Aux1.W4_arg24 m ρ c))
theorem V5_arg25 (c : Dev nD) : V5 m ρ c main_arg25 = (m ((c : Thread nD τ).loc main_arg25)) :=
  calc W5 m ρ c (Proc.devRef .tc main_arg25)
    _ = W4 m ρ c (Proc.devRef .tc main_arg25) := by walk1_stretch_keeps hostOps1
    _ = W3 m ρ c (Proc.devRef .tc main_arg25) := W4_of_ne m ρ c main_arg25 (by decide)
    _ = W2 m ρ c (Proc.devRef .tc main_arg25) := by walk1_stretch_keeps hostOps0_2
    _ = W1 m ρ c (Proc.devRef .tc main_arg25) := by walk1_stretch_keeps hostOps0_1
    _ = W0 m ρ c (Proc.devRef .tc main_arg25) := by walk1_stretch_keeps hostOps0
    _ = m ((c : Thread nD τ).loc main_arg25) := rfl

end Cert.KernelIdeal.Walk

end
-- ==== Proof.Walk2.lean ====
/-
  What the price region, the user region and the gather region find in the arrays they read, when each is entered: an
  argument as launched, the host operations' term of the arguments, or (for the user region's price aggregate) the
  aggregate of what the gather region left in its output array.
-/
import proofs.«424989_j54769422959169_1_alg».proof.Proof.Gen.KernelIdeal.Frame
import proofs.«424989_j54769422959169_1_alg».proof.Proof.Chains
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost

set_option maxRecDepth 16384

noncomputable section

namespace Cert.KernelIdeal.Walk2

open Cert.KernelIdeal Cert.KernelIdeal.Gen Cert.ReferenceIdeal.Chains
open Idealize.ShloMosaic Idealize.ShloMosaic.TcCoe Idealize.ShloMosaic.ValueIdx Idealize.ShloMosaic.StableHlo Idealize.SL.Sem
open Idealize.ShloMosaic.Pipeline (Dat Cfg Window)

/-! ## What each host stretch writes, and that it leaves every other buffer alone -/

set_option maxHeartbeats 4000000 in
/-- The buffers the operations of `hostOps0` write. -/
abbrev w0 : List (Ref sig .tc) := [main_v0, main_c, main_v1, main_v2, main_c_0, main_v3, main_v4, main_v5, main_v6, main_v7, main_v8, main_v9, main_cst, main_v10, main_v11, main_v12, main_v13, main_c_1, main_v14, main_v15, main_c_2, main_v16, main_v17, main_v18, main_v19, main_v20, main_v21, main_v22, main_cst_3, main_v23, main_v24, main_v25, main_v26, main_c_4, main_v27, main_v28, main_c_5, main_v29, main_v30, main_v31, main_v32, main_v33, main_v34, main_v35, main_cst_6, main_v36, main_v37, main_v38, main_cst_7, main_v39, main_v40, main_v41, main_v42, main_cst_8, main_v43, main_v44, main_v45, main_v46, main_v47, main_c_9, main_v48, main_v49, main_c_10, main_v50, main_v51, main_v52, main_v53, main_v54, main_v55, main_v56, main_cst_11, main_v57, main_v58, main_v59, main_cst_12, main_v60, main_v61, main_v62, main_v63, main_cst_13, main_v64, main_v65, main_v66, main_v67, main_v68, main_c_14, main_v69, main_v70, main_c_15, main_v71, main_v72, main_v73, main_v74, main_v75, main_v76, main_v77, main_cst_16, main_v78, main_v79, main_v80, main_cst_17, main_v81, main_v82, main_v83, main_v84, main_cst_18, main_v85, main_v86, main_v87, main_v88, main_c_19]
theorem writes0 : (hostOps0 : List (HloOp τ sig (Elt Ideal))).Forall fun op => op.writes ⊆ (w0.map (Proc.devRef (τ := τ) .tc)).toFinset := by
  simp only [hostOps0, List.Forall, nullary_writes, unary_writes, binary_writes, ternary_writes, reshape_writes, Finset.singleton_subset_iff, List.mem_toFinset]
  repeat' apply And.intro
  all_goals exact List.mem_map_of_mem (by decide)
/-- A buffer none of them writes holds after them what it held before. -/
theorem keep0 (V : Valuation τ sig (Elt Ideal)) (r : Ref sig .tc) (h : r ∉ w0) :
    after hostOps0 V (Proc.devRef .tc r) = V (Proc.devRef .tc r) :=
  after_of_writes_sub hostOps0 V writes0 h

/-- The buffers the operations of `hostOps0_1` write. -/
abbrev w0_1 : List (Ref sig .tc) := [main_call0_v0, main_v89]
theorem writes0_1 : (hostOps0_1 : List (HloOp τ sig (Elt Ideal))).Forall fun op => op.writes ⊆ (w0_1.map (Proc.devRef (τ := τ) .tc)).toFinset := by
  simp only [hostOps0_1, List.Forall, nullary_writes, unary_writes, binary_writes, ternary_writes, reshape_writes, Finset.singleton_subset_iff, List.mem_toFinset]
  repeat' apply And.intro
  all_goals exact List.mem_map_of_mem (by decide)
/-- A buffer none of them writes holds after them what it held before. -/
theorem keep0_1 (V : Valuation τ sig (Elt Ideal)) (r : Ref sig .tc) (h : r ∉ w0_1) :
    after hostOps0_1 V (Proc.devRef .tc r) = V (Proc.devRef .tc r) :=
  after_of_writes_sub hostOps0_1 V writes0_1 h

/-- The buffers the operations of `hostOps0_2` write. -/
abbrev w0_2 : List (Ref sig .tc) := [main_v90, main_v91]
theorem writes0_2 : (hostOps0_2 : List (HloOp τ sig (Elt Ideal))).Forall fun op => op.writes ⊆ (w0_2.map (Proc.devRef (τ := τ) .tc)).toFinset := by
  simp only [hostOps0_2, List.Forall, nullary_writes, unary_writes, binary_writes, ternary_writes, reshape_writes, Finset.singleton_subset_iff, List.mem_toFinset]
  repeat' apply And.intro
  all_goals exact List.mem_map_of_mem (by decide)
/-- A buffer none of them writes holds after them what it held before. -/
theorem keep0_2 (V : Valuation τ sig (Elt Ideal)) (r : Ref sig .tc) (h : r ∉ w0_2) :
    after hostOps0_2 V (Proc.devRef .tc r) = V (Proc.devRef .tc r) :=
  after_of_writes_sub hostOps0_2 V writes0_2 h

/-- The buffers the operations of `hostOps1` write. -/
abbrev w1 : List (Ref sig .tc) := [main_v93, main_c_20, main_v94, main_v95, main_c_21, main_v96, main_v97, main_v98, main_v99, main_v100, main_v101, main_v102, main_cst_22, main_v103, main_v104, main_v105, main_v106, main_v107, main_v108, main_v109, main_v110]
theorem writes1 : (hostOps1 : List (HloOp τ sig (Elt Ideal))).Forall fun op => op.writes ⊆ (w1.map (Proc.devRef (τ := τ) .tc)).toFinset := by
  simp only [hostOps1, List.Forall, nullary_writes, unary_writes, binary_writes, ternary_writes, reshape_writes, Finset.singleton_subset_iff, List.mem_toFinset]
  repeat' apply And.intro
  all_goals exact List.mem_map_of_mem (by decide)
/-- A buffer none of them writes holds after them what it held before. -/
theorem keep1 (V : Valuation τ sig (Elt Ideal)) (r : Ref sig .tc) (h : r ∉ w1) :
    after hostOps1 V (Proc.devRef .tc r) = V (Proc.devRef .tc r) :=
  after_of_writes_sub hostOps1 V writes1 h

/-- The buffers the operations of `hostOps2` write. -/
abbrev w2 : List (Ref sig .tc) := [main_v112, main_v113, main_v114, main_v115]
theorem writes2 : (hostOps2 : List (HloOp τ sig (Elt Ideal))).Forall fun op => op.writes ⊆ (w2.map (Proc.devRef (τ := τ) .tc)).toFinset := by
  simp only [hostOps2, List.Forall, nullary_writes, unary_writes, binary_writes, ternary_writes, reshape_writes, Finset.singleton_subset_iff, List.mem_toFinset]
  repeat' apply And.intro
  all_goals exact List.mem_map_of_mem (by decide)
/-- A buffer none of them writes holds after them what it held before. -/
theorem keep2 (V : Valuation τ sig (Elt Ideal)) (r : Ref sig .tc) (h : r ∉ w2) :
    after hostOps2 V (Proc.devRef .tc r) = V (Proc.devRef .tc r) :=
  after_of_writes_sub hostOps2 V writes2 h

/-- The buffers the operations of `hostOps3` write. -/
abbrev w3 : List (Ref sig .tc) := [main_v117, main_v118]
theorem writes3 : (hostOps3 : List (HloOp τ sig (Elt Ideal))).Forall fun op => op.writes ⊆ (w3.map (Proc.devRef (τ := τ) .tc)).toFinset := by
  simp only [hostOps3, List.Forall, nullary_writes, unary_writes, binary_writes, ternary_writes, reshape_writes, Finset.singleton_subset_iff, List.mem_toFinset]
  repeat' apply And.intro
  all_goals exact List.mem_map_of_mem (by decide)
/-- A buffer none of them writes holds after them what it held before. -/
theorem keep3 (V : Valuation τ sig (Elt Ideal)) (r : Ref sig .tc) (h : r ∉ w3) :
    after hostOps3 V (Proc.devRef .tc r) = V (Proc.devRef .tc r) :=
  after_of_writes_sub hostOps3 V writes3 h

/-! ## What a host stretch computes at a buffer it writes, over any contents before it -/

set_option maxHeartbeats 4000000 in
/-- The first stretch's aggregate of the item table over the price rows, divided row by row. -/
theorem after0_v67 (V : Valuation τ sig (Elt Ideal)) :
    (after hostOps0 V (Proc.devRef .tc main_v67) : S100x128.Idx → EReal)
      = alphaPv (F := Ideal) (V (Proc.devRef .tc main_arg12)) (V (Proc.devRef .tc main_arg13)) (V (Proc.devRef .tc main_arg14))
          (V (Proc.devRef .tc main_arg0)) := by
  simp only [hostOps0]
  after_results_simp
  unfold alphaPv
  rfl

set_option maxHeartbeats 4000000 in
/-- The first stretch's aggregate of the item table over the user rows, divided row by row. -/
theorem after0_v88 (V : Valuation τ sig (Elt Ideal)) :
    (after hostOps0 V (Proc.devRef .tc main_v88) : S40000x128.Idx → EReal)
      = alphaUv (F := Ideal) (V (Proc.devRef .tc main_arg15)) (V (Proc.devRef .tc main_arg16)) (V (Proc.devRef .tc main_arg17))
          (V (Proc.devRef .tc main_arg0)) := by
  simp only [hostOps0]
  after_results_simp
  unfold alphaUv
  rfl

/-- The first stretch's last operation leaves the integer zero in its buffer. -/
theorem after0_c19 (V : Valuation τ sig (Elt Ideal)) :
    (after hostOps0 V (Proc.devRef .tc main_c_19) : S_.Idx → BitVec 32) = constantI S_ 32 0#32 := by
  simp only [hostOps0]
  after_results

/-- The padded price table: 28 rows of the converted zero below the table. -/
theorem after0_1_v89 (V : Valuation τ sig (Elt Ideal)) :
    (after hostOps0_1 V (Proc.devRef .tc main_v89) : S128x128.Idx → EReal)
      = pad S128x128 ![0, 0] ![28, 0] ![0, 0] (V (Proc.devRef .tc main_arg1) : S100x128.Idx → EReal)
          (sitofp (F := Ideal) .f32 (V (Proc.devRef .tc main_c_19) : S_.Idx → BitVec 32)) pads_S100x128_S128x128_0280_000 h_S_ := by
  simp only [hostOps0_1]
  after_results
  rfl

/-- The narrowed copy of the padded table. -/
theorem after0_2_v90 (V : Valuation τ sig (Elt Ideal)) :
    (after hostOps0_2 V (Proc.devRef .tc main_v90) : S128x128.Idx → EReal)
      = truncf (F := Ideal) (s := S128x128) (φ := .f32) .bf16 (V (Proc.devRef .tc main_v89)) bitsLt_bf16_f32 := by
  simp only [hostOps0_2]
  after_results

/-- The index vector recast as a column. -/
theorem after0_2_v91 (V : Valuation τ sig (Elt Ideal)) :
    (after hostOps0_2 V (Proc.devRef .tc main_v91) : S100000x1.Idx → BitVec 32)
      = shapeCast S100000x1 (V (Proc.devRef .tc main_arg18) : S100000.Idx → BitVec 32) shapeCasts_S100000_S100000x1 := by
  simp only [hostOps0_2]
  after_results
  rfl

set_option maxHeartbeats 4000000 in
/-- The stretch before the item region: the user-row aggregate of what it finds in the gather region's output array. -/
theorem after1_v105 (V : Valuation τ sig (Elt Ideal)) :
    (after hostOps1 V (Proc.devRef .tc main_v105) : S40000x128.Idx → EReal)
      = spmmUv (F := Ideal) (V (Proc.devRef .tc main_arg15)) (V (Proc.devRef .tc main_arg16)) (V (Proc.devRef .tc main_arg17))
          (V (Proc.devRef .tc main_v92)) := by
  simp only [hostOps1]
  after_results_simp
  unfold spmmUv
  rfl

variable (m : (ℓ : Loc nD τ sig) → Buf (Elt Ideal) ℓ) (ρ : Dev nD → PrngReg)

/-! ## The fold walked back at a buffer that nothing before the boundary writes -/

/-- After the first stretch. -/
theorem W1_at (c : Dev nD) (r : Ref sig .tc) (h0 : r ∉ w0) :
    W1 m ρ c (Proc.devRef .tc r) = m ((c : Thread nD τ).loc r) :=
  calc W1 m ρ c (Proc.devRef .tc r)
    _ = W0 m ρ c (Proc.devRef .tc r) := keep0 _ r h0
    _ = m ((c : Thread nD τ).loc r) := rfl
/-- After the second stretch. -/
theorem W2_at (c : Dev nD) (r : Ref sig .tc) (h0 : r ∉ w0) (h01 : r ∉ w0_1) :
    W2 m ρ c (Proc.devRef .tc r) = m ((c : Thread nD τ).loc r) :=
  calc W2 m ρ c (Proc.devRef .tc r)
    _ = W1 m ρ c (Proc.devRef .tc r) := keep0_1 _ r h01
    _ = m ((c : Thread nD τ).loc r) := W1_at m ρ c r h0

/-- At the gather region's entry. -/
theorem W3_at (c : Dev nD) (r : Ref sig .tc) (h0 : r ∉ w0) (h01 : r ∉ w0_1) (h02 : r ∉ w0_2) :
    W3 m ρ c (Proc.devRef .tc r) = m ((c : Thread nD τ).loc r) :=
  calc W3 m ρ c (Proc.devRef .tc r)
    _ = W2 m ρ c (Proc.devRef .tc r) := keep0_2 _ r h02
    _ = W1 m ρ c (Proc.devRef .tc r) := keep0_1 _ r h01
    _ = W0 m ρ c (Proc.devRef .tc r) := keep0 _ r h0
    _ = m ((c : Thread nD τ).loc r) := rfl
/-- At the gather region's exit. -/
theorem W4_at (c : Dev nD) (r : Ref sig .tc) (h0 : r ∉ w0) (h01 : r ∉ w0_1) (h02 : r ∉ w0_2)
    (hr0 : ∀ w, Pipeline.arrRef spec0 w ≠ r) :
    W4 m ρ c (Proc.devRef .tc r) = m ((c : Thread nD τ).loc r) :=
  (W4_of_ne m ρ c r hr0).trans (W3_at m ρ c r h0 h01 h02)
/-- At the item region's entry. -/
theorem W5_at (c : Dev nD) (r : Ref sig .tc) (h0 : r ∉ w0) (h01 : r ∉ w0_1) (h02 : r ∉ w0_2)
    (hr0 : ∀ w, Pipeline.arrRef spec0 w ≠ r) (h1 : r ∉ w1) :
    W5 m ρ c (Proc.devRef .tc r) = m ((c : Thread nD τ).loc r) :=
  calc W5 m ρ c (Proc.devRef .tc r)
    _ = W4 m ρ c (Proc.devRef .tc r) := keep1 _ r h1
    _ = m ((c : Thread nD τ).loc r) := W4_at m ρ c r h0 h01 h02 hr0
/-- At the item region's exit. -/
theorem W6_at (c : Dev nD) (r : Ref sig .tc) (h0 : r ∉ w0) (h01 : r ∉ w0_1) (h02 : r ∉ w0_2)
    (hr0 : ∀ w, Pipeline.arrRef spec0 w ≠ r) (h1 : r ∉ w1) (hr1 : ∀ w, Pipeline.arrRef spec1 w ≠ r) :
    W6 m ρ c (Proc.devRef .tc r) = m ((c : Thread nD τ).loc r) :=
  (W6_of_ne m ρ c r hr1).trans (W5_at m ρ c r h0 h01 h02 hr0 h1)
/-- At the price region's entry. -/
theorem W7_at (c : Dev nD) (r : Ref sig .tc) (h0 : r ∉ w0) (h01 : r ∉ w0_1) (h02 : r ∉ w0_2)
    (hr0 : ∀ w, Pipeline.arrRef spec0 w ≠ r) (h1 : r ∉ w1) (hr1 : ∀ w, Pipeline.arrRef spec1 w ≠ r) (h2 : r ∉ w2) :
    W7 m ρ c (Proc.devRef .tc r) = m ((c : Thread nD τ).loc r) :=
  calc W7 m ρ c (Proc.devRef .tc r)
    _ = W6 m ρ c (Proc.devRef .tc r) := keep2 _ r h2
    _ = m ((c : Thread nD τ).loc r) := W6_at m ρ c r h0 h01 h02 hr0 h1 hr1
/-- At the price region's exit. -/
theorem W8_at (c : Dev nD) (r : Ref sig .tc) (h0 : r ∉ w0) (h01 : r ∉ w0_1) (h02 : r ∉ w0_2)
    (hr0 : ∀ w, Pipeline.arrRef spec0 w ≠ r) (h1 : r ∉ w1) (hr1 : ∀ w, Pipeline.arrRef spec1 w ≠ r) (h2 : r ∉ w2)
    (hr2 : ∀ w, Pipeline.arrRef spec2 w ≠ r) :
    W8 m ρ c (Proc.devRef .tc r) = m ((c : Thread nD τ).loc r) :=
  (W8_of_ne m ρ c r hr2).trans (W7_at m ρ c r h0 h01 h02 hr0 h1 hr1 h2)
/-- At the user region's entry. -/
theorem W9_at (c : Dev nD) (r : Ref sig .tc) (h0 : r ∉ w0) (h01 : r ∉ w0_1) (h02 : r ∉ w0_2)
    (hr0 : ∀ w, Pipeline.arrRef spec0 w ≠ r) (h1 : r ∉ w1) (hr1 : ∀ w, Pipeline.arrRef spec1 w ≠ r) (h2 : r ∉ w2)
    (hr2 : ∀ w, Pipeline.arrRef spec2 w ≠ r) (h3 : r ∉ w3) :
    W9 m ρ c (Proc.devRef .tc r) = m ((c : Thread nD τ).loc r) :=
  calc W9 m ρ c (Proc.devRef .tc r)
    _ = W8 m ρ c (Proc.devRef .tc r) := keep3 _ r h3
    _ = m ((c : Thread nD τ).loc r) := W8_at m ρ c r h0 h01 h02 hr0 h1 hr1 h2 hr2

/-! ## The price region's arrays -/

theorem V7_arg1 (c : Dev nD) : V7 m ρ c main_arg1 = (m ((c : Thread nD τ).loc main_arg1)) :=
  W7_at m ρ c main_arg1 (by decide) (by decide) (by decide) (by decide) (by decide) (by decide) (by decide)
theorem V7_v67 (c : Dev nD) : (V7 m ρ c main_v67 : S100x128.Idx → EReal)
    = alphaPv (F := Ideal) (m ((c : Thread nD τ).loc main_arg12)) (m ((c : Thread nD τ).loc main_arg13)) (m ((c : Thread nD τ).loc main_arg14)) (m ((c : Thread nD τ).loc main_arg0)) := by
  have h1 : V7 m ρ c main_v67 = W1 m ρ c (Proc.devRef .tc main_v67) :=
    calc W7 m ρ c (Proc.devRef .tc main_v67)
      _ = W6 m ρ c (Proc.devRef .tc main_v67) := keep2 _ main_v67 (by decide)
      _ = W5 m ρ c (Proc.devRef .tc main_v67) := W6_of_ne m ρ c main_v67 (by decide)
      _ = W4 m ρ c (Proc.devRef .tc main_v67) := keep1 _ main_v67 (by decide)
      _ = W3 m ρ c (Proc.devRef .tc main_v67) := W4_of_ne m ρ c main_v67 (by decide)
      _ = W2 m ρ c (Proc.devRef .tc main_v67) := keep0_2 _ main_v67 (by decide)
      _ = W1 m ρ c (Proc.devRef .tc main_v67) := keep0_1 _ main_v67 (by decide)
  rw [h1]
  exact after0_v67 (W0 m ρ c)
theorem V7_arg20 (c : Dev nD) : V7 m ρ c main_arg20 = (m ((c : Thread nD τ).loc main_arg20)) :=
  W7_at m ρ c main_arg20 (by decide) (by decide) (by decide) (by decide) (by decide) (by decide) (by decide)
theorem V7_v113 (c : Dev nD) : (V7 m ρ c main_v113 : S256x128.Idx → EReal)
    = transpose S256x128 [1, 0] ((m ((c : Thread nD τ).loc main_arg26)) : S128x256.Idx → EReal) transposes_S128x256_S256x128_1_0 := by
  show after hostOps2 (W6 m ρ c) (Proc.devRef .tc main_v113) = _
  simp only [hostOps2]
  after_results
  rw [W6_at m ρ c main_arg26 (by decide) (by decide) (by decide) (by decide) (by decide) (by decide)]
  funext i; rfl
theorem V7_arg27 (c : Dev nD) : V7 m ρ c main_arg27 = (m ((c : Thread nD τ).loc main_arg27)) :=
  W7_at m ρ c main_arg27 (by decide) (by decide) (by decide) (by decide) (by decide) (by decide) (by decide)
theorem V7_v115 (c : Dev nD) : (V7 m ρ c main_v115 : S128x128.Idx → EReal)
    = transpose S128x128 [1, 0] ((m ((c : Thread nD τ).loc main_arg28)) : S128x128.Idx → EReal) transposes_S128x128_S128x128_1_0 := by
  show after hostOps2 (W6 m ρ c) (Proc.devRef .tc main_v115) = _
  simp only [hostOps2]
  after_results
  rw [W6_at m ρ c main_arg28 (by decide) (by decide) (by decide) (by decide) (by decide) (by decide)]
  funext i; rfl
theorem V7_arg29 (c : Dev nD) : V7 m ρ c main_arg29 = (m ((c : Thread nD τ).loc main_arg29)) :=
  W7_at m ρ c main_arg29 (by decide) (by decide) (by decide) (by decide) (by decide) (by decide) (by decide)

/-! ## The user region's arrays -/

theorem V9_arg2 (c : Dev nD) : V9 m ρ c main_arg2 = (m ((c : Thread nD τ).loc main_arg2)) :=
  W9_at m ρ c main_arg2 (by decide) (by decide) (by decide) (by decide) (by decide) (by decide) (by decide) (by decide) (by decide)
theorem V9_v88 (c : Dev nD) : (V9 m ρ c main_v88 : S40000x128.Idx → EReal)
    = alphaUv (F := Ideal) (m ((c : Thread nD τ).loc main_arg15)) (m ((c : Thread nD τ).loc main_arg16)) (m ((c : Thread nD τ).loc main_arg17)) (m ((c : Thread nD τ).loc main_arg0)) := by
  have h1 : V9 m ρ c main_v88 = W1 m ρ c (Proc.devRef .tc main_v88) :=
    calc W9 m ρ c (Proc.devRef .tc main_v88)
      _ = W8 m ρ c (Proc.devRef .tc main_v88) := keep3 _ main_v88 (by decide)
      _ = W7 m ρ c (Proc.devRef .tc main_v88) := W8_of_ne m ρ c main_v88 (by decide)
      _ = W6 m ρ c (Proc.devRef .tc main_v88) := keep2 _ main_v88 (by decide)
      _ = W5 m ρ c (Proc.devRef .tc main_v88) := W6_of_ne m ρ c main_v88 (by decide)
      _ = W4 m ρ c (Proc.devRef .tc main_v88) := keep1 _ main_v88 (by decide)
      _ = W3 m ρ c (Proc.devRef .tc main_v88) := W4_of_ne m ρ c main_v88 (by decide)
      _ = W2 m ρ c (Proc.devRef .tc main_v88) := keep0_2 _ main_v88 (by decide)
      _ = W1 m ρ c (Proc.devRef .tc main_v88) := keep0_1 _ main_v88 (by decide)
  rw [h1]
  exact after0_v88 (W0 m ρ c)
theorem V9_arg21 (c : Dev nD) : V9 m ρ c main_arg21 = (m ((c : Thread nD τ).loc main_arg21)) :=
  W9_at m ρ c main_arg21 (by decide) (by decide) (by decide) (by decide) (by decide) (by decide) (by decide) (by decide) (by decide)
/-- The price aggregate over the users: the same edges, over what the gather region left in its output array. -/
theorem V9_v105 (c : Dev nD) : (V9 m ρ c main_v105 : S40000x128.Idx → EReal)
    = spmmUv (F := Ideal) (m ((c : Thread nD τ).loc main_arg15)) (m ((c : Thread nD τ).loc main_arg16)) (m ((c : Thread nD τ).loc main_arg17))
        ((dat0 (V3 m ρ) c).arrAt 2 cfg0.N : S100000x128.Idx → EReal) := by
  have h92 : W4 m ρ c (Proc.devRef .tc main_v92) = (dat0 (V3 m ρ) c).arrAt 2 cfg0.N := W4_arr m ρ c 2
  have h5 : V9 m ρ c main_v105 = W5 m ρ c (Proc.devRef .tc main_v105) :=
    calc W9 m ρ c (Proc.devRef .tc main_v105)
      _ = W8 m ρ c (Proc.devRef .tc main_v105) := keep3 _ main_v105 (by decide)
      _ = W7 m ρ c (Proc.devRef .tc main_v105) := W8_of_ne m ρ c main_v105 (by decide)
      _ = W6 m ρ c (Proc.devRef .tc main_v105) := keep2 _ main_v105 (by decide)
      _ = W5 m ρ c (Proc.devRef .tc main_v105) := W6_of_ne m ρ c main_v105 (by decide)
  rw [h5]
  refine (after1_v105 (W4 m ρ c)).trans ?_
  rw [W4_at m ρ c main_arg15 (by decide) (by decide) (by decide) (by decide), W4_at m ρ c main_arg16 (by decide) (by decide) (by decide) (by decide),
    W4_at m ρ c main_arg17 (by decide) (by decide) (by decide) (by decide), h92]
theorem V9_v118 (c : Dev nD) : (V9 m ρ c main_v118 : S384x128.Idx → EReal)
    = transpose S384x128 [1, 0] ((m ((c : Thread nD τ).loc main_arg30)) : S128x384.Idx → EReal) transposes_S128x384_S384x128_1_0 := by
  show after hostOps3 (W8 m ρ c) (Proc.devRef .tc main_v118) = _
  simp only [hostOps3]
  after_results
  rw [W8_at m ρ c main_arg30 (by decide) (by decide) (by decide) (by decide) (by decide) (by decide) (by decide) (by decide)]
  funext i; rfl
theorem V9_arg31 (c : Dev nD) : V9 m ρ c main_arg31 = (m ((c : Thread nD τ).loc main_arg31)) :=
  W9_at m ρ c main_arg31 (by decide) (by decide) (by decide) (by decide) (by decide) (by decide) (by decide) (by decide) (by decide)

/-! ## The gather region's arrays -/

/-- The index column is the index vector, one word a row. -/
theorem V3_v91 (c : Dev nD) (r : Fin 100000) :
    (V3 m ρ c main_v91 : S100000x1.Idx → BitVec 32) (ix2 r 0) = ((m ((c : Thread nD τ).loc main_arg18)) : S100000.Idx → BitVec 32) (ix1 r) := by
  have hV : (V3 m ρ c main_v91 : S100000x1.Idx → BitVec 32)
      = shapeCast S100000x1 ((m ((c : Thread nD τ).loc main_arg18)) : S100000.Idx → BitVec 32) shapeCasts_S100000_S100000x1 := by
    show after hostOps0_2 (W2 m ρ c) (Proc.devRef .tc main_v91) = _
    rw [after0_2_v91, W2_at m ρ c main_arg18 (by decide) (by decide)]
  rw [hV]
  refine shapeCast_apply (s := S100000) (t := S100000x1) _ _ _ _ ?_
  rw [Shape.rowMajor_val_one, Shape.rowMajor_val_two]
  show r.val = r.val * 1 + 0
  omega
/-- The 128-row table's first 100 rows are the price table's (the rest are the padding's zeros). -/
theorem V3_v90 (c : Dev nD) (k : Fin 128) (j : Fin 128) (hk : k.val < 100) :
    (V3 m ρ c main_v90 : S128x128.Idx → EReal) (ix2 k j) = ((m ((c : Thread nD τ).loc main_arg1)) : S100x128.Idx → EReal) (ix2 ⟨k.val, hk⟩ j) := by
  have hV : (V3 m ρ c main_v90 : S128x128.Idx → EReal)
      = truncf (F := Ideal) (s := S128x128) (φ := .f32) .bf16 (pad S128x128 ![0, 0] ![28, 0] ![0, 0] ((m ((c : Thread nD τ).loc main_arg1)) : S100x128.Idx → EReal)
          (sitofp (F := Ideal) .f32 (constantI S_ 32 0#32)) pads_S100x128_S128x128_0280_000 h_S_) bitsLt_bf16_f32 := by
    show after hostOps0_2 (W2 m ρ c) (Proc.devRef .tc main_v90) = _
    rw [after0_2_v90]
    show truncf (F := Ideal) (s := S128x128) (φ := .f32) .bf16 (after hostOps0_1 (W1 m ρ c) (Proc.devRef .tc main_v89)) bitsLt_bf16_f32 = _
    rw [after0_1_v89, W1_at m ρ c main_arg1 (by decide)]
    rw [show (W1 m ρ c (Proc.devRef .tc main_c_19) : S_.Idx → BitVec 32) = constantI S_ 32 0#32 from after0_c19 _]
  rw [hV, truncf_apply]
  exact pad_apply_of_inside (s := S100x128) (t := S128x128) ![0, 0] ![28, 0] ![0, 0] _ _ pads_S100x128_S128x128_0280_000 h_S_ (ix2 k j) (ix2 ⟨k.val, hk⟩ j)
    (Fin.forall_fin_two.mpr ⟨by show k.val = 0 + k.val * (0 + 1); omega, by show j.val = 0 + j.val * (0 + 1); omega⟩)

end Cert.KernelIdeal.Walk2

end
-- ==== Proof.GatherEq.lean ====
/-
  The one-hot product picks a row: where every index lies in [0, 100) and the 128-row table's first 100 rows are the price
  table's, `∑ k, [k = idx[r]] · tbl[k, j]` is `pri[idx[r], j]`, which is what the host's gather returns at an in-range,
  non-negative index (it neither wraps nor clamps there). Zero times anything is zero on the extended reals, so the
  rows the one-hot does not pick contribute nothing whatever they hold.
-/
import proofs.«424989_j54769422959169_1_alg».proof.Proof.Chains
import proofs.«424989_j54769422959169_1_alg».proof.Proof.Spec
import Idealize.ShloMosaic.PureOps.Ideal.Laws
import Idealize.ShloMosaic.Lib.IdealHost
import Idealize.ShloMosaic.Lib.ValueIdx
import Idealize.ShloMosaic.Lib.ValueLayout
import Idealize.ShloMosaic.Lib.Pipeline.Value

set_option maxRecDepth 16384

noncomputable section

open scoped BigOperators

namespace Cert.GatherEq

open Cert.ReferenceIdeal Cert.ReferenceIdeal.Gen Cert.ReferenceIdeal.Chains
open Idealize.ShloMosaic Idealize.ShloMosaic.ValueIdx

/-! ### The one-hot entry -/

/-- The comparison of two 32-bit words for equality, widened to 32 bits and converted: 1 where they agree, else 0. -/
theorem hot_entry (a b : BitVec 32) :
    FloatOps.sitofp (F := Ideal) .f32 ((IntOp.cmpi .eq a b).setWidth 32) = if a = b then (1 : EReal) else 0 := by
  show ((((BitVec.ofBool (a == b)).setWidth 32).toInt : ℝ) : EReal) = _
  by_cases h : a = b
  · subst h
    rw [if_pos rfl, beq_self_eq_true]
    have : ((BitVec.ofBool true).setWidth 32).toInt = 1 := by decide
    rw [this]; norm_num
  · rw [if_neg h, beq_eq_false_iff_ne.mpr h]
    have : ((BitVec.ofBool false).setWidth 32).toInt = 0 := by decide
    rw [this]; norm_num

/-- Two numbers below 128 (so below 2^32) with the same 32-bit word are equal. -/
theorem ofNat32_inj {k n : Nat} (hk : k < 128) (hn : n < 128) (h : BitVec.ofNat 32 k = BitVec.ofNat 32 n) : k = n := by
  have := congrArg BitVec.toNat h
  simp only [BitVec.toNat_ofNat] at this
  omega

/-! ### The one-hot product picks a row -/

/-- The one-hot product at an index in range: the table's row at that index. -/
theorem onehot_sum (tbl : Cert.Spec.Arr 128 128) (idx2 : (⟨2, ![100000, 1]⟩ : Shape).Idx → BitVec 32)
    (r : Fin 100000) (c : Fin 128) (n : Nat) (hn : n < 128) (hr : idx2 (ix2 r 0) = BitVec.ofNat 32 n) :
    Cert.Spec.onehotFn (Cert.Spec.hot idx2) tbl (ix2 r c) = tbl (ix2 ⟨n, hn⟩ c) := by
  show ∑ k : Fin 128, Cert.Spec.hot idx2 (ix2 r k) * tbl (ix2 k c) = _
  have hk : ∀ k : Fin 128, Cert.Spec.hot idx2 (ix2 r k)
      = if BitVec.ofNat 32 k.val = BitVec.ofNat 32 n then (1 : EReal) else 0 := by
    intro k
    show FloatOps.sitofp (F := Ideal) .f32 ((IntOp.cmpi .eq (BitVec.ofNat 32 k.val) (idx2 (ix2 r 0))).setWidth 32) = _
    rw [hr, hot_entry]
  rw [Finset.sum_eq_single (⟨n, hn⟩ : Fin 128)]
  · rw [hk, if_pos rfl, one_mul]
  · intro k _ hne
    rw [hk, if_neg, zero_mul]
    intro h
    exact hne (Fin.ext (ofNat32_inj k.isLt hn h))
  · intro h; exact absurd (Finset.mem_univ _) h

/-! ### The host's gather, read at an index -/

section Gather
variable {α : Type}

/-- The gather of rows of the 100-row table, read at `(r, c)`: the table at the start index `X[r, 0]`, read signed and
    clamped into `[0, 99]`, and column `c`. -/
theorem gather_apply (x : S100x128.Idx → α) (X : IVec S100000x1 32) (r : Fin 100000) (c : Fin 128) :
    Host.gather gather_S100x128_S100000x1_S100000x128_1_0_n_n_0_1_1128 x X (ix2 r c)
      = x (ix2 ⟨min (X (ix2 r 0)).toInt.toNat 99, by omega⟩ c) := by
  unfold Host.gather
  congr 1
  funext a
  refine Fin.ext ?_
  match a with
  | ⟨0, _⟩ =>
    show gather_S100x128_S100000x1_S100000x128_1_0_n_n_0_1_1128.start (ix2 r c) X 0
        + gather_S100x128_S100000x1_S100000x128_1_0_n_n_0_1_1128.batchCoord (ix2 r c) 0
        + gather_S100x128_S100000x1_S100000x128_1_0_n_n_0_1_1128.offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S100x128.rank) ∈ gather_S100x128_S100000x1_S100000x128_1_0_n_n_0_1_1128.startIndexMap
      from List.mem_singleton.mpr rfl)]
    have hsi : gather_S100x128_S100000x1_S100000x128_1_0_n_n_0_1_1128.siIdx (ix2 r c)
        ⟨List.idxOf (0 : Fin S100x128.rank) gather_S100x128_S100000x1_S100000x128_1_0_n_n_0_1_1128.startIndexMap,
          List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show gather_S100x128_S100000x1_S100000x128_1_0_n_n_0_1_1128.start (ix2 r c) X 1
        + gather_S100x128_S100000x1_S100000x128_1_0_n_n_0_1_1128.batchCoord (ix2 r c) 1
        + gather_S100x128_S100000x1_S100000x128_1_0_n_n_0_1_1128.offCoord (ix2 r c) 1 = c.val
    rw [GatherDims.batchCoord_eq_zero _ _ _ List.not_mem_nil]
    have hs : gather_S100x128_S100000x1_S100000x128_1_0_n_n_0_1_1128.start (ix2 r c) X 1 = 0 := by
      unfold GatherDims.start
      rw [dif_neg (show ¬ (1 : Fin S100x128.rank) ∈ gather_S100x128_S100000x1_S100000x128_1_0_n_n_0_1_1128.startIndexMap
        from by decide)]
    rw [hs]
    simp only [Nat.add_zero, Nat.zero_add]
    unfold GatherDims.offCoord
    rw [dif_pos (show (1 : Fin S100x128.rank) ∈ gather_S100x128_S100000x1_S100000x128_1_0_n_n_0_1_1128.sKept
      from by decide)]
    rfl

end Gather

/-! ### The start indices, read at an index -/

/-- A column made of a vector reads the vector's element on its row. -/
theorem bcast_col_apply {β : Type} (h : S100000.BroadcastsInDim S100000x1 (![0] : Fin 1 → Fin S100000x1.rank))
    (v : S100000.Idx → β) (r : Fin 100000) (z : Fin 1) :
    broadcastInDim S100000x1 ![0] h v (ix2 r z) = v (ix1 r) := by
  unfold broadcastInDim
  congr 1
  funext a
  match a with
  | ⟨0, _⟩ => rfl

/-- A scalar spread over the vector reads the scalar everywhere. -/
theorem bcast_scalar_apply {β : Type} (h : S_.BroadcastsInDim S100000 (![] : Fin 0 → Fin S100000.rank))
    (v : S_.Idx → β) (i : S100000.Idx) :
    broadcastInDim S100000 ![] h v i = v ix0 := by
  unfold broadcastInDim
  congr 1
  funext a
  exact a.elim0

/-- The word of a number below 100, read signed, is the number. -/
theorem toInt_ofNat_of_lt {n : Nat} (hn : n < 100) : (BitVec.ofNat 32 n).toInt = (n : Int) := by
  have h1 : (BitVec.ofNat 32 n).toNat = n := by
    rw [BitVec.toNat_ofNat]; omega
  rw [BitVec.toInt_eq_toNat_cond, h1]
  split <;> omega

/-- A word below 100 is not negative. -/
theorem slt_zero_of_lt {n : Nat} (hn : n < 100) : IntOp.cmpi .slt (BitVec.ofNat 32 n) 0#32 = 0#1 := by
  show BitVec.ofBool ((BitVec.ofNat 32 n).slt 0#32) = 0#1
  have : (BitVec.ofNat 32 n).slt 0#32 = false := by
    rw [BitVec.slt, decide_eq_false_iff_not, toInt_ofNat_of_lt hn]
    have : (0#32 : BitVec 32).toInt = 0 := by decide
    rw [this]; omega
  rw [this]; rfl

/-- The start indices at `(r, 0)` where the index is the word of a number below 100: that word (the wrap-around
    `select (idx < 0) (idx + 100) idx` keeps a non-negative index). -/
theorem start_apply (idx : IVec S100000 32) (r : Fin 100000) (z : Fin 1) (n : Nat) (hn : n < 100)
    (hr : idx (ix1 r) = BitVec.ofNat 32 n) :
    broadcastInDim S100000x1 ![0] bcast_S100000_S100000x1_0
      (select (cmpi .slt idx (broadcastInDim S100000 ![] bcast_S_S100000 (constantI S_ 32 0#32)))
        (addi idx (broadcastInDim S100000 ![] bcast_S_S100000 (constantI S_ 32 100#32))) idx) (ix2 r z)
      = BitVec.ofNat 32 n := by
  rw [bcast_col_apply, select_apply]
  show Scalar.select (IntOp.cmpi .slt (idx (ix1 r))
      (broadcastInDim S100000 ![] bcast_S_S100000 (constantI S_ 32 0#32) (ix1 r))) _ (idx (ix1 r)) = _
  rw [bcast_scalar_apply, hr]
  show Scalar.select (IntOp.cmpi .slt (BitVec.ofNat 32 n) 0#32) _ _ = _
  rw [slt_zero_of_lt hn, select_zero]

theorem onehot_eq_gather (pri : FVec Ideal S100x128 .f32) (idx : IVec S100000 32)
    (tbl : Cert.Spec.Arr 128 128) (idx2 : (⟨2, ![100000, 1]⟩ : Shape).Idx → BitVec 32)
    (hidx : ∀ r : Fin 100000, ∃ n : Nat, n < 100 ∧ idx (ix1 r) = BitVec.ofNat 32 n)
    (htbl : ∀ (k j : Fin 128) (hk : k.val < 100), tbl (ix2 k j) = pri (ix2 ⟨k.val, hk⟩ j))
    (hidx2 : ∀ r : Fin 100000, idx2 (ix2 r 0) = idx (ix1 r)) :
    Cert.Spec.onehotFn (Cert.Spec.hot idx2) tbl = gatherPrice (F := Ideal) pri idx := by
  funext i
  obtain ⟨r, c, rfl⟩ : ∃ (r : Fin 100000) (c : Fin 128), i = ix2 r c := ⟨i 0, i 1, eq_ix2 i⟩
  obtain ⟨n, hn, hr⟩ := hidx r
  rw [onehot_sum tbl idx2 r c n (by omega) ((hidx2 r).trans hr), htbl ⟨n, by omega⟩ c hn]
  have hmin : min (BitVec.ofNat 32 n).toInt.toNat 99 = n := by
    rw [toInt_ofNat_of_lt hn, Int.toNat_natCast]; omega
  unfold gatherPrice
  rw [gather_apply]
  refine congrArg (fun q : Fin 100 => pri (ix2 q c)) (Fin.ext ?_)
  show n = min _ 99
  rw [start_apply idx r 0 n hn hr]
  exact hmin.symm

end Cert.GatherEq

end
-- ==== Proof.KValue.lean ====
/-
  The kernel's three results as functions of the launch memory: each result buffer ends at what its region left in its
  output array; that array is the specification's function of the arrays the region found; and each of those is an
  argument as launched or a named sparse aggregate of the arguments. For the user table the price rows gathered per item
  come from the one-hot product, which is the host's gather where every price index lies in [0, 100).
-/
import proofs.«424989_j54769422959169_1_alg».proof.Proof.Region0
import proofs.«424989_j54769422959169_1_alg».proof.Proof.Region1
import proofs.«424989_j54769422959169_1_alg».proof.Proof.Region2
import proofs.«424989_j54769422959169_1_alg».proof.Proof.Region3
import proofs.«424989_j54769422959169_1_alg».proof.Proof.Walk1
import proofs.«424989_j54769422959169_1_alg».proof.Proof.Walk2
import proofs.«424989_j54769422959169_1_alg».proof.Proof.GatherEq

set_option maxRecDepth 16384

noncomputable section

namespace Cert.KernelIdeal.KValue

open Cert.KernelIdeal Cert.KernelIdeal.Gen Cert.ReferenceIdeal.Chains
open Idealize.ShloMosaic Idealize.ShloMosaic.TcCoe Idealize.ShloMosaic.ValueIdx Idealize.SL.Sem

variable (m : (ℓ : Loc nD τ sig) → Buf (Elt Ideal) ℓ) (ρ : Dev nD → PrngReg)

/-- The item table the kernel's run ends with, as a function of the launch memory. -/
def itemOf (c : Dev nD) : S100000x128.Idx → EReal :=
  Cert.Spec.itemFn (m ((c : Thread nD τ).loc main_arg0))
    (spmmVp (F := Ideal) (m ((c : Thread nD τ).loc main_arg6)) (m ((c : Thread nD τ).loc main_arg7)) (m ((c : Thread nD τ).loc main_arg8)) (m ((c : Thread nD τ).loc main_arg1)))
    (spmmAdj (F := Ideal) (m ((c : Thread nD τ).loc main_arg3)) (m ((c : Thread nD τ).loc main_arg4)) (m ((c : Thread nD τ).loc main_arg5)) (m ((c : Thread nD τ).loc main_arg0)))
    (alphaVu (F := Ideal) (m ((c : Thread nD τ).loc main_arg9)) (m ((c : Thread nD τ).loc main_arg10)) (m ((c : Thread nD τ).loc main_arg11)) (m ((c : Thread nD τ).loc main_arg2)))
    (m ((c : Thread nD τ).loc main_arg19)) (((m ((c : Thread nD τ).loc main_arg32)) : S_.Idx → EReal) ix0)
    (transpose S256x128 [1, 0] ((m ((c : Thread nD τ).loc main_arg22)) : S128x256.Idx → EReal) transposes_S128x256_S256x128_1_0) (m ((c : Thread nD τ).loc main_arg23))
    (transpose S128x128 [1, 0] ((m ((c : Thread nD τ).loc main_arg24)) : S128x128.Idx → EReal) transposes_S128x128_S128x128_1_0) (m ((c : Thread nD τ).loc main_arg25))

/-- The price table the kernel's run ends with. -/
def priceOf (c : Dev nD) : S100x128.Idx → EReal :=
  Cert.Spec.priceFn (m ((c : Thread nD τ).loc main_arg1))
    (alphaPv (F := Ideal) (m ((c : Thread nD τ).loc main_arg12)) (m ((c : Thread nD τ).loc main_arg13)) (m ((c : Thread nD τ).loc main_arg14)) (m ((c : Thread nD τ).loc main_arg0)))
    (m ((c : Thread nD τ).loc main_arg20))
    (transpose S256x128 [1, 0] ((m ((c : Thread nD τ).loc main_arg26)) : S128x256.Idx → EReal) transposes_S128x256_S256x128_1_0) (m ((c : Thread nD τ).loc main_arg27))
    (transpose S128x128 [1, 0] ((m ((c : Thread nD τ).loc main_arg28)) : S128x128.Idx → EReal) transposes_S128x128_S128x128_1_0) (m ((c : Thread nD τ).loc main_arg29))

/-- The user table the kernel's run ends with. -/
def userOf (c : Dev nD) : S40000x128.Idx → EReal :=
  Cert.Spec.userFn (Ideal.ofBits .f32 0x3F800000#32) (m ((c : Thread nD τ).loc main_arg2))
    (alphaUv (F := Ideal) (m ((c : Thread nD τ).loc main_arg15)) (m ((c : Thread nD τ).loc main_arg16)) (m ((c : Thread nD τ).loc main_arg17)) (m ((c : Thread nD τ).loc main_arg0)))
    (m ((c : Thread nD τ).loc main_arg21))
    (spmmUv (F := Ideal) (m ((c : Thread nD τ).loc main_arg15)) (m ((c : Thread nD τ).loc main_arg16)) (m ((c : Thread nD τ).loc main_arg17))
      (gatherPrice (F := Ideal) (m ((c : Thread nD τ).loc main_arg1)) (m ((c : Thread nD τ).loc main_arg18))))
    (transpose S384x128 [1, 0] ((m ((c : Thread nD τ).loc main_arg30)) : S128x384.Idx → EReal) transposes_S128x384_S384x128_1_0) (m ((c : Thread nD τ).loc main_arg31))

theorem item_end (c : Dev nD) : W10 m ρ c (Proc.devRef .tc main_v111) = itemOf m c := by
  rw [Cert.KernelIdeal.Walk.W10_item m ρ c]
  refine (Cert.KernelIdeal.Item.item_value (V5 m ρ) c).trans ?_
  unfold itemOf
  rw [Cert.KernelIdeal.Walk.V5_arg0, Cert.KernelIdeal.Walk.V5_v12, Cert.KernelIdeal.Walk.V5_v25, Cert.KernelIdeal.Walk.V5_v46,
    Cert.KernelIdeal.Walk.V5_arg19, Cert.KernelIdeal.Walk.V5_v110, Cert.KernelIdeal.Walk.V5_v107, Cert.KernelIdeal.Walk.V5_arg23,
    Cert.KernelIdeal.Walk.V5_v109, Cert.KernelIdeal.Walk.V5_arg25]

theorem price_end (c : Dev nD) : W10 m ρ c (Proc.devRef .tc main_v116) = priceOf m c := by
  rw [Cert.KernelIdeal.Walk.W10_price m ρ c]
  refine (Cert.KernelIdeal.Price.price_value (V7 m ρ) c).trans ?_
  unfold priceOf
  rw [Cert.KernelIdeal.Walk2.V7_arg1, Cert.KernelIdeal.Walk2.V7_v67, Cert.KernelIdeal.Walk2.V7_arg20, Cert.KernelIdeal.Walk2.V7_v113,
    Cert.KernelIdeal.Walk2.V7_arg27, Cert.KernelIdeal.Walk2.V7_v115, Cert.KernelIdeal.Walk2.V7_arg29]

theorem user_end (c : Dev nD)
    (hidx : ∀ r : Fin 100000, ∃ n : Nat, n < 100 ∧ ((m ((c : Thread nD τ).loc main_arg18)) : S100000.Idx → BitVec 32) (ix1 r) = BitVec.ofNat 32 n) :
    W10 m ρ c (Proc.devRef .tc main_v119) = userOf m c := by
  rw [Cert.KernelIdeal.Walk.W10_user m ρ c]
  refine (Cert.KernelIdeal.User.user_value (V9 m ρ) c).trans ?_
  unfold userOf
  rw [Cert.KernelIdeal.Walk2.V9_arg2, Cert.KernelIdeal.Walk2.V9_v88, Cert.KernelIdeal.Walk2.V9_arg21, Cert.KernelIdeal.Walk2.V9_v105,
    Cert.KernelIdeal.Walk2.V9_v118, Cert.KernelIdeal.Walk2.V9_arg31, Cert.KernelIdeal.Gather.gather_value (V3 m ρ) c,
    Cert.GatherEq.onehot_eq_gather (m ((c : Thread nD τ).loc main_arg1)) (m ((c : Thread nD τ).loc main_arg18)) (V3 m ρ c main_v90) (V3 m ρ c main_v91) hidx
      (fun k j hk => Cert.KernelIdeal.Walk2.V3_v90 m ρ c k j hk) (fun r => Cert.KernelIdeal.Walk2.V3_v91 m ρ c r)]

end Cert.KernelIdeal.KValue

end
-- ==== Proof.RefIP.lean ====
/-
  The reference's item and price results, read at an index: each is the specification's function of the arguments and of
  the named sparse aggregates. The reference spells the logistic function as 1 / (1 + exp(−x)) in host operations and
  its linear layers as a dot_general against the transposed matrix plus the broadcast bias; at the ideal instance these
  are the specification's logistic and its sum over the contracted column.
-/
import proofs.«424989_j54769422959169_1_alg».proof.Proof.Gen.ReferenceIdeal.Run
import proofs.«424989_j54769422959169_1_alg».proof.Proof.Chains
import proofs.«424989_j54769422959169_1_alg».proof.Proof.Spec
import Idealize.ShloMosaic.PureOps.Ideal.Laws
import Idealize.ShloMosaic.Lib.IdealHost
import Idealize.ShloMosaic.Lib.KernelVsHost
import Idealize.ShloMosaic.Lib.Pipeline.Value
import Idealize.ShloMosaic.Lib.ValueIdx
import Idealize.ShloMosaic.Lib.ValueLayout

set_option maxRecDepth 16384

noncomputable section

open scoped BigOperators

namespace Cert.ReferenceIdeal.RefIP

open Cert.ReferenceIdeal Cert.ReferenceIdeal.Gen Cert.ReferenceIdeal.Value Cert.ReferenceIdeal.Chains
open Idealize.ShloMosaic Idealize.ShloMosaic.TcCoe Idealize.ShloMosaic.ValueIdx Idealize.ShloMosaic.StableHlo Idealize.SL.Sem

/-! ## Layout operations read at an index -/

/-- Two 128-column tables joined along the columns are the specification's side-by-side table. -/
theorem cat2_eq {A : Nat}
    (h : Shape.Concatenates [(⟨2, ![A, 128]⟩ : Shape), (⟨2, ![A, 128]⟩ : Shape)] (⟨2, ![A, 256]⟩ : Shape) 1)
    (a b : Cert.Spec.Arr A 128) :
    concatenate (⟨2, ![A, 256]⟩ : Shape) 1 [⟨(⟨2, ![A, 128]⟩ : Shape), a⟩, ⟨(⟨2, ![A, 128]⟩ : Shape), b⟩] h
      = Cert.Spec.cat2 a b := by
  funext i
  obtain ⟨r, k, rfl⟩ : ∃ (r : Fin A) (k : Fin 256), i = ix2 r k := ⟨i 0, i 1, eq_ix2 i⟩
  unfold Cert.Spec.cat2
  by_cases hk : k.val < 128
  · rw [dif_pos (show ((ix2 r k : (⟨2, ![A, 256]⟩ : Shape).Idx) 1).val < 128 from hk)]
    refine concatenate_pair_apply_left 1 a b h (ix2 r k) rfl _ ?_
    intro c
    match c with
    | ⟨0, _⟩ => rfl
    | ⟨1, _⟩ => rfl
  · rw [dif_neg (show ¬((ix2 r k : (⟨2, ![A, 256]⟩ : Shape).Idx) 1).val < 128 from hk)]
    refine concatenate_pair_apply_right 1 a b h (ix2 r k) rfl rfl _ ?_ ?_
    · intro c hc
      match c, hc with
      | ⟨0, _⟩, _ => rfl
      | ⟨1, _⟩, hc => exact absurd rfl hc
    · show (k.val - 128) + 128 = k.val
      omega

/-- A one-column table broadcast along 128 columns reads its column in every column. -/
theorem col_apply {A : Nat} (h : (⟨2, ![A, 1]⟩ : Shape).BroadcastsInDim (⟨2, ![A, 128]⟩ : Shape) ![0, 1])
    (m : Cert.Spec.Arr A 1) (r : Fin A) (j : Fin 128) :
    broadcastInDim (⟨2, ![A, 128]⟩ : Shape) ![0, 1] h m (ix2 r j) = m (ix2 r 0) := by
  refine broadcastInDim_apply ![0, 1] h m (ix2 r j) (ix2 r 0) ?_
  intro a
  match a with
  | ⟨0, _⟩ =>
    show r.val = if A = 1 then 0 else r.val
    split_ifs with hA
    · have := r.isLt; omega
    · rfl
  | ⟨1, _⟩ =>
    show (0 : ℕ) = if (1 : ℕ) = 1 then 0 else _
    simp

/-- The bias, made a one-row matrix and broadcast down the rows, reads the bias at the column. -/
theorem bias_apply {A : Nat} (h1 : (⟨2, ![1, 128]⟩ : Shape).BroadcastsInDim (⟨2, ![A, 128]⟩ : Shape) ![0, 1])
    (h2 : (⟨1, ![128]⟩ : Shape).BroadcastsInDim (⟨2, ![1, 128]⟩ : Shape) ![1])
    (b : Cert.Spec.Vec1 128) (r : Fin A) (j : Fin 128) :
    broadcastInDim (⟨2, ![A, 128]⟩ : Shape) ![0, 1] h1 (broadcastInDim (⟨2, ![1, 128]⟩ : Shape) ![1] h2 b) (ix2 r j)
      = b (ix1 j) := by
  refine (broadcastInDim_oneRow_apply h1 _ r j).trans ?_
  refine broadcastInDim_apply ![1] h2 b (ix2 (0 : Fin 1) j) (ix1 j) ?_
  intro a
  match a with
  | ⟨0, _⟩ =>
    show j.val = if (128 : ℕ) = 1 then 0 else j.val
    rw [if_neg (by decide)]

/-! ## The linear layers -/

/-! ### The contraction `[100000, 256] · [256, 128]`: operand indices at an output index and a contraction position -/

theorem lhs_ia_0 (i : S100000x128.Idx) (q : dot_S100000x256_S256x128_S100000x128_1_0_0_1_n_n.contr.Idx) :
    (dot_S100000x256_S256x128_S100000x128_1_0_0_1_n_n.lhsIdx i q 0).val = (i 0).val := by
  unfold DotDims.lhsIdx
  rw [dif_neg (show ¬(0 : Fin S100000x256.rank) ∈ dot_S100000x256_S256x128_S100000x128_1_0_0_1_n_n.lhsBatch by decide), dif_pos (show (0 : Fin S100000x256.rank) ∈ dot_S100000x256_S256x128_S100000x128_1_0_0_1_n_n.lhsNonContracting by decide)]
  rfl

theorem lhs_ia_1 (i : S100000x128.Idx) (q : dot_S100000x256_S256x128_S100000x128_1_0_0_1_n_n.contr.Idx) :
    (dot_S100000x256_S256x128_S100000x128_1_0_0_1_n_n.lhsIdx i q 1).val = (q ⟨0, by decide⟩).val :=
  dot_S100000x256_S256x128_S100000x128_1_0_0_1_n_n.lhsIdx_val_of_single rfl i q

theorem rhs_ia_0 (i : S100000x128.Idx) (q : dot_S100000x256_S256x128_S100000x128_1_0_0_1_n_n.contr.Idx) :
    (dot_S100000x256_S256x128_S100000x128_1_0_0_1_n_n.rhsIdx i q 0).val = (q ⟨0, by decide⟩).val :=
  dot_S100000x256_S256x128_S100000x128_1_0_0_1_n_n.rhsIdx_val_of_single rfl i q

theorem rhs_ia_1 (i : S100000x128.Idx) (q : dot_S100000x256_S256x128_S100000x128_1_0_0_1_n_n.contr.Idx) :
    (dot_S100000x256_S256x128_S100000x128_1_0_0_1_n_n.rhsIdx i q 1).val = (i 1).val := by
  unfold DotDims.rhsIdx
  rw [dif_neg (show ¬(1 : Fin S256x128.rank) ∈ dot_S100000x256_S256x128_S100000x128_1_0_0_1_n_n.rhsBatch by decide), dif_pos (show (1 : Fin S256x128.rank) ∈ dot_S100000x256_S256x128_S100000x128_1_0_0_1_n_n.rhsNonContracting by decide)]
  rfl

/-- The linear layer: the product against the transposed matrix plus the broadcast bias is the specification's. -/
theorem lin_ia (X : Cert.Spec.Arr 100000 256) (WT : Cert.Spec.Arr 256 128) (b : Cert.Spec.Vec1 128) (r : Fin 100000) (j : Fin 128) :
    addf (F := Ideal) (φ := .f32) (Host.dotGeneral (F := Ideal) (φ₁ := .f32) (φ₂ := .f32) dot_S100000x256_S256x128_S100000x128_1_0_0_1_n_n none X WT)
        (broadcastInDim S100000x128 ![0, 1] bcast_S1x128_S100000x128_0_1 (broadcastInDim S1x128 ![1] bcast_S128_S1x128_1 b)) (ix2 r j)
      = Cert.Spec.lin X WT b (ix2 r j) := by
  show (Host.dotGeneral (F := Ideal) (φ₁ := .f32) (φ₂ := .f32) dot_S100000x256_S256x128_S100000x128_1_0_0_1_n_n none X WT (ix2 r j) : EReal) + _
    = (∑ k : Fin 256, X (ix2 r k) * WT (ix2 k j)) + b (ix1 j)
  simp only [Host.dotGeneral]
  rw [bias_apply, Ideal.dotGeneral_apply, ← Equiv.sum_comp (contrEquiv1 dot_S100000x256_S256x128_S100000x128_1_0_0_1_n_n 256 rfl rfl).symm]
  refine congrArg (· + b (ix1 j)) (Finset.sum_congr rfl fun k _ => ?_)
  have hk := contrEquiv1_symm_val dot_S100000x256_S256x128_S100000x128_1_0_0_1_n_n 256 rfl rfl k
  have el : dot_S100000x256_S256x128_S100000x128_1_0_0_1_n_n.lhsIdx (ix2 r j) ((contrEquiv1 dot_S100000x256_S256x128_S100000x128_1_0_0_1_n_n 256 rfl rfl).symm k) = ix2 r k :=
    funext fun a => Fin.ext (by
      match a with
      | ⟨0, _⟩ => exact lhs_ia_0 _ _
      | ⟨1, _⟩ => exact (lhs_ia_1 _ _).trans hk)
  have er : dot_S100000x256_S256x128_S100000x128_1_0_0_1_n_n.rhsIdx (ix2 r j) ((contrEquiv1 dot_S100000x256_S256x128_S100000x128_1_0_0_1_n_n 256 rfl rfl).symm k) = ix2 k j :=
    funext fun a => Fin.ext (by
      match a with
      | ⟨0, _⟩ => exact (rhs_ia_0 _ _).trans hk
      | ⟨1, _⟩ => exact rhs_ia_1 _ _)
  rw [el, er]

/-! ### The contraction `[100000, 128] · [128, 128]`: operand indices at an output index and a contraction position -/

theorem lhs_ib_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl

theorem lhs_ib_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q

theorem rhs_ib_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q

theorem rhs_ib_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The linear layer: the product against the transposed matrix plus the broadcast bias is the specification's. -/
theorem lin_ib (X : Cert.Spec.Arr 100000 128) (WT : Cert.Spec.Arr 128 128) (b : Cert.Spec.Vec1 128) (r : Fin 100000) (j : Fin 128) :
    addf (F := Ideal) (φ := .f32) (Host.dotGeneral (F := Ideal) (φ₁ := .f32) (φ₂ := .f32) dot_S100000x128_S128x128_S100000x128_1_0_0_1_n_n none X WT)
        (broadcastInDim S100000x128 ![0, 1] bcast_S1x128_S100000x128_0_1 (broadcastInDim S1x128 ![1] bcast_S128_S1x128_1 b)) (ix2 r j)
      = Cert.Spec.lin X WT b (ix2 r j) := by
  show (Host.dotGeneral (F := Ideal) (φ₁ := .f32) (φ₂ := .f32) dot_S100000x128_S128x128_S100000x128_1_0_0_1_n_n none X WT (ix2 r j) : EReal) + _
    = (∑ k : Fin 128, X (ix2 r k) * WT (ix2 k j)) + b (ix1 j)
  simp only [Host.dotGeneral]
  rw [bias_apply, Ideal.dotGeneral_apply, ← Equiv.sum_comp (contrEquiv1 dot_S100000x128_S128x128_S100000x128_1_0_0_1_n_n 128 rfl rfl).symm]
  refine congrArg (· + b (ix1 j)) (Finset.sum_congr rfl fun k _ => ?_)
  have hk := contrEquiv1_symm_val dot_S100000x128_S128x128_S100000x128_1_0_0_1_n_n 128 rfl rfl k
  have el : dot_S100000x128_S128x128_S100000x128_1_0_0_1_n_n.lhsIdx (ix2 r j) ((contrEquiv1 dot_S100000x128_S128x128_S100000x128_1_0_0_1_n_n 128 rfl rfl).symm k) = ix2 r k :=
    funext fun a => Fin.ext (by
      match a with
      | ⟨0, _⟩ => exact lhs_ib_0 _ _
      | ⟨1, _⟩ => exact (lhs_ib_1 _ _).trans hk)
  have er : dot_S100000x128_S128x128_S100000x128_1_0_0_1_n_n.rhsIdx (ix2 r j) ((contrEquiv1 dot_S100000x128_S128x128_S100000x128_1_0_0_1_n_n 128 rfl rfl).symm k) = ix2 k j :=
    funext fun a => Fin.ext (by
      match a with
      | ⟨0, _⟩ => exact (rhs_ib_0 _ _).trans hk
      | ⟨1, _⟩ => exact rhs_ib_1 _ _)
  rw [el, er]

/-! ### The contraction `[100, 256] · [256, 128]`: operand indices at an output index and a contraction position -/

theorem lhs_pa_0 (i : S100x128.Idx) (q : dot_S100x256_S256x128_S100x128_1_0_0_1_n_n.contr.Idx) :
    (dot_S100x256_S256x128_S100x128_1_0_0_1_n_n.lhsIdx i q 0).val = (i 0).val := by
  unfold DotDims.lhsIdx
  rw [dif_neg (show ¬(0 : Fin S100x256.rank) ∈ dot_S100x256_S256x128_S100x128_1_0_0_1_n_n.lhsBatch by decide), dif_pos (show (0 : Fin S100x256.rank) ∈ dot_S100x256_S256x128_S100x128_1_0_0_1_n_n.lhsNonContracting by decide)]
  rfl

theorem lhs_pa_1 (i : S100x128.Idx) (q : dot_S100x256_S256x128_S100x128_1_0_0_1_n_n.contr.Idx) :
    (dot_S100x256_S256x128_S100x128_1_0_0_1_n_n.lhsIdx i q 1).val = (q ⟨0, by decide⟩).val :=
  dot_S100x256_S256x128_S100x128_1_0_0_1_n_n.lhsIdx_val_of_single rfl i q

theorem rhs_pa_0 (i : S100x128.Idx) (q : dot_S100x256_S256x128_S100x128_1_0_0_1_n_n.contr.Idx) :
    (dot_S100x256_S256x128_S100x128_1_0_0_1_n_n.rhsIdx i q 0).val = (q ⟨0, by decide⟩).val :=
  dot_S100x256_S256x128_S100x128_1_0_0_1_n_n.rhsIdx_val_of_single rfl i q

theorem rhs_pa_1 (i : S100x128.Idx) (q : dot_S100x256_S256x128_S100x128_1_0_0_1_n_n.contr.Idx) :
    (dot_S100x256_S256x128_S100x128_1_0_0_1_n_n.rhsIdx i q 1).val = (i 1).val := by
  unfold DotDims.rhsIdx
  rw [dif_neg (show ¬(1 : Fin S256x128.rank) ∈ dot_S100x256_S256x128_S100x128_1_0_0_1_n_n.rhsBatch by decide), dif_pos (show (1 : Fin S256x128.rank) ∈ dot_S100x256_S256x128_S100x128_1_0_0_1_n_n.rhsNonContracting by decide)]
  rfl

/-- The linear layer: the product against the transposed matrix plus the broadcast bias is the specification's. -/
theorem lin_pa (X : Cert.Spec.Arr 100 256) (WT : Cert.Spec.Arr 256 128) (b : Cert.Spec.Vec1 128) (r : Fin 100) (j : Fin 128) :
    addf (F := Ideal) (φ := .f32) (Host.dotGeneral (F := Ideal) (φ₁ := .f32) (φ₂ := .f32) dot_S100x256_S256x128_S100x128_1_0_0_1_n_n none X WT)
        (broadcastInDim S100x128 ![0, 1] bcast_S1x128_S100x128_0_1 (broadcastInDim S1x128 ![1] bcast_S128_S1x128_1 b)) (ix2 r j)
      = Cert.Spec.lin X WT b (ix2 r j) := by
  show (Host.dotGeneral (F := Ideal) (φ₁ := .f32) (φ₂ := .f32) dot_S100x256_S256x128_S100x128_1_0_0_1_n_n none X WT (ix2 r j) : EReal) + _
    = (∑ k : Fin 256, X (ix2 r k) * WT (ix2 k j)) + b (ix1 j)
  simp only [Host.dotGeneral]
  rw [bias_apply, Ideal.dotGeneral_apply, ← Equiv.sum_comp (contrEquiv1 dot_S100x256_S256x128_S100x128_1_0_0_1_n_n 256 rfl rfl).symm]
  refine congrArg (· + b (ix1 j)) (Finset.sum_congr rfl fun k _ => ?_)
  have hk := contrEquiv1_symm_val dot_S100x256_S256x128_S100x128_1_0_0_1_n_n 256 rfl rfl k
  have el : dot_S100x256_S256x128_S100x128_1_0_0_1_n_n.lhsIdx (ix2 r j) ((contrEquiv1 dot_S100x256_S256x128_S100x128_1_0_0_1_n_n 256 rfl rfl).symm k) = ix2 r k :=
    funext fun a => Fin.ext (by
      match a with
      | ⟨0, _⟩ => exact lhs_pa_0 _ _
      | ⟨1, _⟩ => exact (lhs_pa_1 _ _).trans hk)
  have er : dot_S100x256_S256x128_S100x128_1_0_0_1_n_n.rhsIdx (ix2 r j) ((contrEquiv1 dot_S100x256_S256x128_S100x128_1_0_0_1_n_n 256 rfl rfl).symm k) = ix2 k j :=
    funext fun a => Fin.ext (by
      match a with
      | ⟨0, _⟩ => exact (rhs_pa_0 _ _).trans hk
      | ⟨1, _⟩ => exact rhs_pa_1 _ _)
  rw [el, er]

/-! ### The contraction `[100, 128] · [128, 128]`: operand indices at an output index and a contraction position -/

theorem lhs_pb_0 (i : S100x128.Idx) (q : dot_S100x128_S128x128_S100x128_1_0_0_1_n_n.contr.Idx) :
    (dot_S100x128_S128x128_S100x128_1_0_0_1_n_n.lhsIdx i q 0).val = (i 0).val := by
  unfold DotDims.lhsIdx
  rw [dif_neg (show ¬(0 : Fin S100x128.rank) ∈ dot_S100x128_S128x128_S100x128_1_0_0_1_n_n.lhsBatch by decide), dif_pos (show (0 : Fin S100x128.rank) ∈ dot_S100x128_S128x128_S100x128_1_0_0_1_n_n.lhsNonContracting by decide)]
  rfl

theorem lhs_pb_1 (i : S100x128.Idx) (q : dot_S100x128_S128x128_S100x128_1_0_0_1_n_n.contr.Idx) :
    (dot_S100x128_S128x128_S100x128_1_0_0_1_n_n.lhsIdx i q 1).val = (q ⟨0, by decide⟩).val :=
  dot_S100x128_S128x128_S100x128_1_0_0_1_n_n.lhsIdx_val_of_single rfl i q

theorem rhs_pb_0 (i : S100x128.Idx) (q : dot_S100x128_S128x128_S100x128_1_0_0_1_n_n.contr.Idx) :
    (dot_S100x128_S128x128_S100x128_1_0_0_1_n_n.rhsIdx i q 0).val = (q ⟨0, by decide⟩).val :=
  dot_S100x128_S128x128_S100x128_1_0_0_1_n_n.rhsIdx_val_of_single rfl i q

theorem rhs_pb_1 (i : S100x128.Idx) (q : dot_S100x128_S128x128_S100x128_1_0_0_1_n_n.contr.Idx) :
    (dot_S100x128_S128x128_S100x128_1_0_0_1_n_n.rhsIdx i q 1).val = (i 1).val := by
  unfold DotDims.rhsIdx
  rw [dif_neg (show ¬(1 : Fin S128x128.rank) ∈ dot_S100x128_S128x128_S100x128_1_0_0_1_n_n.rhsBatch by decide), dif_pos (show (1 : Fin S128x128.rank) ∈ dot_S100x128_S128x128_S100x128_1_0_0_1_n_n.rhsNonContracting by decide)]
  rfl

/-- The linear layer: the product against the transposed matrix plus the broadcast bias is the specification's. -/
theorem lin_pb (X : Cert.Spec.Arr 100 128) (WT : Cert.Spec.Arr 128 128) (b : Cert.Spec.Vec1 128) (r : Fin 100) (j : Fin 128) :
    addf (F := Ideal) (φ := .f32) (Host.dotGeneral (F := Ideal) (φ₁ := .f32) (φ₂ := .f32) dot_S100x128_S128x128_S100x128_1_0_0_1_n_n none X WT)
        (broadcastInDim S100x128 ![0, 1] bcast_S1x128_S100x128_0_1 (broadcastInDim S1x128 ![1] bcast_S128_S1x128_1 b)) (ix2 r j)
      = Cert.Spec.lin X WT b (ix2 r j) := by
  show (Host.dotGeneral (F := Ideal) (φ₁ := .f32) (φ₂ := .f32) dot_S100x128_S128x128_S100x128_1_0_0_1_n_n none X WT (ix2 r j) : EReal) + _
    = (∑ k : Fin 128, X (ix2 r k) * WT (ix2 k j)) + b (ix1 j)
  simp only [Host.dotGeneral]
  rw [bias_apply, Ideal.dotGeneral_apply, ← Equiv.sum_comp (contrEquiv1 dot_S100x128_S128x128_S100x128_1_0_0_1_n_n 128 rfl rfl).symm]
  refine congrArg (· + b (ix1 j)) (Finset.sum_congr rfl fun k _ => ?_)
  have hk := contrEquiv1_symm_val dot_S100x128_S128x128_S100x128_1_0_0_1_n_n 128 rfl rfl k
  have el : dot_S100x128_S128x128_S100x128_1_0_0_1_n_n.lhsIdx (ix2 r j) ((contrEquiv1 dot_S100x128_S128x128_S100x128_1_0_0_1_n_n 128 rfl rfl).symm k) = ix2 r k :=
    funext fun a => Fin.ext (by
      match a with
      | ⟨0, _⟩ => exact lhs_pb_0 _ _
      | ⟨1, _⟩ => exact (lhs_pb_1 _ _).trans hk)
  have er : dot_S100x128_S128x128_S100x128_1_0_0_1_n_n.rhsIdx (ix2 r j) ((contrEquiv1 dot_S100x128_S128x128_S100x128_1_0_0_1_n_n 128 rfl rfl).symm k) = ix2 k j :=
    funext fun a => Fin.ext (by
      match a with
      | ⟨0, _⟩ => exact (rhs_pb_0 _ _).trans hk
      | ⟨1, _⟩ => exact rhs_pb_1 _ _)
  rw [el, er]

/-! ## The gate -/

/-- The reference's spelling of the logistic function, `1 / (1 + exp(−x))` with the constant one broadcast, around the
    sum of two pre-activations: at an index it is the logistic function of the two values' sum. -/
theorem sig_apply {s : Shape} (hb : (⟨0, ![]⟩ : Shape).BroadcastsInDim s ![]) (X1 X2 : FVec Ideal s .f32) (i : s.Idx)
    (l1 l2 : EReal) (h1 : X1 i = l1) (h2 : X2 i = l2) :
    Host.divf (broadcastInDim s ![] hb (constant (F := Ideal) (⟨0, ![]⟩ : Shape) .f32 0x3F800000#32))
      (addf (broadcastInDim s ![] hb (constant (F := Ideal) (⟨0, ![]⟩ : Shape) .f32 0x3F800000#32))
        (Host.exp (Host.negf (addf X1 X2)))) i
      = Ideal.logistic (l1 + l2) := by
  subst h1 h2
  show Ideal.div (Ideal.ofBits .f32 0x3F800000#32) (Ideal.ofBits .f32 0x3F800000#32 + Ideal.exp (-(X1 i + X2 i))) = _
  rw [Ideal.ofBits_one_f32]
  rfl

/-- The gate of two tables of height 100000, as the reference computes it, is the specification's. -/
theorem gate_i (E P : FVec Ideal S100000x128 .f32) (WaT : FVec Ideal S256x128 .f32) (ba : FVec Ideal S128 .f32)
    (WbT : FVec Ideal S128x128 .f32) (bb : FVec Ideal S128 .f32) :
    addf E (mulf (Host.divf (broadcastInDim S100000x128 ![] bcast_S_S100000x128 (constant (F := Ideal) S_ .f32 0x3F800000#32))
      (addf (broadcastInDim S100000x128 ![] bcast_S_S100000x128 (constant (F := Ideal) S_ .f32 0x3F800000#32))
        (Host.exp (Host.negf (addf
          (addf (Host.dotGeneral dot_S100000x256_S256x128_S100000x128_1_0_0_1_n_n none
              (concatenate S100000x256 1 [⟨S100000x128, E⟩, ⟨S100000x128, P⟩] concatenates_S100000x128_S100000x128_S100000x256_d1) WaT)
            (broadcastInDim S100000x128 ![0, 1] bcast_S1x128_S100000x128_0_1 (broadcastInDim S1x128 ![1] bcast_S128_S1x128_1 ba)))
          (addf (Host.dotGeneral dot_S100000x128_S128x128_S100000x128_1_0_0_1_n_n none E WbT)
            (broadcastInDim S100000x128 ![0, 1] bcast_S1x128_S100000x128_0_1 (broadcastInDim S1x128 ![1] bcast_S128_S1x128_1 bb)))))))) P)
      = Cert.Spec.interGate E P WaT ba WbT bb := by
  funext i
  obtain ⟨r, j, rfl⟩ : ∃ (r : Fin 100000) (j : Fin 128), i = ix2 r j := ⟨i 0, i 1, eq_ix2 i⟩
  unfold Cert.Spec.interGate
  simp only [addf_apply, mulf_apply]
  rw [sig_apply _ _ _ (ix2 r j) _ _ (lin_ia _ _ _ r j) (lin_ib _ _ _ r j), cat2_eq]

/-- The gate of two tables of height 100, as the reference computes it, is the specification's. -/
theorem gate_p (E P : FVec Ideal S100x128 .f32) (WaT : FVec Ideal S256x128 .f32) (ba : FVec Ideal S128 .f32)
    (WbT : FVec Ideal S128x128 .f32) (bb : FVec Ideal S128 .f32) :
    addf E (mulf (Host.divf (broadcastInDim S100x128 ![] bcast_S_S100x128 (constant (F := Ideal) S_ .f32 0x3F800000#32))
      (addf (broadcastInDim S100x128 ![] bcast_S_S100x128 (constant (F := Ideal) S_ .f32 0x3F800000#32))
        (Host.exp (Host.negf (addf
          (addf (Host.dotGeneral dot_S100x256_S256x128_S100x128_1_0_0_1_n_n none
              (concatenate S100x256 1 [⟨S100x128, E⟩, ⟨S100x128, P⟩] concatenates_S100x128_S100x128_S100x256_d1) WaT)
            (broadcastInDim S100x128 ![0, 1] bcast_S1x128_S100x128_0_1 (broadcastInDim S1x128 ![1] bcast_S128_S1x128_1 ba)))
          (addf (Host.dotGeneral dot_S100x128_S128x128_S100x128_1_0_0_1_n_n none E WbT)
            (broadcastInDim S100x128 ![0, 1] bcast_S1x128_S100x128_0_1 (broadcastInDim S1x128 ![1] bcast_S128_S1x128_1 bb)))))))) P)
      = Cert.Spec.interGate E P WaT ba WbT bb := by
  funext i
  obtain ⟨r, j, rfl⟩ : ∃ (r : Fin 100) (j : Fin 128), i = ix2 r j := ⟨i 0, i 1, eq_ix2 i⟩
  unfold Cert.Spec.interGate
  simp only [addf_apply, mulf_apply]
  rw [sig_apply _ _ _ (ix2 r j) _ _ (lin_pa _ _ _ r j) (lin_pb _ _ _ r j), cat2_eq]

/-- A table times its one-column companion broadcast along the columns is the table scaled row by row. -/
theorem scaled_eq {A : Nat} (h : (⟨2, ![A, 1]⟩ : Shape).BroadcastsInDim (⟨2, ![A, 128]⟩ : Shape) ![0, 1])
    (a : FVec Ideal (⟨2, ![A, 128]⟩ : Shape) .f32) (m : FVec Ideal (⟨2, ![A, 1]⟩ : Shape) .f32) :
    mulf a (broadcastInDim (⟨2, ![A, 128]⟩ : Shape) ![0, 1] h m) = Cert.Spec.scaled a m := by
  funext i
  obtain ⟨r, j, rfl⟩ : ∃ (r : Fin A) (j : Fin 128), i = ix2 r j := ⟨i 0, i 1, eq_ix2 i⟩
  show a (ix2 r j) * broadcastInDim (⟨2, ![A, 128]⟩ : Shape) ![0, 1] h m (ix2 r j) = a (ix2 r j) * m (ix2 r 0)
  rw [col_apply]

/-! ## The two results -/

/-- The item result's outer sums at an index: the gate, plus the adjacency aggregate, plus the broadcast scalar times
    the scaled user aggregate. -/
theorem item_tail (G ADJ AVU : FVec Ideal S100000x128 .f32) (M : FVec Ideal S100000x1 .f32) (LAM : FVec Ideal S_ .f32)
    (i : S100000x128.Idx) :
    addf (addf G ADJ)
        (mulf (broadcastInDim S100000x128 ![] bcast_S_S100000x128 LAM)
          (mulf AVU (broadcastInDim S100000x128 ![0, 1] bcast_S100000x1_S100000x128_0_1 M))) i
      = G i + ADJ i + LAM ix0 * Cert.Spec.scaled AVU M i := by
  rw [scaled_eq]
  show G i + ADJ i + broadcastInDim S100000x128 ![] bcast_S_S100000x128 LAM i * Cert.Spec.scaled AVU M i = _
  rw [broadcastInDim_scalar_apply]
/- The reference's buffer contents at launch, at the ideal instance. -/
variable (V0 : Valuation τ sig (Elt Ideal))

theorem ref_item :
    (val4 V0 (Proc.devRef .tc main_v72) : S100000x128.Idx → EReal)
      = Cert.Spec.itemFn (V0 (Proc.devRef .tc main_arg0))
          (spmmVp (F := Ideal) (V0 (Proc.devRef .tc main_arg6)) (V0 (Proc.devRef .tc main_arg7)) (V0 (Proc.devRef .tc main_arg8)) (V0 (Proc.devRef .tc main_arg1)))
          (spmmAdj (F := Ideal) (V0 (Proc.devRef .tc main_arg3)) (V0 (Proc.devRef .tc main_arg4)) (V0 (Proc.devRef .tc main_arg5)) (V0 (Proc.devRef .tc main_arg0)))
          (alphaVu (F := Ideal) (V0 (Proc.devRef .tc main_arg9)) (V0 (Proc.devRef .tc main_arg10)) (V0 (Proc.devRef .tc main_arg11)) (V0 (Proc.devRef .tc main_arg2)))
          (V0 (Proc.devRef .tc main_arg19)) (((V0 (Proc.devRef .tc main_arg32)) : S_.Idx → EReal) ix0)
          (transpose S256x128 [1, 0] ((V0 (Proc.devRef .tc main_arg22)) : S128x256.Idx → EReal) transposes_S128x256_S256x128_1_0) (V0 (Proc.devRef .tc main_arg23))
          (transpose S128x128 [1, 0] ((V0 (Proc.devRef .tc main_arg24)) : S128x128.Idx → EReal) transposes_S128x128_S128x128_1_0) (V0 (Proc.devRef .tc main_arg25)) := by
  refine (val4_main_v72 V0).trans ?_
  rw [gate_i]
  funext i
  exact item_tail _ _ _ _ _ i

theorem ref_price :
    (val4 V0 (Proc.devRef .tc main_v115) : S100x128.Idx → EReal)
      = Cert.Spec.priceFn (V0 (Proc.devRef .tc main_arg1))
          (alphaPv (F := Ideal) (V0 (Proc.devRef .tc main_arg12)) (V0 (Proc.devRef .tc main_arg13)) (V0 (Proc.devRef .tc main_arg14)) (V0 (Proc.devRef .tc main_arg0)))
          (V0 (Proc.devRef .tc main_arg20))
          (transpose S256x128 [1, 0] ((V0 (Proc.devRef .tc main_arg26)) : S128x256.Idx → EReal) transposes_S128x256_S256x128_1_0) (V0 (Proc.devRef .tc main_arg27))
          (transpose S128x128 [1, 0] ((V0 (Proc.devRef .tc main_arg28)) : S128x128.Idx → EReal) transposes_S128x128_S128x128_1_0) (V0 (Proc.devRef .tc main_arg29)) := by
  refine (val4_main_v115 V0).trans ?_
  unfold res_main_v95
  rw [scaled_eq bcast_S100x1_S100x128_0_1, gate_p]
  rfl

end Cert.ReferenceIdeal.RefIP

end
-- ==== Proof.RefU.lean ====
/-
  The reference's user result, read at an index: the specification's blend of the user embedding and its scaled
  aggregate, by the gate over the user embedding, that aggregate and the price aggregate side by side. The price
  aggregate is the sparse product over the price rows gathered per item.
-/
import proofs.«424989_j54769422959169_1_alg».proof.Proof.Gen.ReferenceIdeal.Run
import proofs.«424989_j54769422959169_1_alg».proof.Proof.Chains
import proofs.«424989_j54769422959169_1_alg».proof.Proof.Spec
import Idealize.ShloMosaic.PureOps.Ideal.Laws
import Idealize.ShloMosaic.Lib.IdealHost
import Idealize.ShloMosaic.Lib.Pipeline.Value
import Idealize.ShloMosaic.Lib.ValueIdx
import Idealize.ShloMosaic.Lib.ValueLayout

set_option maxRecDepth 16384

noncomputable section

open scoped BigOperators

namespace Cert.ReferenceIdeal.RefU

open Cert.ReferenceIdeal Cert.ReferenceIdeal.Gen Cert.ReferenceIdeal.Value Cert.ReferenceIdeal.Chains
open Idealize.ShloMosaic Idealize.ShloMosaic.TcCoe Idealize.ShloMosaic.ValueIdx Idealize.ShloMosaic.StableHlo Idealize.SL.Sem

/- The reference's buffer contents at launch, at the ideal instance. -/
variable (V0 : Valuation τ sig (Elt Ideal))

/-! ## The scalar constant, the keepdims column and the bias row read at an index -/

/-- The broadcast scalar constant reads its value at every index. -/
theorem splat_apply (w : BitVec 32) (i : S40000x128.Idx) :
    broadcastInDim S40000x128 ![] bcast_S_S40000x128 (constant (F := Ideal) S_ .f32 w) i = Ideal.ofBits .f32 w := rfl

/-- A one-column table broadcast along the columns reads its row's one entry. -/
theorem colB_apply (m : S40000x1.Idx → EReal) (r : Fin 40000) (j : Fin 128) :
    broadcastInDim S40000x128 ![0, 1] bcast_S40000x1_S40000x128_0_1 m (ix2 r j) = m (ix2 r 0) := by
  refine broadcastInDim_apply _ _ _ _ _ fun a => ?_
  match a with
  | ⟨0, _⟩ => rfl
  | ⟨1, _⟩ => rfl

/-- The bias, broadcast to one row and then along the rows, reads its column's entry. -/
theorem bias_apply (b : S128.Idx → EReal) (r : Fin 40000) (j : Fin 128) :
    broadcastInDim S40000x128 ![0, 1] bcast_S1x128_S40000x128_0_1 (broadcastInDim S1x128 ![1] bcast_S128_S1x128_1 b) (ix2 r j)
      = b (ix1 j) := by
  rw [broadcastInDim_apply _ _ _ _ (ix2 (0 : Fin 1) j) fun a => by
    match a with
    | ⟨0, _⟩ => rfl
    | ⟨1, _⟩ => rfl]
  refine broadcastInDim_apply _ _ _ _ _ fun a => ?_
  match a with
  | ⟨0, _⟩ => rfl

/-! ## The three tables side by side -/

/-- The reference's three-piece concatenation along the columns is the specification's side-by-side table. -/
theorem cat3_apply (a b c : S40000x128.Idx → EReal) (r : Fin 40000) (k : Fin 384) :
    concatenate S40000x384 1 [⟨S40000x128, a⟩, ⟨S40000x128, b⟩, ⟨S40000x128, c⟩]
        concatenates_S40000x128_S40000x128_S40000x128_S40000x384_d1 (ix2 r k)
      = Cert.Spec.cat3 a b c (ix2 r k) := by
  unfold Cert.Spec.cat3
  by_cases h1 : k.val < 128
  · rw [dif_pos (show ((ix2 r k : S40000x384.Idx) 1).val < 128 from h1)]
    refine concatenate_apply_piece (1 : Fin S40000x384.rank) _ _ _ 0 (by simp) S40000x128 a rfl rfl 0 rfl _ ?_ ?_
    · intro b hb
      match b with
      | ⟨0, _⟩ => rfl
      | ⟨1, _⟩ => exact absurd rfl hb
    · exact Nat.zero_add _
  · by_cases h2 : k.val < 256
    · rw [dif_neg (show ¬((ix2 r k : S40000x384.Idx) 1).val < 128 from h1),
        dif_pos (show ((ix2 r k : S40000x384.Idx) 1).val < 256 from h2)]
      refine concatenate_apply_piece (1 : Fin S40000x384.rank) _ _ _ 1 (by simp) S40000x128 b rfl rfl 128 rfl _ ?_ ?_
      · intro b hb
        match b with
        | ⟨0, _⟩ => rfl
        | ⟨1, _⟩ => exact absurd rfl hb
      · show 128 + (k.val - 128) = k.val
        omega
    · rw [dif_neg (show ¬((ix2 r k : S40000x384.Idx) 1).val < 128 from h1),
        dif_neg (show ¬((ix2 r k : S40000x384.Idx) 1).val < 256 from h2)]
      refine concatenate_apply_piece (1 : Fin S40000x384.rank) _ _ _ 2 (by simp) S40000x128 c rfl rfl 256 rfl _ ?_ ?_
      · intro b hb
        match b with
        | ⟨0, _⟩ => rfl
        | ⟨1, _⟩ => exact absurd rfl hb
      · show 256 + (k.val - 256) = k.val
        have := k.isLt
        omega

/-! ## The linear layer's product: the operand indices axis by axis, then the sum over `Fin 384` -/

theorem lhs_U_0 (j : S40000x128.Idx) (k : dot_S40000x384_S384x128_S40000x128_1_0_0_1_n_n.contr.Idx) :
    (dot_S40000x384_S384x128_S40000x128_1_0_0_1_n_n.lhsIdx j k 0).val = (j 0).val := by
  unfold DotDims.lhsIdx
  rw [dif_neg (show ¬(0 : Fin S40000x384.rank) ∈ dot_S40000x384_S384x128_S40000x128_1_0_0_1_n_n.lhsBatch by decide),
    dif_pos (show (0 : Fin S40000x384.rank) ∈ dot_S40000x384_S384x128_S40000x128_1_0_0_1_n_n.lhsNonContracting by decide)]
  rfl

theorem lhs_U_1 (j : S40000x128.Idx) (k : dot_S40000x384_S384x128_S40000x128_1_0_0_1_n_n.contr.Idx) :
    (dot_S40000x384_S384x128_S40000x128_1_0_0_1_n_n.lhsIdx j k 1).val = (k ⟨0, by decide⟩).val :=
  dot_S40000x384_S384x128_S40000x128_1_0_0_1_n_n.lhsIdx_val_of_single (cl := 1) rfl j k

theorem rhs_U_0 (j : S40000x128.Idx) (k : dot_S40000x384_S384x128_S40000x128_1_0_0_1_n_n.contr.Idx) :
    (dot_S40000x384_S384x128_S40000x128_1_0_0_1_n_n.rhsIdx j k 0).val = (k ⟨0, by decide⟩).val :=
  dot_S40000x384_S384x128_S40000x128_1_0_0_1_n_n.rhsIdx_val_of_single (cr := 0) rfl j k

theorem rhs_U_1 (j : S40000x128.Idx) (k : dot_S40000x384_S384x128_S40000x128_1_0_0_1_n_n.contr.Idx) :
    (dot_S40000x384_S384x128_S40000x128_1_0_0_1_n_n.rhsIdx j k 1).val = (j 1).val := by
  unfold DotDims.rhsIdx
  rw [dif_neg (show ¬(1 : Fin S384x128.rank) ∈ dot_S40000x384_S384x128_S40000x128_1_0_0_1_n_n.rhsBatch by decide),
    dif_pos (show (1 : Fin S384x128.rank) ∈ dot_S40000x384_S384x128_S40000x128_1_0_0_1_n_n.rhsNonContracting by decide)]
  rfl

/-- The product at an index: the row of the left table against the column of the right one. -/
theorem dotU_apply (X : FVec Ideal S40000x384 .f32) (W : FVec Ideal S384x128 .f32) (r : Fin 40000) (j : Fin 128) :
    Host.dotGeneral dot_S40000x384_S384x128_S40000x128_1_0_0_1_n_n none X W (ix2 r j)
      = ∑ k : Fin 384, X (ix2 r k) * W (ix2 k j) := by
  simp only [Host.dotGeneral]
  rw [Ideal.dotGeneral_apply,
    ← Equiv.sum_comp (contrEquiv1 dot_S40000x384_S384x128_S40000x128_1_0_0_1_n_n 384 rfl rfl).symm]
  refine Finset.sum_congr rfl fun k _ => ?_
  have hk := contrEquiv1_symm_val dot_S40000x384_S384x128_S40000x128_1_0_0_1_n_n 384 rfl rfl k
  have hl : dot_S40000x384_S384x128_S40000x128_1_0_0_1_n_n.lhsIdx (ix2 r j)
      ((contrEquiv1 dot_S40000x384_S384x128_S40000x128_1_0_0_1_n_n 384 rfl rfl).symm k) = ix2 r k := by
    funext a
    refine Fin.ext ?_
    match a with
    | ⟨0, _⟩ => exact lhs_U_0 _ _
    | ⟨1, _⟩ => exact (lhs_U_1 _ _).trans hk
  have hr : dot_S40000x384_S384x128_S40000x128_1_0_0_1_n_n.rhsIdx (ix2 r j)
      ((contrEquiv1 dot_S40000x384_S384x128_S40000x128_1_0_0_1_n_n 384 rfl rfl).symm k) = ix2 k j := by
    funext a
    refine Fin.ext ?_
    match a with
    | ⟨0, _⟩ => exact (rhs_U_0 _ _).trans hk
    | ⟨1, _⟩ => exact rhs_U_1 _ _
  rw [hl, hr]

/-! ## The logistic function as the reference spells it -/

/-- One over one plus the exponential of the negation, with the f32 word of 1.0 for the ones, is the logistic function. -/
theorem logistic_apply (x : FVec Ideal S40000x128 .f32) (i : S40000x128.Idx) :
    Host.divf (broadcastInDim S40000x128 ![] bcast_S_S40000x128 (constant (F := Ideal) S_ .f32 0x3F800000#32))
        (addf (broadcastInDim S40000x128 ![] bcast_S_S40000x128 (constant (F := Ideal) S_ .f32 0x3F800000#32))
          (Host.exp (Host.negf x))) i
      = Ideal.logistic (x i) := by
  show Ideal.div (Ideal.ofBits .f32 0x3F800000#32) (Ideal.ofBits .f32 0x3F800000#32 + Ideal.exp (-(x i))) = _
  rw [Ideal.ofBits_one_f32]
  rfl

/-- The linear layer at an index. -/
theorem linU_apply (X : FVec Ideal S40000x384 .f32) (W : FVec Ideal S384x128 .f32) (b : FVec Ideal S128 .f32)
    (r : Fin 40000) (j : Fin 128) :
    addf (Host.dotGeneral dot_S40000x384_S384x128_S40000x128_1_0_0_1_n_n none X W)
        (broadcastInDim S40000x128 ![0, 1] bcast_S1x128_S40000x128_0_1 (broadcastInDim S1x128 ![1] bcast_S128_S1x128_1 b)) (ix2 r j)
      = Cert.Spec.lin X W b (ix2 r j) := by
  rw [addf_apply, dotU_apply, bias_apply]
  rfl

/-! ## The scaled aggregate and the gate -/

/-- The user aggregate times its keepdims column is the specification's row-scaled table. -/
theorem e_eq : (res_main_v158 V0 : S40000x128.Idx → EReal)
    = Cert.Spec.scaled (alphaUv (F := Ideal) (V0 (Proc.devRef .tc main_arg15)) (V0 (Proc.devRef .tc main_arg16)) (V0 (Proc.devRef .tc main_arg17)) (V0 (Proc.devRef .tc main_arg0)))
        (V0 (Proc.devRef .tc main_arg21)) := by
  funext i
  obtain ⟨r, j, rfl⟩ : ∃ (r : Fin 40000) (j : Fin 128), i = ix2 r j := ⟨i 0, i 1, eq_ix2 i⟩
  unfold res_main_v158 Cert.Spec.scaled Cert.Spec.colB
  rw [mulf_apply, colB_apply]
  rfl

/-- The gate at an index: the logistic function of the linear layer over the three tables side by side. -/
theorem g_apply (r : Fin 40000) (j : Fin 128) :
    (res_main_v170 V0 : S40000x128.Idx → EReal) (ix2 r j)
      = Ideal.logistic (Cert.Spec.lin
          (Cert.Spec.cat3 (V0 (Proc.devRef .tc main_arg2))
            (Cert.Spec.scaled (alphaUv (F := Ideal) (V0 (Proc.devRef .tc main_arg15)) (V0 (Proc.devRef .tc main_arg16)) (V0 (Proc.devRef .tc main_arg17)) (V0 (Proc.devRef .tc main_arg0)))
              (V0 (Proc.devRef .tc main_arg21)))
            (spmmUv (F := Ideal) (V0 (Proc.devRef .tc main_arg15)) (V0 (Proc.devRef .tc main_arg16)) (V0 (Proc.devRef .tc main_arg17)) (gatherPrice (F := Ideal) (V0 (Proc.devRef .tc main_arg1)) (V0 (Proc.devRef .tc main_arg18)))))
          (transpose S384x128 [1, 0] ((V0 (Proc.devRef .tc main_arg30)) : S128x384.Idx → EReal) transposes_S128x384_S384x128_1_0)
          (V0 (Proc.devRef .tc main_arg31)) (ix2 r j)) := by
  unfold res_main_v170 spmmUv gatherPrice
  rw [logistic_apply, linU_apply, e_eq]
  unfold Cert.Spec.lin
  refine congrArg Ideal.logistic (congrArg (· + _) (Finset.sum_congr rfl fun k _ => ?_))
  rw [cat3_apply]

theorem ref_user :
    (val4 V0 (Proc.devRef .tc main_v175) : S40000x128.Idx → EReal)
      = Cert.Spec.userFn (Ideal.ofBits .f32 0x3F800000#32) (V0 (Proc.devRef .tc main_arg2))
          (alphaUv (F := Ideal) (V0 (Proc.devRef .tc main_arg15)) (V0 (Proc.devRef .tc main_arg16)) (V0 (Proc.devRef .tc main_arg17)) (V0 (Proc.devRef .tc main_arg0)))
          (V0 (Proc.devRef .tc main_arg21))
          (spmmUv (F := Ideal) (V0 (Proc.devRef .tc main_arg15)) (V0 (Proc.devRef .tc main_arg16)) (V0 (Proc.devRef .tc main_arg17)) (gatherPrice (F := Ideal) (V0 (Proc.devRef .tc main_arg1)) (V0 (Proc.devRef .tc main_arg18))))
          (transpose S384x128 [1, 0] ((V0 (Proc.devRef .tc main_arg30)) : S128x384.Idx → EReal) transposes_S128x384_S384x128_1_0) (V0 (Proc.devRef .tc main_arg31)) := by
  refine (val4_main_v175 V0).trans ?_
  funext i
  obtain ⟨r, j, rfl⟩ : ∃ (r : Fin 40000) (j : Fin 128), i = ix2 r j := ⟨i 0, i 1, eq_ix2 i⟩
  rw [addf_apply, mulf_apply, mulf_apply, subf_apply, splat_apply, g_apply, e_eq]
  rfl

end Cert.ReferenceIdeal.RefU

end
-- ==== Proof.PreDecode.lean ====
/-
  The precondition's last conjunct, decoded: every item's price index is a number below 100.
-/
import proofs.«424989_j54769422959169_1_alg».proof.Defs
import proofs.«424989_j54769422959169_1_alg».proof.Proof.Gen.Pre_finite_inputs
import proofs.«424989_j54769422959169_1_alg».proof.Proof.Gen.KernelIdeal
import Idealize.ShloMosaic.Lib.ReduceAll
import Idealize.ShloMosaic.Lib.StableHlo.Predicate
import Idealize.ShloMosaic.Lib.ValueIdx

set_option maxRecDepth 16384

noncomputable section

namespace Cert.PreDecode

open Idealize.ShloMosaic Idealize.ShloMosaic.TcCoe Idealize.ShloMosaic.ValueIdx Idealize.SL.Sem

/-- A 32-bit word that reads, signed, at least the word 0 and below the word 100 is the word of a number below 100. -/
theorem word_range (x : BitVec 32) (h0 : (0#32 : BitVec 32).toInt ≤ x.toInt)
    (h1 : x.toInt < (100#32 : BitVec 32).toInt) : ∃ n : Nat, n < 100 ∧ x = BitVec.ofNat 32 n := by
  have e0 : (0#32 : BitVec 32).toInt = 0 := by decide
  have e1 : (100#32 : BitVec 32).toInt = 100 := by decide
  rw [e0] at h0
  rw [e1] at h1
  have hx := BitVec.toInt_eq_toNat_cond x
  have hlt := x.isLt
  refine ⟨x.toNat, ?_, ?_⟩
  · split at hx <;> omega
  · apply BitVec.eq_of_toNat_eq
    rw [BitVec.toNat_ofNat]
    exact (Nat.mod_eq_of_lt hlt).symm

/-- An elementwise `and` of two one-bit arrays that is 1 at an index has both operands 1 there. -/
theorem andi_apply_eq_one {s : Shape} (x y : IVec s 1) (i : s.Idx) (h : andi x y i = 1#1) :
    x i = 1#1 ∧ y i = 1#1 :=
  IntOp.andi_eq_one.1 h

/-- The rank-0 shape has one index. -/
instance subsingleton_scalar_idx : Subsingleton Cert.Pre_finite_inputs.S_.Idx :=
  ⟨fun a b => funext fun d => d.elim0⟩

/-- The range test of one element, read back: the two signed comparisons against the broadcast constants 0 and 100
    both hold, so the element is the word of a number below 100. -/
theorem elem_range [Cert.Pre_finite_inputs.Facts] (a18 : IVec Cert.Pre_finite_inputs.S100000 32)
    (h0 : (Cert.Pre_finite_inputs.S_).BroadcastsInDim Cert.Pre_finite_inputs.S100000 ![])
    (i : Cert.Pre_finite_inputs.S100000.Idx)
    (h : andi (cmpi .sge a18 (broadcastInDim Cert.Pre_finite_inputs.S100000 ![] h0 (constantI Cert.Pre_finite_inputs.S_ 32 0#32)))
          (cmpi .slt a18 (broadcastInDim Cert.Pre_finite_inputs.S100000 ![] h0 (constantI Cert.Pre_finite_inputs.S_ 32 100#32))) i = 1#1) :
    ∃ n : Nat, n < 100 ∧ a18 i = BitVec.ofNat 32 n := by
  obtain ⟨hge, hlt⟩ := andi_apply_eq_one _ _ _ h
  have hge' : IntOp.cmpi .sge (a18 i) 0#32 = 1#1 := hge
  have hlt' : IntOp.cmpi .slt (a18 i) 100#32 = 1#1 := hlt
  exact word_range _ (IntOp.cmpi_sge.1 hge') (IntOp.cmpi_slt.1 hlt')

/-- The last part of the printed predicate, decoded: if it is 1, every element of the index array is the word of a
    number below 100. Only the final `and` and the reduction under it are read; the other conjunct stays opaque. -/
theorem part6_decode [Cert.Pre_finite_inputs.Facts] {F : FTy → Type} [FloatOps F]
    (a18 : IVec Cert.Pre_finite_inputs.S100000 32) (a32 : FVec F Cert.Pre_finite_inputs.S_ .f32)
    (v98 : IVec Cert.Pre_finite_inputs.S_ 1) (v101 : IVec Cert.Pre_finite_inputs.S128 1)
    (c39 : IVec Cert.Pre_finite_inputs.S_ 1)
    (h : Cert.Pre_finite_inputs.fn_part6 (F := F) a18 a32 v98 v101 c39 ix0 = 1#1)
    (i : Cert.Pre_finite_inputs.S100000.Idx) :
    ∃ n : Nat, n < 100 ∧ a18 i = BitVec.ofNat 32 n := by
  unfold Cert.Pre_finite_inputs.fn_part6 at h
  dsimp only at h
  have h1 := (andi_apply_eq_one _ _ _ h).2
  have h2 := Host.reduce_andi_all _ _ _ _ _ h1 i
  exact elem_range a18 _ i h2

theorem idx_range (m : (ℓ : Loc Cert.KernelIdeal.nD Cert.KernelIdeal.τ Cert.KernelIdeal.sig) → Buf (Elt Ideal) ℓ)
    (h : Cert.Pre_KernelIdeal m) (c : Dev Cert.KernelIdeal.nD) (r : Fin 100000) :
    ∃ n : Nat, n < 100 ∧
      (m ((c.tc : Thread Cert.KernelIdeal.nD Cert.KernelIdeal.τ).loc Cert.KernelIdeal.main_arg18)
        : Cert.KernelIdeal.S100000.Idx → BitVec 32) (ix1 r) = BitVec.ofNat 32 n := by
  have h0 := congrFun (h c) ix0
  exact part6_decode _ _ _ _ _ h0 (ix1 r)

end Cert.PreDecode

end
-- ==== Proof.lean ====
/-
  The certificate of the sparse message-passing kernel against its jnp reference, over the extended reals.

  The kernel keeps the six sparse aggregations (scatter-adds of gathered rows) as host operations, the same ones the
  reference applies, and moves the three dense updates into four pallas_calls: the price row of every item as a one-hot
  product against the price table padded to 128 rows; the item update; the price update; the user update. Each dense
  update is a gate — the logistic function of linear layers over tables laid side by side — blended with its inputs.
  At the ideal instance a bf16 copy is the value itself, a matrix product into a zero accumulator is the sum over the
  contracted column, and the kernel's logistic and the reference's 1 / (1 + exp(−x)) are one function; so each result
  is the same function of the arguments, index by index, on both sides (Proof/Spec.lean).
  The one-hot product picks row idx of the padded table, which is the reference's `pri_emb[idx]` exactly where
  0 ≤ idx < 100: the precondition says so (outside that range the reference itself indexes out of range).

  Kernel side: the launch theorem over @main's ten segments, its post naming the three result buffers
  (Proof/KRun.lean); each result walked back through the segment boundaries to its region's output array and each
  region input to the launch memory (Proof/Walk1.lean, Proof/Walk2.lean); each region's output array as one function of
  its inputs (Proof/Region0.lean … Region3.lean); the one-hot product as the gather (Proof/GatherEq.lean) under the
  decoded index range (Proof/PreDecode.lean). Reference side: its generated run, each result read at an index
  (Proof/RefIP.lean, Proof/RefU.lean). The sparse aggregations are named once (Proof/Chains.lean) and never opened.
-/
import proofs.«424989_j54769422959169_1_alg».proof.Defs
import proofs.«424989_j54769422959169_1_alg».proof.Proof.Gen.Kernel
import proofs.«424989_j54769422959169_1_alg».proof.Proof.Gen.Kernel.Skeleton
import proofs.«424989_j54769422959169_1_alg».proof.Proof.Gen.Kernel.Launch
import proofs.«424989_j54769422959169_1_alg».proof.Proof.Gen.Kernel.Points
import proofs.«424989_j54769422959169_1_alg».proof.Proof.Gen.Kernel.Frame
import proofs.«424989_j54769422959169_1_alg».proof.Proof.Gen.KernelIdeal
import proofs.«424989_j54769422959169_1_alg».proof.Proof.Gen.KernelIdeal.Skeleton
import proofs.«424989_j54769422959169_1_alg».proof.Proof.Gen.KernelIdeal.Launch
import proofs.«424989_j54769422959169_1_alg».proof.Proof.Gen.KernelIdeal.Points
import proofs.«424989_j54769422959169_1_alg».proof.Proof.Gen.KernelIdeal.Frame
import proofs.«424989_j54769422959169_1_alg».proof.Proof.Gen.ReferenceIdeal
import proofs.«424989_j54769422959169_1_alg».proof.Proof.Gen.Pre_finite_inputs
import proofs.«424989_j54769422959169_1_alg».proof.Proof.Gen.ReferenceIdeal.Run
import proofs.«424989_j54769422959169_1_alg».proof.Proof.KRun
import proofs.«424989_j54769422959169_1_alg».proof.Proof.KValue
import proofs.«424989_j54769422959169_1_alg».proof.Proof.RefIP
import proofs.«424989_j54769422959169_1_alg».proof.Proof.RefU
import proofs.«424989_j54769422959169_1_alg».proof.Proof.PreDecode
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.ShloMosaic.StableHlo Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- Both runs end, from memories that agree on the arguments, with the specification's three tables of the arguments. -/
theorem algebraic : Cert.algebraic_KernelIdeal_ReferenceIdeal := by
  intro m ρ m' ρ' hpre hagree
  refine ⟨fun c => Cert.KernelIdeal.KValue.itemOf m c, fun c => Cert.KernelIdeal.KValue.priceOf m c,
    fun c => Cert.KernelIdeal.KValue.userOf m c, ?_, ?_⟩
  · refine (θ_run Cert.KernelIdeal.defs _ _).mono (fun r h c => ?_) (Cert.KernelIdeal.KRun.run_results (F := Ideal) m ρ)
    obtain ⟨h1, h2, h3, hrest⟩ := h c
    exact ⟨h1.trans (Cert.KernelIdeal.KValue.item_end m ρ c), h2.trans (Cert.KernelIdeal.KValue.price_end m ρ c),
      h3.trans (Cert.KernelIdeal.KValue.user_end m ρ c (Cert.PreDecode.idx_range m hpre c)), hrest⟩
  · refine (θ_run Cert.ReferenceIdeal.defs _ _).mono (fun r h c => ?_) (Cert.ReferenceIdeal.Value.run (F := Ideal) m' ρ')
    obtain ⟨h1, h2, h3, hrest⟩ := h c
    obtain ⟨a0, a1, a2, a3, a4, a5, a6, a7, a8, a9, a10, a11, a12, a13, a14, a15, a16, a17, a18, a19, a20, a21, a22, a23, a24, a25, a26, a27, a28, a29, a30, a31, a32⟩ := hagree c
    refine ⟨h1.trans ?_, h2.trans ?_, h3.trans ?_, hrest⟩
    · refine (Cert.ReferenceIdeal.Value.val4_main_v72 (launchContents m' c)).symm.trans ?_
      refine (Cert.ReferenceIdeal.RefIP.ref_item (launchContents m' c)).trans ?_
      show _ = Cert.KernelIdeal.KValue.itemOf m c
      unfold Cert.KernelIdeal.KValue.itemOf
      rw [← a0, ← a1, ← a2, ← a3, ← a4, ← a5, ← a6, ← a7, ← a8, ← a9, ← a10, ← a11, ← a19, ← a22, ← a23, ← a24, ← a25, ← a32]
    · refine (Cert.ReferenceIdeal.Value.val4_main_v115 (launchContents m' c)).symm.trans ?_
      refine (Cert.ReferenceIdeal.RefIP.ref_price (launchContents m' c)).trans ?_
      show _ = Cert.KernelIdeal.KValue.priceOf m c
      unfold Cert.KernelIdeal.KValue.priceOf
      rw [← a0, ← a1, ← a12, ← a13, ← a14, ← a20, ← a26, ← a27, ← a28, ← a29]
    · refine (Cert.ReferenceIdeal.Value.val4_main_v175 (launchContents m' c)).symm.trans ?_
      refine (Cert.ReferenceIdeal.RefU.ref_user (launchContents m' c)).trans ?_
      show _ = Cert.KernelIdeal.KValue.userOf m c
      unfold Cert.KernelIdeal.KValue.userOf
      rw [← a0, ← a1, ← a2, ← a15, ← a16, ← a17, ← a18, ← a21, ← a30, ← a31]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
